-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S640000x3 : Shape := ⟨2, ![640000, 3]⟩
abbrev S7x128 : Shape := ⟨2, ![7, 128]⟩
abbrev S128 : Shape := ⟨1, ![128]⟩
abbrev S3x128 : Shape := ⟨2, ![3, 128]⟩
abbrev S128x128 : Shape := ⟨2, ![128, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x640000 : Shape := ⟨2, ![2, 640000]⟩
abbrev S100000 : Shape := ⟨1, ![100000]⟩
abbrev S_ : Shape := ⟨0, ![]⟩
abbrev S1x640000 : Shape := ⟨2, ![1, 640000]⟩
abbrev S640000 : Shape := ⟨1, ![640000]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S640000x3 : S_.BroadcastsInDim S640000x3 (![] : Fin 0 → Fin S640000x3.rank)
  reducesTo_S640000x3_S_d0_1 : S640000x3.ReducesTo [0, 1] S_
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part6 {F : FTy → Type} [FloatOps F] (main_arg20 : IVec S2x640000 32) (main_v98 : IVec S_ 1) (main_v102 : IVec S640000 1) : IVec S_ 1 :=
  let main_v103 : IVec S1x640000 32 := (extractStridedSlice S1x640000 ![0, 0] · slices_S2x640000_S1x640000_0_0) main_arg20
  let main_v104 : IVec S640000 32 := shapeCast S640000 main_v103 shapeCasts_S1x640000_S640000
  let main_c_39 : IVec S_ 32 := constantI S_ 32 100000#32
  let main_v105 : IVec S640000 32 := broadcastInDim S640000 ![] bcast_S_S640000 main_c_39
  let main_v106 : IVec S640000 1 := cmpi .slt main_v104 main_v105
  let main_v107 : IVec S640000 1 := andi main_v102 main_v106
  let main_c_40 : IVec S_ 1 := constantI S_ 1 1#1
  let main_v108 : IVec S_ 1 := (fun x v => Host.reduce IntOp.andi x v reducesTo_S640000_S_d0 h_S_) main_v107 main_c_40
  let main_v109 : IVec S_ 1 := andi main_v98 main_v108
  main_v109

def fn_part5 {F : FTy → Type} [FloatOps F] (main_arg18 : FVec F S64x1 .f32) (main_arg19 : FVec F S1 .f32) (main_arg20 : IVec S2x640000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : IVec S1x640000 32 := (extractStridedSlice S1x640000 ![0, 0] · slices_S2x640000_S1x640000_0_0) main_arg20
  let main_v100 : IVec S640000 32 := shapeCast S640000 main_v99 shapeCasts_S1x640000_S640000
  let main_c_38 : IVec S_ 32 := constantI S_ 32 4294867296#32
  let main_v101 : IVec S640000 32 := broadcastInDim S640000 ![] bcast_S_S640000 main_c_38
  let main_v102 : IVec S640000 1 := cmpi .sge main_v100 main_v101
  fn_part6 (F := F) main_arg20 main_v98 main_v102

def fn_part4 {F : FTy → Type} [FloatOps F] (main_arg14 : FVec F S64x1 .f32) (main_arg15 : FVec F S1 .f32) (main_arg16 : FVec F S128x64 .f32) (main_arg17 : FVec F S64 .f32) (main_arg18 : FVec F S64x1 .f32) (main_arg19 : FVec F S1 .f32) (main_arg20 : IVec S2x640000 32) (main_v63 : IVec S_ 1) (main_v67 : IVec S_ 1) : IVec S_ 1 :=
  let main_v68 : IVec S_ 1 := andi main_v63 main_v67
  let main_v69 : FVec F S64x1 .f32 := Host.absf main_arg14
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S128x64 .f32 := Host.absf main_arg16
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S3x128 .f32) (main_arg12 : FVec F S128x64 .f32) (main_arg13 : FVec F S64 .f32) (main_arg14 : FVec F S64x1 .f32) (main_arg15 : FVec F S1 .f32) (main_arg16 : FVec F S128x64 .f32) (main_arg17 : FVec F S64 .f32) (main_arg18 : FVec F S64x1 .f32) (main_arg19 : FVec F S1 .f32) (main_arg20 : IVec S2x640000 32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_v63 main_v67

def fn_part2 {F : FTy → Type} [FloatOps F] (main_arg7 : FVec F S128 .f32) (main_arg8 : FVec F S3x128x128 .f32) (main_arg9 : FVec F S3x128 .f32) (main_arg10 : FVec F S3x128x128 .f32) (main_arg11 : FVec F S3x128 .f32) (main_arg12 : FVec F S128x64 .f32) (main_arg13 : FVec F S64 .f32) (main_arg14 : FVec F S64x1 .f32) (main_arg15 : FVec F S1 .f32) (main_arg16 : FVec F S128x64 .f32) (main_arg17 : FVec F S64 .f32) (main_arg18 : FVec F S64x1 .f32) (main_arg19 : FVec F S1 .f32) (main_arg20 : IVec S2x640000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg10
  let main_cst_18 : FVec F S_ .f32 := constant S_ .f32 0x7F800000#32
  let main_v50 : FVec F S3x128x128 .f32 := broadcastInDim S3x128x128 ![] bcast_S_S3x128x128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S3x128 .f32) (main_arg5 : FVec F S128 .f32) (main_arg6 : FVec F S128x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S128x64 .f32) (main_arg13 : FVec F S64 .f32) (main_arg14 : FVec F S64x1 .f32) (main_arg15 : FVec F S1 .f32) (main_arg16 : FVec F S128x64 .f32) (main_arg17 : FVec F S64 .f32) (main_arg18 : FVec F S64x1 .f32) (main_arg19 : FVec F S1 .f32) (main_arg20 : IVec S2x640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S100000x7 .f32) (main_arg1 : FVec F S640000x3 .f32) (main_arg2 : FVec F S7x128 .f32) (main_arg3 : FVec F S128 .f32) (main_arg4 : FVec F S3x128 .f32) (main_arg5 : FVec F S128 .f32) (main_arg6 : FVec F S128x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S128x64 .f32) (main_arg13 : FVec F S64 .f32) (main_arg14 : FVec F S64x1 .f32) (main_arg15 : FVec F S1 .f32) (main_arg16 : FVec F S128x64 .f32) (main_arg17 : FVec F S64 .f32) (main_arg18 : FVec F S64x1 .f32) (main_arg19 : FVec F S1 .f32) (main_arg20 : IVec S2x640000 32) (main_arg21 : IVec S100000 32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S640000x3 .f32 := Host.absf main_arg1
  let main_cst_0 : FVec F S_ .f32 := constant S_ .f32 0x7F800000#32
  let main_v5 : FVec F S640000x3 .f32 := broadcastInDim S640000x3 ![] bcast_S_S640000x3 main_cst_0
  let main_v6 : IVec S640000x3 1 := cmpf .olt main_v4 main_v5
  let main_c_1 : IVec S_ 1 := constantI S_ 1 1#1
  let main_v7 : IVec S_ 1 := (fun x v => Host.reduce IntOp.andi x v reducesTo_S640000x3_S_d0_1 h_S_) main_v6 main_c_1
  let main_v8 : IVec S_ 1 := andi main_v3 main_v7
  let main_v9 : FVec F S7x128 .f32 := Host.absf main_arg2
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x7 : Shape := ⟨2, ![100000, 7]⟩
abbrev S640000x3 : Shape := ⟨2, ![640000, 3]⟩
abbrev S7x128 : Shape := ⟨2, ![7, 128]⟩
abbrev S128 : Shape := ⟨1, ![128]⟩
abbrev S3x128 : Shape := ⟨2, ![3, 128]⟩
abbrev S128x128 : Shape := ⟨2, ![128, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x640000 : Shape := ⟨2, ![2, 640000]⟩
abbrev S100000 : Shape := ⟨1, ![100000]⟩
abbrev S100000x128 : Shape := ⟨2, ![100000, 128]⟩
abbrev S10000x7 : Shape := ⟨2, ![10000, 7]⟩
abbrev S10000x128 : Shape := ⟨2, ![10000, 128]⟩
abbrev S1x128 : Shape := ⟨2, ![1, 128]⟩
abbrev S640000x128 : Shape := ⟨2, ![640000, 128]⟩
abbrev S10000x3 : Shape := ⟨2, ![10000, 3]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S1x128x128 : Shape := ⟨3, ![1, 128, 128]⟩
abbrev S2048 : Shape := ⟨1, ![2048]⟩
abbrev S100000x1 : Shape := ⟨2, ![100000, 1]⟩
abbrev S2048x128 : Shape := ⟨2, ![2048, 128]⟩
abbrev S2048x1 : Shape := ⟨2, ![2048, 1]⟩
abbrev S2048x64 : Shape := ⟨2, ![2048, 64]⟩
abbrev S1x64 : Shape := ⟨2, ![1, 64]⟩

abbrev nBuf : Space → Nat
  | .hbm => 179
  | .vmem => 62
  | .smem => 0
  | _ => 0

abbrev hbmTy0_0 (i : Nat) : BufTy := match i % 128 with
  | 0 => ⟨S100000x7, .f32⟩
  | 1 => ⟨S640000x3, .f32⟩
  | 2 => ⟨S7x128, .f32⟩
  | 3 => ⟨S128, .f32⟩
  | 4 => ⟨S3x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S128x64, .f32⟩
  | 13 => ⟨S64, .f32⟩
  | 14 => ⟨S64x1, .f32⟩
  | 15 => ⟨S1, .f32⟩
  | 16 => ⟨S128x64, .f32⟩
  | 17 => ⟨S64, .f32⟩
  | 18 => ⟨S64x1, .f32⟩
  | 19 => ⟨S1, .f32⟩
  | 20 => ⟨S2x640000, .i32⟩
  | 21 => ⟨S100000, .i32⟩
  | 22 => ⟨S100000x128, .f32⟩
  | 23 => ⟨S640000x128, .f32⟩
  | 24 => ⟨S1x640000, .i32⟩
  | 25 => ⟨S640000, .i32⟩
  | 26 => ⟨S1x640000, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S1, .i32⟩
  | 37 => ⟨S_, .i32⟩
  | 38 => ⟨S640000x1, .i32⟩
  | 39 => ⟨S640000x1, .i1⟩
  | 40 => ⟨S1x1, .i32⟩
  | 41 => ⟨S640000x1, .i32⟩
  | 42 => ⟨S640000x1, .i1⟩
  | 43 => ⟨S640000x1, .i1⟩
  | 44 => ⟨S_, .i1⟩
  | 45 => ⟨S640000, .i1⟩
  | 46 => ⟨S640000x128, .f32⟩
  | 47 => ⟨S640000x128, .i1⟩
  | 48 => ⟨S_, .f32⟩
  | 49 => ⟨S640000x128, .f32⟩
  | 50 => ⟨S640000x128, .f32⟩
  | 51 => ⟨S640000x128, .f32⟩
  | 52 => ⟨S_, .f32⟩
  | 53 => ⟨S100000x128, .f32⟩
  | 54 => ⟨S640000x1, .i32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S100000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S1, .i32⟩
  | 74 => ⟨S_, .i32⟩
  | 75 => ⟨S640000x1, .i32⟩
  | 76 => ⟨S640000x1, .i1⟩
  | 77 => ⟨S1x1, .i32⟩
  | 78 => ⟨S640000x1, .i32⟩
  | 79 => ⟨S640000x1, .i1⟩
  | 80 => ⟨S640000x1, .i1⟩
  | 81 => ⟨S_, .i1⟩
  | 82 => ⟨S640000, .i1⟩
  | 83 => ⟨S640000x128, .f32⟩
  | 84 => ⟨S640000x128, .i1⟩
  | 85 => ⟨S_, .f32⟩
  | 86 => ⟨S640000x128, .f32⟩
  | 87 => ⟨S640000x128, .f32⟩
  | 88 => ⟨S640000x128, .f32⟩
  | 89 => ⟨S_, .f32⟩
  | 90 => ⟨S100000x128, .f32⟩
  | 91 => ⟨S640000x1, .i32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S100000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S1, .i32⟩
  | 111 => ⟨S_, .i32⟩
  | 112 => ⟨S640000x1, .i32⟩
  | 113 => ⟨S640000x1, .i1⟩
  | 114 => ⟨S1x1, .i32⟩
  | 115 => ⟨S640000x1, .i32⟩
  | 116 => ⟨S640000x1, .i1⟩
  | 117 => ⟨S640000x1, .i1⟩
  | 118 => ⟨S_, .i1⟩
  | 119 => ⟨S640000, .i1⟩
  | 120 => ⟨S640000x128, .f32⟩
  | 121 => ⟨S640000x128, .i1⟩
  | 122 => ⟨S_, .f32⟩
  | 123 => ⟨S640000x128, .f32⟩
  | 124 => ⟨S640000x128, .f32⟩
  | 125 => ⟨S640000x128, .f32⟩
  | 126 => ⟨S_, .f32⟩
  | 127 => ⟨S100000x128, .f32⟩
  | _ => ⟨S100000x7, .f32⟩

abbrev hbmTy0_1 (i : Nat) : BufTy := match i % 128 with
  | 0 => ⟨S640000x1, .i32⟩
  | 1 => ⟨S100000x128, .f32⟩
  | 2 => ⟨S1x128x128, .f32⟩
  | 3 => ⟨S128x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S128, .f32⟩
  | 10 => ⟨S100000x128, .f32⟩
  | 11 => ⟨S_, .f32⟩
  | 12 => ⟨S100000, .f32⟩
  | 13 => ⟨S_, .f32⟩
  | 14 => ⟨S2048, .f32⟩
  | 15 => ⟨S100000x1, .i32⟩
  | 16 => ⟨S2048, .f32⟩
  | 17 => ⟨S_, .f32⟩
  | 18 => ⟨S2048x128, .f32⟩
  | 19 => ⟨S100000x1, .i32⟩
  | 20 => ⟨S2048x128, .f32⟩
  | 21 => ⟨S_, .f32⟩
  | 22 => ⟨S2048, .f32⟩
  | 23 => ⟨S2048, .f32⟩
  | 24 => ⟨S2048x1, .f32⟩
  | 25 => ⟨S2048x128, .f32⟩
  | 26 => ⟨S2048x128, .f32⟩
  | 27 => ⟨S2048x64, .f32⟩
  | 28 => ⟨S1x64, .f32⟩
  | 29 => ⟨S2048x64, .f32⟩
  | 30 => ⟨S2048x64, .f32⟩
  | 31 => ⟨S_, .f32⟩
  | 32 => ⟨S2048x64, .f32⟩
  | 33 => ⟨S2048x64, .f32⟩
  | 34 => ⟨S2048x1, .f32⟩
  | 35 => ⟨S1x1, .f32⟩
  | 36 => ⟨S2048x1, .f32⟩
  | 37 => ⟨S2048x1, .f32⟩
  | 38 => ⟨S2048, .f32⟩
  | 39 => ⟨S2048x64, .f32⟩
  | 40 => ⟨S1x64, .f32⟩
  | 41 => ⟨S2048x64, .f32⟩
  | 42 => ⟨S2048x64, .f32⟩
  | 43 => ⟨S_, .f32⟩
  | 44 => ⟨S2048x64, .f32⟩
  | 45 => ⟨S2048x64, .f32⟩
  | 46 => ⟨S2048x1, .f32⟩
  | 47 => ⟨S1x1, .f32⟩
  | 48 => ⟨S2048x1, .f32⟩
  | 49 => ⟨S2048x1, .f32⟩
  | 50 => ⟨S2048, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S10000x7, .f32⟩
  | .local _ .vmem, ⟨1, _⟩ => ⟨S10000x7, .f32⟩
  | .local _ .vmem, ⟨2, _⟩ => ⟨S7x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x3, .f32⟩
  | .local _ .vmem, ⟨7, _⟩ => ⟨S10000x3, .f32⟩
  | .local _ .vmem, ⟨8, _⟩ => ⟨S3x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x128, .f32⟩
  | .local _ .vmem, ⟨41, _⟩ => ⟨S128, .f32⟩
  | .local _ .vmem, ⟨42, _⟩ => ⟨S128x128, .f32⟩
  | .local _ .vmem, ⟨43, _⟩ => ⟨S128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S128x128, .f32⟩
  | .local _ .vmem, ⟨57, _⟩ => ⟨S128, .f32⟩
  | .local _ .vmem, ⟨58, _⟩ => ⟨S128x128, .f32⟩
  | .local _ .vmem, ⟨59, _⟩ => ⟨S128, .f32⟩
  | .local _ .vmem, ⟨60, _⟩ => ⟨S10000x128, .f32⟩
  | .local _ .vmem, ⟨61, _⟩ => ⟨S10000x128, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v20 : Ref sig .tc := ⟨.hbm, 87, rfl⟩
abbrev main_v21 : Ref sig .tc := ⟨.hbm, 88, rfl⟩
abbrev main_cst_0 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_c_1 : Ref sig .tc := ⟨.hbm, 110, rfl⟩
abbrev main_call2_c_2 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_3 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_call2_cst : Ref sig .tc := ⟨.hbm, 122, rfl⟩
abbrev main_call2_v15 : Ref sig .tc := ⟨.hbm, 123, rfl⟩
abbrev main_v34 : Ref sig .tc := ⟨.hbm, 124, rfl⟩
abbrev main_v35 : Ref sig .tc := ⟨.hbm, 125, rfl⟩
abbrev main_cst_1 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_cst_2 : Ref sig .tc := ⟨.hbm, 139, rfl⟩
abbrev main_v48 : Ref sig .tc := ⟨.hbm, 140, rfl⟩
abbrev main_cst_3 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_cst_4 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_cst_5 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_call3_cst : Ref sig .tc := ⟨.hbm, 159, rfl⟩
abbrev main_call3_v0 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_call4_cst : Ref sig .tc := ⟨.hbm, 171, rfl⟩
abbrev main_call4_v0 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc7_stg6_0 : Ref sig .tc := ⟨.vmem, 60, rfl⟩
abbrev cc7_stg6_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem6_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem4_0 : DmaSem sig := 58
abbrev cc7_sem5_0 : DmaSem sig := 59
abbrev cc7_sem6_0 : DmaSem sig := 60
abbrev cc7_sem6_1 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  inb_S10000x3_S10000x3_0_0 : ∀ a, (![0, 0] : Fin 2 → Nat) a + S10000x3.size a ≤ S10000x3.size a
  h_S10000x3 : 0 < S10000x3.numel
  inb_S3x128_S3x128_0_0 : ∀ a, (![0, 0] : Fin 2 → Nat) a + S3x128.size a ≤ S3x128.size a
  h_S3x128 : 0 < S3x128.numel
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S10000x128_S10000x128 : S10000x128.ShapeCasts S10000x128
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S2048 : S_.BroadcastsInDim S2048 (![] : Fin 0 → Fin S2048.rank)
  bcast_S100000_S100000x1_0 : S100000.BroadcastsInDim S100000x1 (![0] : Fin 1 → Fin S100000x1.rank)
  bcast_S_S2048x128 : S_.BroadcastsInDim S2048x128 (![] : Fin 0 → Fin S2048x128.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S1x1_S2048x1_0_1 : S1x1.BroadcastsInDim S2048x1 (![0, 1] : Fin 2 → Fin S2048x1.rank)
  shapeCasts_S2048x1_S2048 : S2048x1.ShapeCasts S2048
  dot_S10000x7_S7x128_S10000x128_1_0_0_1_n_n_wf : DotDims.WF S10000x7 S7x128 S10000x128 [1] [0] [0] [1] [] []
  dot_S10000x3_S3x128_S10000x128_1_0_0_1_n_n_wf : DotDims.WF S10000x3 S3x128 S10000x128 [1] [0] [0] [1] [] []
  dot_S10000x128_S128x128_S10000x128_1_0_0_1_n_n_wf : DotDims.WF S10000x128 S128x128 S10000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S2048_S100000x1_S100000_n_0_0_1_wf : ScatterDims.WF S2048 S100000x1 S100000 [] [0] [0] 1
  scatter_S2048x128_S100000x1_S100000x128_1_0_0_1_wf : ScatterDims.WF S2048x128 S100000x1 S100000x128 [1] [0] [0] 1
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x3.size a ≤ S640000x3.size a
  hwx1_0 : ∀ i : grid1.Coords, EltTy.bits .f32 = 32 ∨ (Rect.block (s := S640000x3) S10000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S640000x128.size a
  hwx1_5 : ∀ i : grid1.Coords, EltTy.bits .f32 = 32 ∨ (Rect.block (s := S640000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S640000x128.size a
  hwx2_0 : ∀ i : grid2.Coords, EltTy.bits .f32 = 32 ∨ (Rect.block (s := S640000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S640000x128.size a
  hwx2_1 : ∀ i : grid2.Coords, EltTy.bits .f32 = 32 ∨ (Rect.block (s := S640000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S640000x128.size a
  hwx2_2 : ∀ i : grid2.Coords, EltTy.bits .f32 = 32 ∨ (Rect.block (s := S640000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S640000x128.size a
  hwx4_0 : ∀ i : grid4.Coords, EltTy.bits .f32 = 32 ∨ (Rect.block (s := S640000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S640000x128.size a
  hwx4_1 : ∀ i : grid4.Coords, EltTy.bits .f32 = 32 ∨ (Rect.block (s := S640000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S640000x128.size a
  hwx4_2 : ∀ i : grid4.Coords, EltTy.bits .f32 = 32 ∨ (Rect.block (s := S640000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S640000x128.size a
  hwx6_0 : ∀ i : grid6.Coords, EltTy.bits .f32 = 32 ∨ (Rect.block (s := S640000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S640000x128.size a
  hwx6_1 : ∀ i : grid6.Coords, EltTy.bits .f32 = 32 ∨ (Rect.block (s := S640000x128) S10000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S640000x128.size a
  hwx6_2 : ∀ i : grid6.Coords, EltTy.bits .f32 = 32 ∨ (Rect.block (s := S640000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S100000x128.size a
  hwx7_1 : ∀ i : grid7.Coords, EltTy.bits .f32 = 32 ∨ (Rect.block (s := S100000x128) S10000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x128.size a ≤ S100000x128.size a
  hwx7_6 : ∀ i : grid7.Coords, EltTy.bits .f32 = 32 ∨ (Rect.block (s := S100000x128) S10000x128.size (cc7_transform_6 i) (hinb7_6 i)).WholeWords (EltTy.packing .f32)

variable [Facts₀]

def dot_S10000x7_S7x128_S10000x128_1_0_0_1_n_n : DotDims S10000x7 S7x128 S10000x128 where
  lhsContracting := [1]
  rhsContracting := [0]
  lhsNonContracting := [0]
  rhsNonContracting := [1]
  lhsBatch := []
  rhsBatch := []
  wf := dot_S10000x7_S7x128_S10000x128_1_0_0_1_n_n_wf
def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v18) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v19) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v20) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v19) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v26) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v28) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v32) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v33) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v34) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v33) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v40) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v42) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v44) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v46) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v47) S10000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S100000x7 : Shape := ⟨2, ![100000, 7]⟩
abbrev S640000x3 : Shape := ⟨2, ![640000, 3]⟩
abbrev S7x128 : Shape := ⟨2, ![7, 128]⟩
abbrev S128 : Shape := ⟨1, ![128]⟩
abbrev S3x128 : Shape := ⟨2, ![3, 128]⟩
abbrev S128x128 : Shape := ⟨2, ![128, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x640000 : Shape := ⟨2, ![2, 640000]⟩
abbrev S100000 : Shape := ⟨1, ![100000]⟩
abbrev S100000x128 : Shape := ⟨2, ![100000, 128]⟩
abbrev S1x128 : Shape := ⟨2, ![1, 128]⟩
abbrev S640000x128 : Shape := ⟨2, ![640000, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S1x128x128 : Shape := ⟨3, ![1, 128, 128]⟩
abbrev S2048 : Shape := ⟨1, ![2048]⟩
abbrev S100000x1 : Shape := ⟨2, ![100000, 1]⟩
abbrev S2048x128 : Shape := ⟨2, ![2048, 128]⟩
abbrev S2048x1 : Shape := ⟨2, ![2048, 1]⟩
abbrev S2048x64 : Shape := ⟨2, ![2048, 64]⟩
abbrev S1x64 : Shape := ⟨2, ![1, 64]⟩
abbrev S1x1 : Shape := ⟨2, ![1, 1]⟩

abbrev nBuf : Space → Nat
  | .hbm => 201
  | .vmem => 0
  | .smem => 0
  | _ => 0

abbrev hbmTy0_0 (i : Nat) : BufTy := match i % 128 with
  | 0 => ⟨S100000x7, .f32⟩
  | 1 => ⟨S640000x3, .f32⟩
  | 2 => ⟨S7x128, .f32⟩
  | 3 => ⟨S128, .f32⟩
  | 4 => ⟨S3x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S128x64, .f32⟩
  | 13 => ⟨S64, .f32⟩
  | 14 => ⟨S64x1, .f32⟩
  | 15 => ⟨S1, .f32⟩
  | 16 => ⟨S128x64, .f32⟩
  | 17 => ⟨S64, .f32⟩
  | 18 => ⟨S64x1, .f32⟩
  | 19 => ⟨S1, .f32⟩
  | 20 => ⟨S2x640000, .i32⟩
  | 21 => ⟨S100000, .i32⟩
  | 22 => ⟨S100000x128, .f32⟩
  | 23 => ⟨S1x128, .f32⟩
  | 24 => ⟨S100000x128, .f32⟩
  | 25 => ⟨S100000x128, .f32⟩
  | 26 => ⟨S640000x128, .f32⟩
  | 27 => ⟨S1x128, .f32⟩
  | 28 => ⟨S640000x128, .f32⟩
  | 29 => ⟨S640000x128, .f32⟩
  | 30 => ⟨S_, .f32⟩
  | 31 => ⟨S640000x128, .f32⟩
  | 32 => ⟨S640000x128, .f32⟩
  | 33 => ⟨S640000x128, .f32⟩
  | 34 => ⟨S1x128, .f32⟩
  | 35 => ⟨S640000x128, .f32⟩
  | 36 => ⟨S640000x128, .f32⟩
  | 37 => ⟨S1x640000, .i32⟩
  | 38 => ⟨S640000, .i32⟩
  | 39 => ⟨S1x640000, .i32⟩
  | 40 => ⟨S640000, .i32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x128, .f32⟩
  | 50 => ⟨S640000x128, .f32⟩
  | 51 => ⟨S_, .f32⟩
  | 52 => ⟨S640000x128, .f32⟩
  | 53 => ⟨S640000x128, .f32⟩
  | 54 => ⟨S_, .f32⟩
  | 55 => ⟨S100000x128, .f32⟩
  | 56 => ⟨S640000x1, .i32⟩
  | 57 => ⟨S100000x128, .f32⟩
  | 58 => ⟨S100000x128, .f32⟩
  | 59 => ⟨S1x128x128, .f32⟩
  | 60 => ⟨S128x128, .f32⟩
  | 61 => ⟨S100000x128, .f32⟩
  | 62 => ⟨S1x128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x128x128, .f32⟩
  | 71 => ⟨S128x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S640000x128, .f32⟩
  | 91 => ⟨S_, .f32⟩
  | 92 => ⟨S640000x128, .f32⟩
  | 93 => ⟨S640000x128, .f32⟩
  | 94 => ⟨S_, .f32⟩
  | 95 => ⟨S100000x128, .f32⟩
  | 96 => ⟨S640000x1, .i32⟩
  | 97 => ⟨S100000x128, .f32⟩
  | 98 => ⟨S100000x128, .f32⟩
  | 99 => ⟨S1x128x128, .f32⟩
  | 100 => ⟨S128x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S100000x7, .f32⟩

abbrev hbmTy0_1 (i : Nat) : BufTy := match i % 128 with
  | 0 => ⟨S640000x1, .i32⟩
  | 1 => ⟨S640000x128, .f32⟩
  | 2 => ⟨S640000x128, .f32⟩
  | 3 => ⟨S_, .f32⟩
  | 4 => ⟨S640000x128, .f32⟩
  | 5 => ⟨S640000x128, .f32⟩
  | 6 => ⟨S_, .f32⟩
  | 7 => ⟨S100000x128, .f32⟩
  | 8 => ⟨S640000x1, .i32⟩
  | 9 => ⟨S100000x128, .f32⟩
  | 10 => ⟨S100000x128, .f32⟩
  | 11 => ⟨S1x128x128, .f32⟩
  | 12 => ⟨S128x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x128, .f32⟩
  | 23 => ⟨S128x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S100000, .f32⟩
  | 35 => ⟨S_, .f32⟩
  | 36 => ⟨S2048, .f32⟩
  | 37 => ⟨S100000x1, .i32⟩
  | 38 => ⟨S2048, .f32⟩
  | 39 => ⟨S_, .f32⟩
  | 40 => ⟨S2048x128, .f32⟩
  | 41 => ⟨S100000x1, .i32⟩
  | 42 => ⟨S2048x128, .f32⟩
  | 43 => ⟨S_, .f32⟩
  | 44 => ⟨S2048, .f32⟩
  | 45 => ⟨S2048, .f32⟩
  | 46 => ⟨S2048x1, .f32⟩
  | 47 => ⟨S2048x128, .f32⟩
  | 48 => ⟨S2048x128, .f32⟩
  | 49 => ⟨S2048x64, .f32⟩
  | 50 => ⟨S1x64, .f32⟩
  | 51 => ⟨S2048x64, .f32⟩
  | 52 => ⟨S2048x64, .f32⟩
  | 53 => ⟨S_, .f32⟩
  | 54 => ⟨S2048x64, .f32⟩
  | 55 => ⟨S2048x64, .f32⟩
  | 56 => ⟨S2048x1, .f32⟩
  | 57 => ⟨S1x1, .f32⟩
  | 58 => ⟨S2048x1, .f32⟩
  | 59 => ⟨S2048x1, .f32⟩
  | 60 => ⟨S2048, .f32⟩
  | 61 => ⟨S2048x64, .f32⟩
  | 62 => ⟨S1x64, .f32⟩
  | 63 => ⟨S2048x64, .f32⟩
  | 64 => ⟨S2048x64, .f32⟩
  | 65 => ⟨S_, .f32⟩
  | 66 => ⟨S2048x64, .f32⟩
  | 67 => ⟨S2048x64, .f32⟩
  | 68 => ⟨S2048x1, .f32⟩
  | 69 => ⟨S1x1, .f32⟩
  | 70 => ⟨S2048x1, .f32⟩
  | 71 => ⟨S2048x1, .f32⟩
  | 72 => ⟨S2048, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call0_cst : Ref sig .tc := ⟨.hbm, 30, rfl⟩
abbrev main_call0_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call1_cst : Ref sig .tc := ⟨.hbm, 51, rfl⟩
abbrev main_call1_v0 : Ref sig .tc := ⟨.hbm, 52, rfl⟩
abbrev main_v25 : Ref sig .tc := ⟨.hbm, 53, rfl⟩
abbrev main_cst : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call2_cst : Ref sig .tc := ⟨.hbm, 67, rfl⟩
abbrev main_call2_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call3_cst : Ref sig .tc := ⟨.hbm, 78, rfl⟩
abbrev main_call3_v0 : Ref sig .tc := ⟨.hbm, 79, rfl⟩
abbrev main_v47 : Ref sig .tc := ⟨.hbm, 80, rfl⟩
abbrev main_c_1 : Ref sig .tc := ⟨.hbm, 81, rfl⟩
abbrev main_v48 : Ref sig .tc := ⟨.hbm, 82, rfl⟩
abbrev main_v49 : Ref sig .tc := ⟨.hbm, 83, rfl⟩
abbrev main_c_2 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call4_cst : Ref sig .tc := ⟨.hbm, 91, rfl⟩
abbrev main_call4_v0 : Ref sig .tc := ⟨.hbm, 92, rfl⟩
abbrev main_v56 : Ref sig .tc := ⟨.hbm, 93, rfl⟩
abbrev main_cst_3 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call5_cst : Ref sig .tc := ⟨.hbm, 107, rfl⟩
abbrev main_call5_v0 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call6_cst : Ref sig .tc := ⟨.hbm, 118, rfl⟩
abbrev main_call6_v0 : Ref sig .tc := ⟨.hbm, 119, rfl⟩
abbrev main_v78 : Ref sig .tc := ⟨.hbm, 120, rfl⟩
abbrev main_c_4 : Ref sig .tc := ⟨.hbm, 121, rfl⟩
abbrev main_v79 : Ref sig .tc := ⟨.hbm, 122, rfl⟩
abbrev main_v80 : Ref sig .tc := ⟨.hbm, 123, rfl⟩
abbrev main_c_5 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_call7_cst : Ref sig .tc := ⟨.hbm, 131, rfl⟩
abbrev main_call7_v0 : Ref sig .tc := ⟨.hbm, 132, rfl⟩
abbrev main_v87 : Ref sig .tc := ⟨.hbm, 133, rfl⟩
abbrev main_cst_6 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call8_cst : Ref sig .tc := ⟨.hbm, 147, rfl⟩
abbrev main_call8_v0 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_call9_cst : Ref sig .tc := ⟨.hbm, 158, rfl⟩
abbrev main_call9_v0 : Ref sig .tc := ⟨.hbm, 159, rfl⟩
abbrev main_v109 : Ref sig .tc := ⟨.hbm, 160, rfl⟩
abbrev main_cst_7 : Ref sig .tc := ⟨.hbm, 161, rfl⟩
abbrev main_v110 : Ref sig .tc := ⟨.hbm, 162, rfl⟩
abbrev main_cst_8 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_9 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_10 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_call10_cst : Ref sig .tc := ⟨.hbm, 181, rfl⟩
abbrev main_call10_v0 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_call11_cst : Ref sig .tc := ⟨.hbm, 193, rfl⟩
abbrev main_call11_v0 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S2048 : S_.BroadcastsInDim S2048 (![] : Fin 0 → Fin S2048.rank)
  bcast_S100000_S100000x1_0 : S100000.BroadcastsInDim S100000x1 (![0] : Fin 1 → Fin S100000x1.rank)
  bcast_S_S2048x128 : S_.BroadcastsInDim S2048x128 (![] : Fin 0 → Fin S2048x128.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  dot_S100000x7_S7x128_S100000x128_1_0_0_1_n_n_wf : DotDims.WF S100000x7 S7x128 S100000x128 [1] [0] [0] [1] [] []
  dot_S640000x3_S3x128_S640000x128_1_0_0_1_n_n_wf : DotDims.WF S640000x3 S3x128 S640000x128 [1] [0] [0] [1] [] []
  dot_S640000x128_S128x128_S640000x128_1_0_0_1_n_n_wf : DotDims.WF S640000x128 S128x128 S640000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  scatter_S2048_S100000x1_S100000_n_0_0_1_wf : ScatterDims.WF S2048 S100000x1 S100000 [] [0] [0] 1
  scatter_S2048x128_S100000x1_S100000x128_1_0_0_1_wf : ScatterDims.WF S2048x128 S100000x1 S100000x128 [1] [0] [0] 1
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []

variable [Facts₀]

def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def dot_S640000x3_S3x128_S640000x128_1_0_0_1_n_n : DotDims S640000x3 S3x128 S640000x128 where
  lhsContracting := [1]
  rhsContracting := [0]
  lhsNonContracting := [0]
  rhsNonContracting := [1]
  lhsBatch := []
  rhsBatch := []
  wf := dot_S640000x3_S3x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.HostDefs.lean ====
/-
  The host operations between the kernel's regions, each stretch named as ONE function of the arrays it reads.

  Between two pallas regions the program slices the edge list into its source and destination rows, gathers the
  source nodes' features, scatter-adds the messages onto their destination nodes, and slices a layer's weights out of
  the stacked weight arrays. Naming each stretch lets the value proof carry it as a single function and never open
  it: the reference applies the same operations, so equal inputs give equal outputs.

  The gather is the one stretch that is not the reference's. The kernel's `take` first wraps a negative index (adds the
  number of nodes), then tests the wrapped index against the range [0, 99999], gathers, and where the test fails
  replaces the gathered row by a fill value. The reference wraps in the same way and gathers, with no test.
-/
import proofs.«413676_j73890617360755_1_alg».proof.Proof.Gen.KernelIdeal.Launch

noncomputable section

namespace Cert.KernelIdeal.Val

open Cert.KernelIdeal Cert.KernelIdeal.Gen Idealize.ShloMosaic Idealize.ShloMosaic.TcCoe

variable {F : FTy → Type} [FloatOps F]

/-- The source row of the edge list as a flat array of 640000 node indices. -/
def srcK (ei : IVec S2x640000 32) : IVec S640000 32 :=
  shapeCast S640000 (extractStridedSlice S1x640000 ![0, 0] ei slices_S2x640000_S1x640000_0_0) shapeCasts_S1x640000_S640000

/-- The destination row of the edge list as a flat array of 640000 node indices. -/
def dstK (ei : IVec S2x640000 32) : IVec S640000 32 :=
  shapeCast S640000 (extractStridedSlice S1x640000 ![1, 0] ei slices_S2x640000_S1x640000_1_0) shapeCasts_S1x640000_S640000

/-- A negative index counts from the end: where `s < 0`, `s + 100000`; elsewhere `s`. -/
def wrapK (s : IVec S640000 32) : IVec S640000 32 :=
  select (cmpi .slt s (broadcastInDim S640000 ![] bcast_S_S640000 (constantI S_ 32 0#32)))
    (addi s (broadcastInDim S640000 ![] bcast_S_S640000 (constantI S_ 32 100000#32))) s

/-- A flat index array as one column of start indices. -/
def colK (s : IVec S640000 32) : IVec S640000x1 32 := broadcastInDim S640000x1 ![0] bcast_S640000_S640000x1_0 s

/-- Row `e` of the result is row `wrapK s e` of `h` (the gather itself clamps a start index into range). -/
def gatherK (h : FVec F S100000x128 .f32) (s : IVec S640000 32) : FVec F S640000x128 .f32 :=
  Host.gather gather_S100000x128_S640000x1_S640000x128_1_0_n_n_0_1_1128 h (colK (wrapK s))

/-- The range test of the kernel's `take`, one bit per edge: `0 ≤ wrapK s e ≤ 99999`. -/
def inRangeK (s : IVec S640000 32) : IVec S640000 1 :=
  Host.reduce IntOp.andi
    (andi (cmpi .sge (colK (wrapK s)) (broadcastInDim S640000x1 ![] bcast_S_S640000x1 (constantI S_ 32 0#32)))
      (cmpi .sle (colK (wrapK s)) (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- The kernel's `take`: the gathered row where the range test holds, a fill value elsewhere. -/
def takeK (h : FVec F S100000x128 .f32) (s : IVec S640000 32) : FVec F S640000x128 .f32 :=
  select (broadcastInDim S640000x128 ![0] bcast_S640000_S640000x128_0 (inRangeK s)) (gatherK h s)
    (broadcastInDim S640000x128 ![] bcast_S_S640000x128 (constant S_ .f32 0x7FC00000#32))

/-- The messages summed onto their destination nodes, from zero. -/
def aggK (d : IVec S640000 32) (mm : FVec F S640000x128 .f32) : FVec F S100000x128 .f32 :=
  Host.scatterAdd scatter_S100000x128_S640000x1_S640000x128_1_0_0_1
    (broadcastInDim S100000x128 ![] bcast_S_S100000x128 (constant S_ .f32 0x00000000#32)) (colK d) mm

/-- Layer 0's 128×128 matrix out of a stack of three. -/
def mat0K (w : FVec F S3x128x128 .f32) : FVec F S128x128 .f32 :=
  shapeCast S128x128 (extractStridedSlice S1x128x128 ![0, 0, 0] w slices_S3x128x128_S1x128x128_0_0_0) shapeCasts_S1x128x128_S128x128
/-- Layer 1's. -/
def mat1K (w : FVec F S3x128x128 .f32) : FVec F S128x128 .f32 :=
  shapeCast S128x128 (extractStridedSlice S1x128x128 ![1, 0, 0] w slices_S3x128x128_S1x128x128_1_0_0) shapeCasts_S1x128x128_S128x128
/-- Layer 2's. -/
def mat2K (w : FVec F S3x128x128 .f32) : FVec F S128x128 .f32 :=
  shapeCast S128x128 (extractStridedSlice S1x128x128 ![2, 0, 0] w slices_S3x128x128_S1x128x128_2_0_0) shapeCasts_S1x128x128_S128x128

/-- Layer 0's bias row out of a stack of three. -/
def vec0K (b : FVec F S3x128 .f32) : FVec F S128 .f32 :=
  shapeCast S128 (extractStridedSlice S1x128 ![0, 0] b slices_S3x128_S1x128_0_0) shapeCasts_S1x128_S128
/-- Layer 1's. -/
def vec1K (b : FVec F S3x128 .f32) : FVec F S128 .f32 :=
  shapeCast S128 (extractStridedSlice S1x128 ![1, 0] b slices_S3x128_S1x128_1_0) shapeCasts_S1x128_S128
/-- Layer 2's. -/
def vec2K (b : FVec F S3x128 .f32) : FVec F S128 .f32 :=
  shapeCast S128 (extractStridedSlice S1x128 ![2, 0] b slices_S3x128_S1x128_2_0) shapeCasts_S1x128_S128

/-- The mean of the node features over each graph: the features summed onto their graph, divided by the number of the
    graph's nodes, a count below one replaced by one. `g` gives each node's graph. -/
def poolK (h : FVec F S100000x128 .f32) (g : IVec S100000 32) : FVec F S2048x128 .f32 :=
  Host.divf
    (Host.scatterAdd scatter_S2048x128_S100000x1_S100000x128_1_0_0_1
      (broadcastInDim S2048x128 ![] bcast_S_S2048x128 (constant S_ .f32 0x00000000#32))
      (broadcastInDim S100000x1 ![0] bcast_S100000_S100000x1_0 g) h)
    (broadcastInDim S2048x128 ![0, 1] bcast_S2048x1_S2048x128_0_1
      (broadcastInDim S2048x1 ![0] bcast_S2048_S2048x1_0
        (maximumf
          (Host.scatterAdd scatter_S2048_S100000x1_S100000_n_0_0_1
            (broadcastInDim S2048 ![] bcast_S_S2048 (constant S_ .f32 0x00000000#32))
            (broadcastInDim S100000x1 ![0] bcast_S100000_S100000x1_0 g)
            (broadcastInDim S100000 ![] bcast_S_S100000 (constant S_ .f32 0x3F800000#32)))
          (broadcastInDim S2048 ![] bcast_S_S2048 (constant S_ .f32 0x3F800000#32)))))

/-- A readout head: a 128×64 layer, a rectifier, a 64×1 layer, read as a flat array of 2048 values. -/
def headK (p : FVec F S2048x128 .f32) (w1 : FVec F S128x64 .f32) (b1 : FVec F S64 .f32) (w2 : FVec F S64x1 .f32)
    (b2 : FVec F S1 .f32) : FVec F S2048 .f32 :=
  shapeCast S2048
    (addf
      (Host.dotGeneral dot_S2048x64_S64x1_S2048x1_1_0_0_1_n_n none
        (maximumf
          (addf (Host.dotGeneral dot_S2048x128_S128x64_S2048x64_1_0_0_1_n_n none p w1)
            (broadcastInDim S2048x64 ![0, 1] bcast_S1x64_S2048x64_0_1 (broadcastInDim S1x64 ![1] bcast_S64_S1x64_1 b1)))
          (broadcastInDim S2048x64 ![] bcast_S_S2048x64 (constant S_ .f32 0x00000000#32)))
        w2)
      (broadcastInDim S2048x1 ![0, 1] bcast_S1x1_S2048x1_0_1 (broadcastInDim S1x1 ![1] bcast_S1_S1x1_1 b2)))
    shapeCasts_S2048x1_S2048

end Cert.KernelIdeal.Val

end
-- ==== Proof.KLinks.lean ====
/-
  What each stretch of host operations between the kernel's regions computes, from ANY buffer contents `W`.

  A stretch is a fold of its operations over the contents it starts from. Read at one of its results, the fold is that
  result's operation applied to its operands, each read the same way, down to the buffers the stretch does not write, which
  are read off `W`. Stated over an arbitrary `W`, each equation mentions nothing that came before the stretch, so it
  is checked once and used at whatever contents the run has reached.

  The operations of the three `take` stretches are printed over typed references, which move a value to the buffer's own
  type and back; at a literal buffer that move is the identity, and the three lemmas before the `take` links say so.
-/
import proofs.«413676_j73890617360755_1_alg».proof.Proof.Gen.KernelIdeal.Frame
import proofs.«413676_j73890617360755_1_alg».proof.Proof.HostDefs
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-! ## Moving a value to a buffer's own type and back -/

/-- Contents moved to a typed reference's own buffer type and back are the contents: both moves are transport along the
    same equation. -/
theorem ofBuf_toBuf {T : BufTy} (x : StableHlo.TRef sig T) (v : T.Contents (Elt F)) : x.ofBuf (x.toBuf v) = v := by
  obtain ⟨r, rfl, h2, h3⟩ := x
  rfl

/-- At a literal buffer the move is the identity: the buffer's type IS the value's. One lemma per buffer a `take` reads or writes. -/
theorem ofBuf_v3 (p q r) (v : main_v3.ty.Contents (Elt F)) :
    (StableHlo.TRef.of (T := ⟨S640000, .i32⟩) main_v3 p q r).ofBuf v = (v : (⟨S640000, .i32⟩ : BufTy).Contents (Elt F)) := rfl
theorem ofBuf_v0 (p q r) (v : main_v0.ty.Contents (Elt F)) :
    (StableHlo.TRef.of (T := ⟨S100000x128, .f32⟩) main_v0 p q r).ofBuf v = (v : (⟨S100000x128, .f32⟩ : BufTy).Contents (Elt F)) := rfl
theorem ofBuf_v19 (p q r) (v : main_v19.ty.Contents (Elt F)) :
    (StableHlo.TRef.of (T := ⟨S100000x128, .f32⟩) main_v19 p q r).ofBuf v = (v : (⟨S100000x128, .f32⟩ : BufTy).Contents (Elt F)) := rfl
theorem ofBuf_v33 (p q r) (v : main_v33.ty.Contents (Elt F)) :
    (StableHlo.TRef.of (T := ⟨S100000x128, .f32⟩) main_v33 p q r).ofBuf v = (v : (⟨S100000x128, .f32⟩ : BufTy).Contents (Elt F)) := rfl
theorem toBuf_v6 (p q r) (v : (⟨S640000x128, .f32⟩ : BufTy).Contents (Elt F)) :
    (StableHlo.TRef.of (T := ⟨S640000x128, .f32⟩) main_v6 p q r).toBuf v = (v : main_v6.ty.Contents (Elt F)) := rfl
theorem toBuf_v20 (p q r) (v : (⟨S640000x128, .f32⟩ : BufTy).Contents (Elt F)) :
    (StableHlo.TRef.of (T := ⟨S640000x128, .f32⟩) main_v20 p q r).toBuf v = (v : main_v20.ty.Contents (Elt F)) := rfl
theorem toBuf_v34 (p q r) (v : (⟨S640000x128, .f32⟩ : BufTy).Contents (Elt F)) :
    (StableHlo.TRef.of (T := ⟨S640000x128, .f32⟩) main_v34 p q r).toBuf v = (v : main_v34.ty.Contents (Elt F)) := rfl

variable (W : Valuation τ sig (Elt F))

/-! ## The two rows of the edge list -/

theorem src_link : StableHlo.after hostOps2 W (Proc.devRef .tc main_v3) = srcK (W (Proc.devRef .tc main_arg20)) := by
  after_results; rfl
theorem dst_link : StableHlo.after hostOps2 W (Proc.devRef .tc main_v5) = dstK (W (Proc.devRef .tc main_arg20)) := by
  after_results; rfl

/-! ## The three gathers -/

set_option maxHeartbeats 4000000 in
theorem take0_link : StableHlo.after hostOps2_1 W (Proc.devRef .tc main_v6)
    = takeK (W (Proc.devRef .tc main_v0)) (W (Proc.devRef .tc main_v3)) := by
  after_results
  simp only [ofBuf_toBuf, ofBuf_v3, ofBuf_v0, toBuf_v6]
  rfl

set_option maxHeartbeats 4000000 in
theorem take1_link : StableHlo.after hostOps4 W (Proc.devRef .tc main_v20)
    = takeK (W (Proc.devRef .tc main_v19)) (W (Proc.devRef .tc main_v3)) := by
  after_results
  simp only [ofBuf_toBuf, ofBuf_v3, ofBuf_v19, toBuf_v20]
  rfl

set_option maxHeartbeats 4000000 in
theorem take2_link : StableHlo.after hostOps6 W (Proc.devRef .tc main_v34)
    = takeK (W (Proc.devRef .tc main_v33)) (W (Proc.devRef .tc main_v3)) := by
  after_results
  simp only [ofBuf_toBuf, ofBuf_v3, ofBuf_v33, toBuf_v34]
  rfl

/-! ## Layer 0: the summed messages and the layer's weights -/

theorem agg0_link : StableHlo.after hostOps3 W (Proc.devRef .tc main_v10)
    = aggK (W (Proc.devRef .tc main_v5)) (W (Proc.devRef .tc main_v7)) := by
  after_results; rfl
theorem w1_0_link : StableHlo.after hostOps3 W (Proc.devRef .tc main_v12) = mat0K (W (Proc.devRef .tc main_arg8)) := by
  after_results; rfl
theorem b1_0_link : StableHlo.after hostOps3 W (Proc.devRef .tc main_v14) = vec0K (W (Proc.devRef .tc main_arg9)) := by
  after_results; rfl
theorem w2_0_link : StableHlo.after hostOps3 W (Proc.devRef .tc main_v16) = mat0K (W (Proc.devRef .tc main_arg10)) := by
  after_results; rfl
theorem b2_0_link : StableHlo.after hostOps3 W (Proc.devRef .tc main_v18) = vec0K (W (Proc.devRef .tc main_arg11)) := by
  after_results; rfl

/-! ## Layer 1 -/

theorem agg1_link : StableHlo.after hostOps5 W (Proc.devRef .tc main_v24)
    = aggK (W (Proc.devRef .tc main_v5)) (W (Proc.devRef .tc main_v21)) := by
  after_results; rfl
theorem w1_1_link : StableHlo.after hostOps5 W (Proc.devRef .tc main_v26) = mat1K (W (Proc.devRef .tc main_arg8)) := by
  after_results; rfl
theorem b1_1_link : StableHlo.after hostOps5 W (Proc.devRef .tc main_v28) = vec1K (W (Proc.devRef .tc main_arg9)) := by
  after_results; rfl
theorem w2_1_link : StableHlo.after hostOps5 W (Proc.devRef .tc main_v30) = mat1K (W (Proc.devRef .tc main_arg10)) := by
  after_results; rfl
theorem b2_1_link : StableHlo.after hostOps5 W (Proc.devRef .tc main_v32) = vec1K (W (Proc.devRef .tc main_arg11)) := by
  after_results; rfl

/-! ## Layer 2 -/

theorem agg2_link : StableHlo.after hostOps7 W (Proc.devRef .tc main_v38)
    = aggK (W (Proc.devRef .tc main_v5)) (W (Proc.devRef .tc main_v35)) := by
  after_results; rfl
theorem w1_2_link : StableHlo.after hostOps7 W (Proc.devRef .tc main_v40) = mat2K (W (Proc.devRef .tc main_arg8)) := by
  after_results; rfl
theorem b1_2_link : StableHlo.after hostOps7 W (Proc.devRef .tc main_v42) = vec2K (W (Proc.devRef .tc main_arg9)) := by
  after_results; rfl
theorem w2_2_link : StableHlo.after hostOps7 W (Proc.devRef .tc main_v44) = mat2K (W (Proc.devRef .tc main_arg10)) := by
  after_results; rfl
theorem b2_2_link : StableHlo.after hostOps7 W (Proc.devRef .tc main_v46) = vec2K (W (Proc.devRef .tc main_arg11)) := by
  after_results; rfl

/-! ## The pooled readouts: five stretches after the last region -/

set_option maxHeartbeats 4000000 in
theorem out1_link : StableHlo.after hostOps8_4 (StableHlo.after hostOps8_3 (StableHlo.after hostOps8_2
      (StableHlo.after hostOps8_1 (StableHlo.after hostOps8 W)))) (Proc.devRef .tc main_v69)
    = headK (poolK (W (Proc.devRef .tc main_v47)) (W (Proc.devRef .tc main_arg21))) (W (Proc.devRef .tc main_arg12))
        (W (Proc.devRef .tc main_arg13)) (W (Proc.devRef .tc main_arg14)) (W (Proc.devRef .tc main_arg15)) := by
  after_results; rfl

set_option maxHeartbeats 4000000 in
theorem out2_link : StableHlo.after hostOps8_4 (StableHlo.after hostOps8_3 (StableHlo.after hostOps8_2
      (StableHlo.after hostOps8_1 (StableHlo.after hostOps8 W)))) (Proc.devRef .tc main_v79)
    = headK (poolK (W (Proc.devRef .tc main_v47)) (W (Proc.devRef .tc main_arg21))) (W (Proc.devRef .tc main_arg16))
        (W (Proc.devRef .tc main_arg17)) (W (Proc.devRef .tc main_arg18)) (W (Proc.devRef .tc main_arg19)) := by
  after_results; rfl

end Cert.KernelIdeal.Val

end
-- ==== Proof.Spec.lean ====
/-
  The mathematics of the message-passing network, entry by entry over the extended reals.

  Every dense stage acts on ONE row: a node's (or an edge's) feature row goes through a linear map, a bias and a
  rectifier, once or twice. So each stage is written as a function of a single input row and the weights, giving one entry
  of the output row. A block of rows and the whole array are then the same function read at different row numbers, and
  nothing here depends on how many rows there are. The sums are finite sums in the extended reals, where addition and
  multiplication are commutative and associative; no law beyond reindexing a sum is used to compare two programs
  that compute these entries.
-/
import Idealize.ShloMosaic.PureOps.Ideal
import Idealize.ShloMosaic.Lib.ValueIdx

noncomputable section

namespace Cert.Spec

open Idealize.ShloMosaic Idealize.ShloMosaic.ValueIdx

/-- The rectifier: the larger of a value and zero. -/
def relu (v : EReal) : EReal := max v 0

/-- One entry of the node encoder: the 7 features of a node against column `q` of the weights, plus the bias. -/
def encNRow (row : Fin 7 → EReal) (w : (⟨2, ![7, 128]⟩ : Shape).Idx → EReal) (b : (⟨1, ![128]⟩ : Shape).Idx → EReal)
    (q : Fin 128) : EReal :=
  (∑ k : Fin 7, row k * w (ix2 k q)) + b (ix1 q)

/-- One entry of the edge encoder's hidden layer: the 3 attributes of an edge against column `j`, plus the bias, rectified. -/
def encEHidden (row : Fin 3 → EReal) (w1 : (⟨2, ![3, 128]⟩ : Shape).Idx → EReal) (b1 : (⟨1, ![128]⟩ : Shape).Idx → EReal)
    (j : Fin 128) : EReal :=
  relu ((∑ k : Fin 3, row k * w1 (ix2 k j)) + b1 (ix1 j))

/-- One entry of the edge encoder: the hidden row against column `q` of the second weights, plus the second bias. -/
def encERow (row : Fin 3 → EReal) (w1 : (⟨2, ![3, 128]⟩ : Shape).Idx → EReal) (b1 : (⟨1, ![128]⟩ : Shape).Idx → EReal)
    (w2 : (⟨2, ![128, 128]⟩ : Shape).Idx → EReal) (b2 : (⟨1, ![128]⟩ : Shape).Idx → EReal) (q : Fin 128) : EReal :=
  (∑ j : Fin 128, encEHidden row w1 b1 j * w2 (ix2 j q)) + b2 (ix1 q)

/-- One entry of a message: the source node's feature plus the edge's, rectified. -/
def msgAt (hs e : EReal) : EReal := relu (hs + e)

/-- One entry of the update's hidden layer, from the row `z` (a node's features plus what its incoming messages sum to). -/
def updHidden (z : Fin 128 → EReal) (w1 : (⟨2, ![128, 128]⟩ : Shape).Idx → EReal) (b1 : (⟨1, ![128]⟩ : Shape).Idx → EReal)
    (j : Fin 128) : EReal :=
  relu ((∑ k : Fin 128, z k * w1 (ix2 k j)) + b1 (ix1 j))

/-- One entry of a node's updated features: the hidden row against column `q`, plus the bias, rectified. -/
def updRow (z : Fin 128 → EReal) (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) (q : Fin 128) : EReal :=
  relu ((∑ j : Fin 128, updHidden z w1 b1 j * w2 (ix2 j q)) + b2 (ix1 q))

/-! ## The same, over an array of `R` rows -/

/-- The node encoder over `R` rows. -/
def nodeEnc {R : Nat} (x : (⟨2, ![R, 7]⟩ : Shape).Idx → EReal) (w : (⟨2, ![7, 128]⟩ : Shape).Idx → EReal)
    (b : (⟨1, ![128]⟩ : Shape).Idx → EReal) (r : Fin R) (q : Fin 128) : EReal :=
  encNRow (fun k => x (ix2 r k)) w b q

/-- The edge encoder over `R` rows. -/
def edgeEnc {R : Nat} (ea : (⟨2, ![R, 3]⟩ : Shape).Idx → EReal) (w1 : (⟨2, ![3, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin R) (q : Fin 128) : EReal :=
  encERow (fun k => ea (ix2 r k)) w1 b1 w2 b2 q

/-- The messages over `R` rows. -/
def msg {R : Nat} (hs e : (⟨2, ![R, 128]⟩ : Shape).Idx → EReal) (r : Fin R) (q : Fin 128) : EReal :=
  msgAt (hs (ix2 r q)) (e (ix2 r q))

/-- The node update over `R` rows: `h` the nodes' features, `a` the sums of their incoming messages. -/
def upd {R : Nat} (h a : (⟨2, ![R, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin R) (q : Fin 128) : EReal :=
  updRow (fun k => h (ix2 r k) + a (ix2 r k)) w1 b1 w2 b2 q

end Cert.Spec

end
-- ==== Proof.Net.lean ====
/-
  The whole network as ONE function of the launch arrays.

  The node and edge encoders, three message-passing layers and the pooled readout are composed here from the row-wise
  functions of the specification and the named host stretches. The kernel's program and the reference are each shown
  to compute this function; nothing about either program is used in this module.
-/
import proofs.«413676_j73890617360755_1_alg».proof.Proof.HostDefs
import proofs.«413676_j73890617360755_1_alg».proof.Proof.Spec
import Idealize.ShloMosaic.PureOps.Ideal

noncomputable section

namespace Cert.KernelIdeal.Val

open Cert.KernelIdeal Cert.KernelIdeal.Gen Idealize.ShloMosaic Idealize.ShloMosaic.TcCoe

/-! ## The network as one function of the launch arrays -/

/-- The node features after the encoder. -/
def netH0 (x0 : FVec Ideal S100000x7 .f32) (x2 : FVec Ideal S7x128 .f32) (x3 : FVec Ideal S128 .f32) : FVec Ideal S100000x128 .f32 :=
  fun i => Cert.Spec.nodeEnc (R := 100000) x0 x2 x3 (i 0) (i 1)

/-- The edge features after the encoder. -/
def netE (x1 : FVec Ideal S640000x3 .f32) (x4 : FVec Ideal S3x128 .f32) (x5 : FVec Ideal S128 .f32) (x6 : FVec Ideal S128x128 .f32)
    (x7 : FVec Ideal S128 .f32) : FVec Ideal S640000x128 .f32 :=
  fun i => Cert.Spec.edgeEnc (R := 640000) x1 x4 x5 x6 x7 (i 0) (i 1)

/-- A layer's messages from the gathered source features `hs` and the edge features. -/
def netMsg (hs e : FVec Ideal S640000x128 .f32) : FVec Ideal S640000x128 .f32 :=
  fun j => Cert.Spec.msg (R := 640000) hs e (j 0) (j 1)

/-- A layer's update of the node features `h` by the summed messages `a`. -/
def netUpd (h a : FVec Ideal S100000x128 .f32) (w1 : FVec Ideal S128x128 .f32) (b1 : FVec Ideal S128 .f32)
    (w2 : FVec Ideal S128x128 .f32) (b2 : FVec Ideal S128 .f32) : FVec Ideal S100000x128 .f32 :=
  fun i => Cert.Spec.upd (R := 100000) h a w1 b1 w2 b2 (i 0) (i 1)

/-- One message-passing layer: gather along the sources, add the edge features and rectify, sum onto the destinations, update. -/
def netLayer (h : FVec Ideal S100000x128 .f32) (e : FVec Ideal S640000x128 .f32) (s d : IVec S640000 32)
    (w1 : FVec Ideal S128x128 .f32) (b1 : FVec Ideal S128 .f32) (w2 : FVec Ideal S128x128 .f32) (b2 : FVec Ideal S128 .f32) :
    FVec Ideal S100000x128 .f32 :=
  netUpd h (aggK d (netMsg (gatherK h s) e)) w1 b1 w2 b2

/-- The node features after layer 0. -/
def netH1 (x0 : FVec Ideal S100000x7 .f32) (x1 : FVec Ideal S640000x3 .f32) (x2 : FVec Ideal S7x128 .f32) (x3 : FVec Ideal S128 .f32)
    (x4 : FVec Ideal S3x128 .f32) (x5 : FVec Ideal S128 .f32) (x6 : FVec Ideal S128x128 .f32) (x7 : FVec Ideal S128 .f32)
    (x8 : FVec Ideal S3x128x128 .f32) (x9 : FVec Ideal S3x128 .f32) (x10 : FVec Ideal S3x128x128 .f32) (x11 : FVec Ideal S3x128 .f32)
    (x20 : IVec S2x640000 32) : FVec Ideal S100000x128 .f32 :=
  netLayer (netH0 x0 x2 x3) (netE x1 x4 x5 x6 x7) (srcK x20) (dstK x20) (mat0K x8) (vec0K x9) (mat0K x10) (vec0K x11)

/-- The node features after layer 1. -/
def netH2 (x0 : FVec Ideal S100000x7 .f32) (x1 : FVec Ideal S640000x3 .f32) (x2 : FVec Ideal S7x128 .f32) (x3 : FVec Ideal S128 .f32)
    (x4 : FVec Ideal S3x128 .f32) (x5 : FVec Ideal S128 .f32) (x6 : FVec Ideal S128x128 .f32) (x7 : FVec Ideal S128 .f32)
    (x8 : FVec Ideal S3x128x128 .f32) (x9 : FVec Ideal S3x128 .f32) (x10 : FVec Ideal S3x128x128 .f32) (x11 : FVec Ideal S3x128 .f32)
    (x20 : IVec S2x640000 32) : FVec Ideal S100000x128 .f32 :=
  netLayer (netH1 x0 x1 x2 x3 x4 x5 x6 x7 x8 x9 x10 x11 x20) (netE x1 x4 x5 x6 x7) (srcK x20) (dstK x20) (mat1K x8) (vec1K x9) (mat1K x10) (vec1K x11)

/-- The node features after layer 2. -/
def netH3 (x0 : FVec Ideal S100000x7 .f32) (x1 : FVec Ideal S640000x3 .f32) (x2 : FVec Ideal S7x128 .f32) (x3 : FVec Ideal S128 .f32)
    (x4 : FVec Ideal S3x128 .f32) (x5 : FVec Ideal S128 .f32) (x6 : FVec Ideal S128x128 .f32) (x7 : FVec Ideal S128 .f32)
    (x8 : FVec Ideal S3x128x128 .f32) (x9 : FVec Ideal S3x128 .f32) (x10 : FVec Ideal S3x128x128 .f32) (x11 : FVec Ideal S3x128 .f32)
    (x20 : IVec S2x640000 32) : FVec Ideal S100000x128 .f32 :=
  netLayer (netH2 x0 x1 x2 x3 x4 x5 x6 x7 x8 x9 x10 x11 x20) (netE x1 x4 x5 x6 x7) (srcK x20) (dstK x20) (mat2K x8) (vec2K x9) (mat2K x10) (vec2K x11)

/-- A result of the network: the final node features pooled per graph, through a readout head. -/
def netOut (x0 : FVec Ideal S100000x7 .f32) (x1 : FVec Ideal S640000x3 .f32) (x2 : FVec Ideal S7x128 .f32) (x3 : FVec Ideal S128 .f32)
    (x4 : FVec Ideal S3x128 .f32) (x5 : FVec Ideal S128 .f32) (x6 : FVec Ideal S128x128 .f32) (x7 : FVec Ideal S128 .f32)
    (x8 : FVec Ideal S3x128x128 .f32) (x9 : FVec Ideal S3x128 .f32) (x10 : FVec Ideal S3x128x128 .f32) (x11 : FVec Ideal S3x128 .f32)
    (x20 : IVec S2x640000 32) (g : IVec S100000 32)
    (w1 : FVec Ideal S128x64 .f32) (b1 : FVec Ideal S64 .f32) (w2 : FVec Ideal S64x1 .f32) (b2 : FVec Ideal S1 .f32) : FVec Ideal S2048 .f32 :=
  headK (poolK (netH3 x0 x1 x2 x3 x4 x5 x6 x7 x8 x9 x10 x11 x20) g) w1 b1 w2 b2

end Cert.KernelIdeal.Val

end
-- ==== Proof.KNodeEnc.lean ====
/-
  The node encoder's region: ten blocks of 10000 node rows, each row times the 7×128 weights plus the bias.
  After the region the output array holds, at every index, that row's entry of the encoder.
-/
import proofs.«413676_j73890617360755_1_alg».proof.Proof.Gen.KernelIdeal.Frame
import proofs.«413676_j73890617360755_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

/-! ## One entry of a block's product

The block product contracts the rows' 7 features against the weights' 7 rows. Its contraction has one axis, so the
sum over the contraction's indices is the sum over that axis' 7 coordinates; the four facts below say which
coordinates of the two operands an output entry and a contraction coordinate name. -/

/-- The left operand's row is the output entry's row. -/
theorem lhs_nodeDot_0 (i : S10000x128.Idx) (q : dot_S10000x7_S7x128_S10000x128_1_0_0_1_n_n.contr.Idx) :
    (dot_S10000x7_S7x128_S10000x128_1_0_0_1_n_n.lhsIdx i q 0).val = (i 0).val := by
  unfold DotDims.lhsIdx
  rw [dif_neg (show ¬(0 : Fin S10000x7.rank) ∈ dot_S10000x7_S7x128_S10000x128_1_0_0_1_n_n.lhsBatch by decide), dif_pos (show (0 : Fin S10000x7.rank) ∈ dot_S10000x7_S7x128_S10000x128_1_0_0_1_n_n.lhsNonContracting by decide)]
  rfl
/-- The left operand's column is the contraction coordinate. -/
theorem lhs_nodeDot_1 (i : S10000x128.Idx) (q : dot_S10000x7_S7x128_S10000x128_1_0_0_1_n_n.contr.Idx) :
    (dot_S10000x7_S7x128_S10000x128_1_0_0_1_n_n.lhsIdx i q 1).val = (q ⟨0, by decide⟩).val :=
  dot_S10000x7_S7x128_S10000x128_1_0_0_1_n_n.lhsIdx_val_of_single rfl i q
/-- The right operand's row is the contraction coordinate. -/
theorem rhs_nodeDot_0 (i : S10000x128.Idx) (q : dot_S10000x7_S7x128_S10000x128_1_0_0_1_n_n.contr.Idx) :
    (dot_S10000x7_S7x128_S10000x128_1_0_0_1_n_n.rhsIdx i q 0).val = (q ⟨0, by decide⟩).val :=
  dot_S10000x7_S7x128_S10000x128_1_0_0_1_n_n.rhsIdx_val_of_single rfl i q
/-- The right operand's column is the output entry's column. -/
theorem rhs_nodeDot_1 (i : S10000x128.Idx) (q : dot_S10000x7_S7x128_S10000x128_1_0_0_1_n_n.contr.Idx) :
    (dot_S10000x7_S7x128_S10000x128_1_0_0_1_n_n.rhsIdx i q 1).val = (i 1).val := by
  unfold DotDims.rhsIdx
  rw [dif_neg (show ¬(1 : Fin S7x128.rank) ∈ dot_S10000x7_S7x128_S10000x128_1_0_0_1_n_n.rhsBatch by decide), dif_pos (show (1 : Fin S7x128.rank) ∈ dot_S10000x7_S7x128_S10000x128_1_0_0_1_n_n.rhsNonContracting by decide)]
  rfl

/-- Entry `(p, q)` of the block product into the zero accumulator: row `p` of the left operand against column `q` of the
    right one, summed over the 7 contracted coordinates. -/
theorem nodeEnc_blockProduct_apply (a : FVec Ideal S10000x7 .bf16) (b : FVec Ideal S7x128 .bf16) (p : Fin 10000) (q : Fin 128) :
    matmul dot_S10000x7_S7x128_S10000x128_1_0_0_1_n_n none a b (constant (F := Ideal) S10000x128 .f32 0x00000000#32) (ix2 p q)
      = ∑ k : Fin 7, a (ix2 p k) * b (ix2 k q) := by
  simp only [matmul]
  rw [Ideal.matmul_constant_zero_apply, ← Equiv.sum_comp (ValueIdx.contrEquiv1 dot_S10000x7_S7x128_S10000x128_1_0_0_1_n_n 7 rfl rfl).symm]
  refine Finset.sum_congr rfl fun k _ => ?_
  have hk := ValueIdx.contrEquiv1_symm_val dot_S10000x7_S7x128_S10000x128_1_0_0_1_n_n 7 rfl rfl k
  have el : dot_S10000x7_S7x128_S10000x128_1_0_0_1_n_n.lhsIdx (ix2 p q) ((ValueIdx.contrEquiv1 dot_S10000x7_S7x128_S10000x128_1_0_0_1_n_n 7 rfl rfl).symm k) = ix2 p k := funext fun ax => Fin.ext (by
    match ax with
    | ⟨0, _⟩ => exact lhs_nodeDot_0 _ _
    | ⟨1, _⟩ => exact (lhs_nodeDot_1 _ _).trans hk)
  have er : dot_S10000x7_S7x128_S10000x128_1_0_0_1_n_n.rhsIdx (ix2 p q) ((ValueIdx.contrEquiv1 dot_S10000x7_S7x128_S10000x128_1_0_0_1_n_n 7 rfl rfl).symm k) = ix2 k q := funext fun ax => Fin.ext (by
    match ax with
    | ⟨0, _⟩ => exact (rhs_nodeDot_0 _ _).trans hk
    | ⟨1, _⟩ => exact rhs_nodeDot_1 _ _)
  rw [el, er]

/-! ## The body's payload at an entry -/

/-- Entry `(p, q)` of what the body stores, from a block of 10000 rows, the weights and the bias: the encoder's entry
    at row `p` of the block. The narrowing of the two operands is the identity on extended reals; the bias is one row
    of 128 repeated over the 10000 rows. -/
theorem nodeEnc_payload_apply (x0 : Vec Ideal S10000x7 .f32) (x1 : Vec Ideal S7x128 .f32) (x2 : Vec Ideal S128 .f32) (p : Fin 10000) (q : Fin 128) :
    k0_pay1 x0 x1 x2 (ix2 p q) = Cert.Spec.nodeEnc (R := 10000) x0 x1 x2 p q := by
  unfold k0_pay1
  rw [addf_apply, nodeEnc_blockProduct_apply, broadcastTo_1b_ab_apply, shapeCast_a_1a_apply]
  rfl

/-! ## The windows' blocks

The rows' window and the output's window move together: at point `t` both are at block `t` of 10000 rows, all
columns. The weights' and the bias' windows are the whole arrays at every point. -/

theorem nodeEnc_zero_offsets2 : (![0, 0] : Fin 2 → Nat) = fun _ => 0 := funext fun a => by fin_cases a <;> rfl
theorem nodeEnc_zero_offsets1 : (![0] : Fin 1 → Nat) = fun _ => 0 := funext fun a => by fin_cases a <;> rfl

/-- The printed index maps over the grid's ten points. -/
theorem nodeEnc_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

-- The TensorCore's buffer contents when the region is entered: every statement here holds at any such contents.
variable (V : (c : Dev nD) → (b : Ref sig .tc) → Buf (Elt Ideal) ((c : Thread nD τ).loc b))

/-- The rows' block at point `t`, at `(p, k)`, is the array at row `10000 t + p`, column `k`. -/
theorem nodeEnc_rows_block_apply (c : Dev nD) (t : Fin cfg0.N) (p : Fin 10000) (k : Fin 7) (r : Fin 100000)
    (hr : r.val = t.val * 10000 + p.val) :
    (iblk0 V c 0 t : Vec Ideal S10000x7 .f32) (ix2 p k) = (V c main_arg0 : S100000x7.Idx → EReal) (ix2 r k) := by
  obtain ⟨e0, e1, -⟩ := nodeEnc_block_indices t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 7 + 1 * k.val = k.val; rw [e1]; omega

/-- The weights' block at every point is the weights. -/
theorem nodeEnc_weights_block_apply (c : Dev nD) (t : Fin cfg0.N) (k : Fin 7) (q : Fin 128) :
    (iblk0 V c 1 t : Vec Ideal S7x128 .f32) (ix2 k q) = (V c main_arg2 : S7x128.Idx → EReal) (ix2 k q) := by
  obtain ⟨-, -, e0, e1, -⟩ := nodeEnc_block_indices t
  unfold iblk0
  rw [View.read_apply]
  show V c main_arg2 _ = V c main_arg2 _
  congr 1
  funext a
  apply Fin.ext
  match a with
  | ⟨0, _⟩ => show win0_1.index t (0 : Fin 2) * 7 + 1 * k.val = k.val; rw [e0]; omega
  | ⟨1, _⟩ => show win0_1.index t (1 : Fin 2) * 128 + 1 * q.val = q.val; rw [e1]; omega

/-- The bias' block at every point is the bias. -/
theorem nodeEnc_bias_block_apply (c : Dev nD) (t : Fin cfg0.N) (q : Fin 128) :
    (iblk0 V c 2 t : Vec Ideal S128 .f32) (ix1 q) = (V c main_arg3 : S128.Idx → EReal) (ix1 q) := by
  obtain ⟨-, -, -, -, e0, -⟩ := nodeEnc_block_indices t
  unfold iblk0
  rw [View.read_apply]
  show V c main_arg3 _ = V c main_arg3 _
  congr 1
  funext a
  apply Fin.ext
  match a with
  | ⟨0, _⟩ => show win0_2.index t (0 : Fin 1) * 128 + 1 * q.val = q.val; rw [e0]; omega

/-! ## What a point writes back -/

/-- The encoder's entry depends on the rows' array only through the one row it names, and on the weights and the bias
    entry by entry: two triples of arrays that agree there give the same entry. -/
theorem nodeEnc_congr {R R' : Nat} (x : (⟨2, ![R, 7]⟩ : Shape).Idx → EReal) (x' : (⟨2, ![R', 7]⟩ : Shape).Idx → EReal)
    (w w' : (⟨2, ![7, 128]⟩ : Shape).Idx → EReal) (b b' : (⟨1, ![128]⟩ : Shape).Idx → EReal) (r : Fin R) (r' : Fin R') (q : Fin 128)
    (hx : ∀ k : Fin 7, x (ix2 r k) = x' (ix2 r' k)) (hw : ∀ k : Fin 7, w (ix2 k q) = w' (ix2 k q)) (hb : b (ix1 q) = b' (ix1 q)) :
    Cert.Spec.nodeEnc x w b r q = Cert.Spec.nodeEnc x' w' b' r' q := by
  unfold Cert.Spec.nodeEnc Cert.Spec.encNRow
  rw [hb]
  exact congrArg (· + b' (ix1 q)) (Finset.sum_congr rfl fun k _ => by
    show x (ix2 r k) * w (ix2 k q) = x' (ix2 r' k) * w' (ix2 k q)
    rw [hx k, hw k])

/-- WHAT POINT `t` WRITES BACK is block `t` of the encoder of the three arrays as the region finds them: the body's
    payload at `(p, q)` is the encoder's entry at row `p` of the point's block of rows, which is row `10000 t + p` of
    the rows' array, and that is the row the output's block `t` puts entry `(p, q)` at. -/
theorem nodeEnc_flushed_eq (c : Dev nD) (t : Fin cfg0.N) :
    (dat0 (F := Ideal) V c).flushed 3 t = ((cfg0.win 3).blk t).view.read (Elt Ideal)
      (fun i => Cert.Spec.nodeEnc (R := 100000) (V c main_arg0) (V c main_arg2) (V c main_arg3) (i 0) (i 1)) := by
  show (cfg0.win 3).cut (grid0.coords t) ((dat0 V c).after 3 t) = _
  rw [after0_3]
  unfold out0_3
  rw [View.canon_unit_zero nodeEnc_zero_offsets2]
  simp only [View.ld_unit_zero (S := S10000x7) nodeEnc_zero_offsets2, View.ld_unit_zero (S := S7x128) nodeEnc_zero_offsets2,
    View.ld_unit_zero (S := S128) nodeEnc_zero_offsets1]
  obtain ⟨-, -, -, -, -, e0, e1⟩ := nodeEnc_block_indices t
  have hN : cfg0.N = 10 := N_0
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  refine (nodeEnc_payload_apply (iblk0 V c 0 t) (iblk0 V c 1 t) (iblk0 V c 2 t) p q).trans ?_
  rw [View.read_apply]
  have hrow : (((cfg0.win 3).blk t).view.emb (ix2 p q) 0).val = t.val * 10000 + p.val := by
    show win0_3.index t (0 : Fin 2) * 10000 + 1 * p.val = _
    rw [e0]; omega
  have hcol : (((cfg0.win 3).blk t).view.emb (ix2 p q) 1).val = q.val := by
    show win0_3.index t (1 : Fin 2) * 128 + 1 * q.val = _
    rw [e1]; omega
  show Cert.Spec.nodeEnc (R := 10000) _ _ _ p q
      = Cert.Spec.nodeEnc (R := 100000) (V c main_arg0) (V c main_arg2) (V c main_arg3)
          ⟨(((cfg0.win 3).blk t).view.emb (ix2 p q) 0).val, (((cfg0.win 3).blk t).view.emb (ix2 p q) 0).isLt⟩
          ⟨(((cfg0.win 3).blk t).view.emb (ix2 p q) 1).val, (((cfg0.win 3).blk t).view.emb (ix2 p q) 1).isLt⟩
  have hq : (⟨(((cfg0.win 3).blk t).view.emb (ix2 p q) 1).val, (((cfg0.win 3).blk t).view.emb (ix2 p q) 1).isLt⟩ : Fin 128) = q :=
    Fin.ext hcol
  rw [hq]
  exact nodeEnc_congr _ _ _ _ _ _ p _ q
    (fun k => nodeEnc_rows_block_apply V c t p k _ hrow)
    (fun k => nodeEnc_weights_block_apply V c t k q)
    (nodeEnc_bias_block_apply V c t q)

/-! ## From the blocks to the array -/

/-- An index of the output array is in point `t`'s block iff each coordinate is in the block's range on its axis. -/
theorem nodeEnc_mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- Every index of the output array lies in the block of the point its row's ten-thousand names. -/
theorem nodeEnc_covered (i : S100000x128.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 128 := (i 1).isLt
  let t : Fin cfg0.N := ⟨(i 0).val / 10000, by rw [hN]; omega⟩
  obtain ⟨-, -, -, -, -, e0, e1⟩ := nodeEnc_block_indices t
  have e0' : win0_3.index t (0 : Fin 2) = (i 0).val / 10000 := e0
  refine ⟨t, flush0_3 t, ?_⟩
  rw [nodeEnc_mem_block]
  intro a
  match a with
  | ⟨0, _⟩ => show win0_3.index t (0 : Fin 2) * 10000 ≤ (i 0).val ∧ (i 0).val < win0_3.index t (0 : Fin 2) * 10000 + 10000; rw [e0']; omega
  | ⟨1, _⟩ => show win0_3.index t (1 : Fin 2) * 128 ≤ (i 1).val ∧ (i 1).val < win0_3.index t (1 : Fin 2) * 128 + 128; rw [e1]; omega

/-- The node encoder's output array after its region, entry by entry. -/
theorem region0_value (c : Dev nD) :
    (dat0 (F := Ideal) V c).arrAt 3 cfg0.N
      = fun i => Cert.Spec.nodeEnc (R := 100000) (V c main_arg0) (V c main_arg2) (V c main_arg3) (i 0) (i 1) :=
  (dat0 (F := Ideal) V c).arrAt_eq_of_cover 3 _ (fun t _ => nodeEnc_flushed_eq V c t) nodeEnc_covered

end Cert.KernelIdeal.Val

end
-- ==== Proof.KEdgeEnc.lean ====
/-
  The edge encoder's region: 64 blocks of 10000 edge rows, each row through a 3×128 layer, a rectifier and a 128×128 layer.
  After the region the output array holds, at every index, that row's entry of the encoder.
-/
import proofs.«413676_j73890617360755_1_alg».proof.Proof.Gen.KernelIdeal.Frame
import proofs.«413676_j73890617360755_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

/-! ## The two products of the payload, read at an index -/

theorem lhs_hid_0 (i : S10000x128.Idx) (q : dot_S10000x3_S3x128_S10000x128_1_0_0_1_n_n.contr.Idx) :
    (dot_S10000x3_S3x128_S10000x128_1_0_0_1_n_n.lhsIdx i q 0).val = (i 0).val := by
  unfold DotDims.lhsIdx
  rw [dif_neg (show ¬(0 : Fin S10000x3.rank) ∈ dot_S10000x3_S3x128_S10000x128_1_0_0_1_n_n.lhsBatch by decide), dif_pos (show (0 : Fin S10000x3.rank) ∈ dot_S10000x3_S3x128_S10000x128_1_0_0_1_n_n.lhsNonContracting by decide)]
  rfl
theorem lhs_hid_1 (i : S10000x128.Idx) (q : dot_S10000x3_S3x128_S10000x128_1_0_0_1_n_n.contr.Idx) :
    (dot_S10000x3_S3x128_S10000x128_1_0_0_1_n_n.lhsIdx i q 1).val = (q ⟨0, by decide⟩).val :=
  dot_S10000x3_S3x128_S10000x128_1_0_0_1_n_n.lhsIdx_val_of_single rfl i q
theorem rhs_hid_0 (i : S10000x128.Idx) (q : dot_S10000x3_S3x128_S10000x128_1_0_0_1_n_n.contr.Idx) :
    (dot_S10000x3_S3x128_S10000x128_1_0_0_1_n_n.rhsIdx i q 0).val = (q ⟨0, by decide⟩).val :=
  dot_S10000x3_S3x128_S10000x128_1_0_0_1_n_n.rhsIdx_val_of_single rfl i q
theorem rhs_hid_1 (i : S10000x128.Idx) (q : dot_S10000x3_S3x128_S10000x128_1_0_0_1_n_n.contr.Idx) :
    (dot_S10000x3_S3x128_S10000x128_1_0_0_1_n_n.rhsIdx i q 1).val = (i 1).val := by
  unfold DotDims.rhsIdx
  rw [dif_neg (show ¬(1 : Fin S3x128.rank) ∈ dot_S10000x3_S3x128_S10000x128_1_0_0_1_n_n.rhsBatch by decide), dif_pos (show (1 : Fin S3x128.rank) ∈ dot_S10000x3_S3x128_S10000x128_1_0_0_1_n_n.rhsNonContracting by decide)]
  rfl

/-- The first product at row `p`, column `j`: the row's 3 attributes against column `j` of the first weights. -/
theorem hid_mm_apply (a : FVec Ideal S10000x3 .bf16) (b : FVec Ideal S3x128 .bf16) (p : Fin 10000) (j : Fin 128) :
    matmul dot_S10000x3_S3x128_S10000x128_1_0_0_1_n_n none a b (constant (F := Ideal) S10000x128 .f32 0x00000000#32) (ix2 p j)
      = ∑ k : Fin 3, a (ix2 p k) * b (ix2 k j) := by
  simp only [matmul]
  rw [Ideal.matmul_constant_zero_apply, ← Equiv.sum_comp (contrEquiv1 dot_S10000x3_S3x128_S10000x128_1_0_0_1_n_n 3 rfl rfl).symm]
  refine Finset.sum_congr rfl fun k _ => ?_
  have hk := contrEquiv1_symm_val dot_S10000x3_S3x128_S10000x128_1_0_0_1_n_n 3 rfl rfl k
  have el : dot_S10000x3_S3x128_S10000x128_1_0_0_1_n_n.lhsIdx (ix2 p j) ((contrEquiv1 dot_S10000x3_S3x128_S10000x128_1_0_0_1_n_n 3 rfl rfl).symm k) = ix2 p k := funext fun ax => Fin.ext (by
    match ax with
    | ⟨0, _⟩ => exact lhs_hid_0 _ _
    | ⟨1, _⟩ => exact (lhs_hid_1 _ _).trans hk)
  have er : dot_S10000x3_S3x128_S10000x128_1_0_0_1_n_n.rhsIdx (ix2 p j) ((contrEquiv1 dot_S10000x3_S3x128_S10000x128_1_0_0_1_n_n 3 rfl rfl).symm k) = ix2 k j := funext fun ax => Fin.ext (by
    match ax with
    | ⟨0, _⟩ => exact (rhs_hid_0 _ _).trans hk
    | ⟨1, _⟩ => exact rhs_hid_1 _ _)
  rw [el, er]

theorem lhs_out_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_out_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_out_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_out_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The second product at row `p`, column `q`: the row's 128 hidden entries against column `q` of the second weights. -/
theorem out_mm_apply (a : FVec Ideal S10000x128 .bf16) (b : FVec Ideal S128x128 .bf16) (p : Fin 10000) (q : Fin 128) :
    matmul dot_S10000x128_S128x128_S10000x128_1_0_0_1_n_n none a b (constant (F := Ideal) S10000x128 .f32 0x00000000#32) (ix2 p q)
      = ∑ j : Fin 128, a (ix2 p j) * b (ix2 j q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun ax => Fin.ext (by
    match ax with
    | ⟨0, _⟩ => exact lhs_out_0 _ _
    | ⟨1, _⟩ => exact (lhs_out_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun ax => Fin.ext (by
    match ax with
    | ⟨0, _⟩ => exact (rhs_out_0 _ _).trans hk
    | ⟨1, _⟩ => exact rhs_out_1 _ _)
  rw [el, er]

/-- A bias row spread over the 10000 rows of a block reads, at `(p, q)`, the bias at `q`. -/
theorem bias_apply (b : Vec Ideal S128 .f32) (p : Fin 10000) (q : Fin 128) :
    broadcastTo S10000x128 (shapeCast S1x128 b shapeCasts_S128_S1x128) broadcasts_S1x128_S10000x128 (ix2 p q) = b (ix1 q) := by
  rw [broadcastTo_1b_ab_apply, shapeCast_a_1a_apply]

/-- THE PAYLOAD AT AN INDEX: row `p`, column `q` of what the body stores is the encoder's entry for row `p` of the block. -/
theorem pay_apply (x0 : Vec Ideal S10000x3 .f32) (x1 : Vec Ideal S3x128 .f32) (x2 : Vec Ideal S128 .f32)
    (x3 : Vec Ideal S128x128 .f32) (x4 : Vec Ideal S128 .f32) (p : Fin 10000) (q : Fin 128) :
    k1_pay1 (F := Ideal) x0 x1 x2 x3 x4 (ix2 p q) = Cert.Spec.edgeEnc (R := 10000) x0 x1 x2 x3 x4 p q := by
  unfold k1_pay1
  rw [addf_apply, out_mm_apply, bias_apply]
  unfold Cert.Spec.edgeEnc Cert.Spec.encERow
  congr 1
  refine Finset.sum_congr rfl fun j _ => ?_
  rw [truncf_apply, truncf_apply, maximumf_apply, addf_apply, hid_mm_apply, bias_apply, broadcast_apply]
  unfold Cert.Spec.encEHidden Cert.Spec.relu
  simp only [truncf_apply]
  rw [show (Scalar.ofBits (F := Ideal) .f32 0x00000000#32 : Ideal .f32) = 0 from Ideal.ofBits_zero_f32]

/-! ## The windows' blocks as parts of their arrays -/

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the rows' window and the output's are at block `t` of their first axis, every weight
    window stays at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The grid has 64 points. -/
theorem grid_points : cfg1.N = 64 := by decide

-- The TensorCore's buffer contents when the region is entered: every statement here holds at any such contents.
variable (V : (c : Dev nD) → (b : Ref sig .tc) → Buf (Elt Ideal) ((c : Thread nD τ).loc b))

/-- Row `p` of the rows' block at point `t` is row `10000 t + p` of the edge attributes. -/
theorem rows_apply (c : Dev nD) (t : Fin cfg1.N) (p : Fin 10000) (k : Fin 3) (r : Fin 640000) (hr : r.val = t.val * 10000 + p.val) :
    (iblk1 V c 0 t : Vec Ideal S10000x3 .f32) (ix2 p k) = (V c main_arg1 : S640000x3.Idx → EReal) (ix2 r k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 3 + 1 * k.val = k.val; rw [e1]; omega

/-- The first weights' block at any point is the whole array. -/
theorem w1_blk (c : Dev nD) (t : Fin cfg1.N) : (iblk1 V c 1 t : Vec Ideal S3x128 .f32) = V c main_arg4 := by
  obtain ⟨-, -, e0, e1, -⟩ := idx_facts t
  funext y
  unfold iblk1
  rw [View.read_apply]
  show V c main_arg4 _ = V c main_arg4 y
  congr 1
  funext a
  apply Fin.ext
  match a with
  | ⟨0, _⟩ => show win1_1.index t (0 : Fin 2) * 3 + 1 * (y 0).val = (y 0).val; rw [e0]; omega
  | ⟨1, _⟩ => show win1_1.index t (1 : Fin 2) * 128 + 1 * (y 1).val = (y 1).val; rw [e1]; omega

/-- The first bias's block at any point is the whole array. -/
theorem b1_blk (c : Dev nD) (t : Fin cfg1.N) : (iblk1 V c 2 t : Vec Ideal S128 .f32) = V c main_arg5 := by
  obtain ⟨-, -, -, -, e0, -⟩ := idx_facts t
  funext y
  unfold iblk1
  rw [View.read_apply]
  show V c main_arg5 _ = V c main_arg5 y
  congr 1
  funext a
  apply Fin.ext
  match a with
  | ⟨0, _⟩ => show win1_2.index t (0 : Fin 1) * 128 + 1 * (y 0).val = (y 0).val; rw [e0]; omega

/-- The second weights' block at any point is the whole array. -/
theorem w2_blk (c : Dev nD) (t : Fin cfg1.N) : (iblk1 V c 3 t : Vec Ideal S128x128 .f32) = V c main_arg6 := by
  obtain ⟨-, -, -, -, -, e0, e1, -⟩ := idx_facts t
  funext y
  unfold iblk1
  rw [View.read_apply]
  show V c main_arg6 _ = V c main_arg6 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second bias's block at any point is the whole array. -/
theorem b2_blk (c : Dev nD) (t : Fin cfg1.N) : (iblk1 V c 4 t : Vec Ideal S128 .f32) = V c main_arg7 := by
  obtain ⟨-, -, -, -, -, -, -, e0, -⟩ := idx_facts t
  funext y
  unfold iblk1
  rw [View.read_apply]
  show V c main_arg7 _ = V c main_arg7 y
  congr 1
  funext a
  apply Fin.ext
  match a with
  | ⟨0, _⟩ => show win1_4.index t (0 : Fin 1) * 128 + 1 * (y 0).val = (y 0).val; rw [e0]; omega

/-! ## One point: the body's result is its block of the encoder over all 640000 rows -/

/-- Over any five blocks: if the rows' block holds rows `10000 tv + p` of an array `A`, the payload at `(p, q)` is the
    encoder's entry for row `10000 tv + p` of `A`. An entry depends on its own row only. -/
theorem point_apply (A : (⟨2, ![640000, 3]⟩ : Shape).Idx → EReal) (x0 : Vec Ideal S10000x3 .f32) (x1 : Vec Ideal S3x128 .f32)
    (x2 : Vec Ideal S128 .f32) (x3 : Vec Ideal S128x128 .f32) (x4 : Vec Ideal S128 .f32) (tv : Nat)
    (h0 : ∀ (p : Fin 10000) (k : Fin 3) (r : Fin 640000), r.val = tv * 10000 + p.val → x0 (ix2 p k) = A (ix2 r k))
    (p : Fin 10000) (q : Fin 128) (r : Fin 640000) (hr : r.val = tv * 10000 + p.val) :
    k1_pay1 (F := Ideal) x0 x1 x2 x3 x4 (ix2 p q) = Cert.Spec.edgeEnc (R := 640000) A x1 x2 x3 x4 r q := by
  rw [pay_apply]
  unfold Cert.Spec.edgeEnc
  rw [show (fun k => x0 (ix2 p k)) = (fun k => A (ix2 r k)) from funext fun k => h0 p k r hr]

/-- WHAT POINT `t` WRITES BACK is block `t` of the encoder's output over the whole array. -/
theorem flushed_eq (c : Dev nD) (t : Fin cfg1.N) :
    (dat1 (F := Ideal) V c).flushed 5 t = ((cfg1.win 5).blk t).view.read (Elt Ideal)
      (fun i => Cert.Spec.edgeEnc (R := 640000) (V c main_arg1) (V c main_arg4) (V c main_arg5) (V c main_arg6) (V c main_arg7) (i 0) (i 1)) := by
  show (cfg1.win 5).cut (grid1.coords t) ((dat1 V c).after 5 t) = _
  rw [after1_5]
  unfold out1_5
  rw [View.canon_unit_zero hz2]
  simp only [View.ld_unit_zero (S := S10000x3) hz2, View.ld_unit_zero (S := S3x128) hz2, View.ld_unit_zero (S := S128) hz1,
    View.ld_unit_zero (S := S128x128) hz2]
  rw [w1_blk, b1_blk, w2_blk, b2_blk]
  obtain ⟨-, -, -, -, -, -, -, -, e0, e1⟩ := idx_facts t
  have hN : cfg1.N = 64 := grid_points
  funext j
  obtain ⟨p, q, rfl⟩ : ∃ (p : Fin 10000) (q : Fin 128), j = ix2 p q := ⟨j 0, j 1, eq_ix2 j⟩
  have hlt : t.val * 10000 + p.val < 640000 := by have := t.isLt; omega
  refine (point_apply (V c main_arg1) _ _ _ _ _ t.val (fun p k r hr => rows_apply V c t p k r hr) p q ⟨_, hlt⟩ rfl).trans ?_
  rw [View.read_apply]
  refine congrArg₂ (Cert.Spec.edgeEnc (R := 640000) (V c main_arg1) (V c main_arg4) (V c main_arg5) (V c main_arg6) (V c main_arg7))
    (Fin.ext ?_) (Fin.ext ?_)
  · show t.val * 10000 + p.val = win1_5.index t (0 : Fin 2) * 10000 + 1 * p.val
    rw [e0]; omega
  · show q.val = win1_5.index t (1 : Fin 2) * 128 + 1 * q.val
    rw [e1]; omega

/-- An index of the array is in point `t`'s block iff each coordinate is in the block's range on its axis. -/
theorem mem_blk (t : Fin cfg1.N) (i : S640000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v1).slice (win1_5.rect t)).set ↔ _
  rw [View.set_slice_whole, Rect.mem_set_unit]
  exact Iff.rfl

/-- Every index of the array lies in the block of the point its row falls in, and every point writes back. -/
theorem covered (i : S640000x128.Idx) :
    ∃ t : Fin cfg1.N, (cfg1.win 5).flush t = true ∧ i ∈ ((cfg1.win 5).blk t).view.set := by
  have hN : cfg1.N = 64 := grid_points
  have hi0 : (i 0).val < 640000 := (i 0).isLt
  have hi1 : (i 1).val < 128 := (i 1).isLt
  have ht : (i 0).val / 10000 < cfg1.N := by omega
  obtain ⟨-, -, -, -, -, -, -, -, e0, e1⟩ := idx_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_5.index ⟨(i 0).val / 10000, ht⟩ (1 : Fin 2) * 128 ≤ (i 1).val ∧ (i 1).val < win1_5.index ⟨(i 0).val / 10000, ht⟩ (1 : Fin 2) * 128 + 128
    rw [e1]
    omega

/-- The edge encoder's output array after its region, entry by entry. -/
theorem region1_value (c : Dev nD) :
    (dat1 (F := Ideal) V c).arrAt 5 cfg1.N
      = fun i => Cert.Spec.edgeEnc (R := 640000) (V c main_arg1) (V c main_arg4) (V c main_arg5) (V c main_arg6) (V c main_arg7) (i 0) (i 1) :=
  (dat1 (F := Ideal) V c).arrAt_eq_of_cover 5 _ (fun t _ => flushed_eq V c t) covered

end Cert.KernelIdeal.Val

end
-- ==== Proof.KMsg.lean ====
/-
  The three message regions (one per layer): 64 blocks of 10000 edge rows, the gathered source features plus the edge
  features, rectified, entry by entry. After each region its output array holds that at every index.
-/
import proofs.«413676_j73890617360755_1_alg».proof.Proof.Gen.KernelIdeal.Frame
import proofs.«413676_j73890617360755_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

-- The TensorCore's buffer contents when the region is entered: every statement here holds at any such contents.
variable (V : (c : Dev nD) → (b : Ref sig .tc) → Buf (Elt Ideal) ((c : Thread nD τ).loc b))

/-- The block's offsets inside its staging buffer are zero on both axes. -/
theorem msg_zero_offsets : (![0, 0] : Fin 2 → Nat) = fun _ => 0 := funext fun a => by fin_cases a <;> rfl

/-- One entry of the block the body stores: the two loaded blocks' entries added, then the larger of that and zero. -/
theorem msg_payload (x0 x1 : Vec Ideal S10000x128 .f32) (p : Fin 10000) (q : Fin 128) :
    k2_pay1 (F := Ideal) x0 x1 (ix2 p q) = Cert.Spec.msg (R := 10000) x0 x1 p q := by
  unfold k2_pay1
  rw [shapeCast_self, shapeCast_self]
  show max (x0 (ix2 p q) + x1 (ix2 p q)) (Ideal.ofBits .f32 0x00000000#32) = _
  rw [Ideal.ofBits_zero_f32]
  rfl

/-- The same entry, when the two blocks' entries at `j` are the two arrays' entries at `k`: the message at `k`. -/
theorem msg_at (x0 x1 : Vec Ideal S10000x128 .f32) (a0 a1 : S640000x128.Idx → EReal)
    (j : S10000x128.Idx) (k : S640000x128.Idx) (h0 : x0 j = a0 k) (h1 : x1 j = a1 k) :
    k2_pay1 (F := Ideal) x0 x1 j = Cert.Spec.msg (R := 640000) a0 a1 (k 0) (k 1) := by
  obtain ⟨p, q, rfl⟩ : ∃ (p : Fin 10000) (q : Fin 128), j = ix2 p q := ⟨j 0, j 1, eq_ix2 j⟩
  rw [msg_payload]
  unfold Cert.Spec.msg
  rw [h0, h1]
  exact congrArg (fun z => Cert.Spec.msgAt (a0 z) (a1 z)) (eq_ix2 (n0 := 640000) (n1 := 128) k)

/-- The bodies of layers 1 and 2 store the same function of their two loaded blocks as layer 0's. -/
theorem msg_pay4 : k4_pay1 (F := Ideal) = k2_pay1 (F := Ideal) := rfl
theorem msg_pay6 : k6_pay1 (F := Ideal) = k2_pay1 (F := Ideal) := rfl

/-! ## Layer 0 -/

/-- The three windows' block indices at point `t`: row block `t`, column block 0. -/
theorem msg_idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the messages over the whole arrays. -/
theorem msg_flushed2 (c : Dev nD) (t : Fin cfg2.N) :
    (dat2 (F := Ideal) V c).flushed 2 t
      = ((cfg2.win 2).blk t).view.read (Elt Ideal)
          (fun i => Cert.Spec.msg (R := 640000) (V c main_v6) (V c main_v1) (i 0) (i 1)) := by
  show (cfg2.win 2).cut (grid2.coords t) ((dat2 V c).after 2 t) = _
  rw [after2_2]
  unfold out2_2
  rw [View.canon_unit_zero msg_zero_offsets]
  simp only [View.ld_unit_zero (S := S10000x128) msg_zero_offsets]
  obtain ⟨e0, e1, e2, e3, e4, e5⟩ := msg_idx2 t
  funext j
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; rw [e0, e4]
    | ⟨1, _⟩ => show win2_0.index t (1 : Fin 2) * 128 + 1 * (j 1).val = win2_2.index t (1 : Fin 2) * 128 + 1 * (j 1).val; rw [e1, e5]
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; rw [e2, e4]
    | ⟨1, _⟩ => show win2_1.index t (1 : Fin 2) * 128 + 1 * (j 1).val = win2_2.index t (1 : Fin 2) * 128 + 1 * (j 1).val; rw [e3, e5]
  refine msg_at (iblk2 V c 0 t) (iblk2 V c 1 t) (V c main_v6) (V c main_v1) j (((cfg2.win 2).blk t).view.emb j) ?_ ?_
  · exact congrArg (V c main_v6) h0
  · exact congrArg (V c main_v1) h1

/-- An index of the output array is in point `t`'s block iff each coordinate is in the block's range on its axis. -/
theorem msg_mem_blk2 (t : Fin cfg2.N) (i : S640000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v7).slice (win2_2.rect t)).set ↔ _
  rw [View.set_slice_whole, Rect.mem_set_unit]
  exact Iff.rfl

/-- Every index of the output array lies in the block of the point its row number divided by 10000 names, and every
    point writes its block back. -/
theorem msg_cover2 (i : S640000x128.Idx) :
    ∃ t : Fin cfg2.N, (cfg2.win 2).flush t = true ∧ i ∈ ((cfg2.win 2).blk t).view.set := by
  have hi0 : (i 0).val < 640000 := (i 0).isLt
  have hi1 : (i 1).val < 128 := (i 1).isLt
  have ht : (i 0).val / 10000 < cfg2.N := by show (i 0).val / 10000 < 64; omega
  obtain ⟨e0, e1, e2, e3, e4, e5⟩ := msg_idx2 ⟨(i 0).val / 10000, ht⟩
  refine ⟨⟨(i 0).val / 10000, ht⟩, flush2_2 _, ?_⟩
  rw [msg_mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 128 ≤ (i 1).val ∧ (i 1).val < win2_2.index ⟨(i 0).val / 10000, ht⟩ (1 : Fin 2) * 128 + 128
    rw [e5]; omega

/-- Layer 0's messages. -/
theorem region2_value (c : Dev nD) :
    (dat2 (F := Ideal) V c).arrAt 2 cfg2.N
      = fun i => Cert.Spec.msg (R := 640000) (V c main_v6) (V c main_v1) (i 0) (i 1) := by
  exact (dat2 (F := Ideal) V c).arrAt_eq_of_cover 2 _ (fun t _ => msg_flushed2 V c t) msg_cover2

/-! ## Layer 1 -/

/-- The three windows' block indices at point `t`: row block `t`, column block 0. -/
theorem msg_idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the messages over the whole arrays. -/
theorem msg_flushed4 (c : Dev nD) (t : Fin cfg4.N) :
    (dat4 (F := Ideal) V c).flushed 2 t
      = ((cfg4.win 2).blk t).view.read (Elt Ideal)
          (fun i => Cert.Spec.msg (R := 640000) (V c main_v20) (V c main_v1) (i 0) (i 1)) := by
  show (cfg4.win 2).cut (grid4.coords t) ((dat4 V c).after 2 t) = _
  rw [after4_2]
  unfold out4_2
  rw [View.canon_unit_zero msg_zero_offsets]
  simp only [View.ld_unit_zero (S := S10000x128) msg_zero_offsets]
  rw [msg_pay4]
  obtain ⟨e0, e1, e2, e3, e4, e5⟩ := msg_idx4 t
  funext j
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; rw [e0, e4]
    | ⟨1, _⟩ => show win4_0.index t (1 : Fin 2) * 128 + 1 * (j 1).val = win4_2.index t (1 : Fin 2) * 128 + 1 * (j 1).val; rw [e1, e5]
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; rw [e2, e4]
    | ⟨1, _⟩ => show win4_1.index t (1 : Fin 2) * 128 + 1 * (j 1).val = win4_2.index t (1 : Fin 2) * 128 + 1 * (j 1).val; rw [e3, e5]
  refine msg_at (iblk4 V c 0 t) (iblk4 V c 1 t) (V c main_v20) (V c main_v1) j (((cfg4.win 2).blk t).view.emb j) ?_ ?_
  · exact congrArg (V c main_v20) h0
  · exact congrArg (V c main_v1) h1

/-- An index of the output array is in point `t`'s block iff each coordinate is in the block's range on its axis. -/
theorem msg_mem_blk4 (t : Fin cfg4.N) (i : S640000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v21).slice (win4_2.rect t)).set ↔ _
  rw [View.set_slice_whole, Rect.mem_set_unit]
  exact Iff.rfl

/-- Every index of the output array lies in the block of the point its row number divided by 10000 names, and every
    point writes its block back. -/
theorem msg_cover4 (i : S640000x128.Idx) :
    ∃ t : Fin cfg4.N, (cfg4.win 2).flush t = true ∧ i ∈ ((cfg4.win 2).blk t).view.set := by
  have hi0 : (i 0).val < 640000 := (i 0).isLt
  have hi1 : (i 1).val < 128 := (i 1).isLt
  have ht : (i 0).val / 10000 < cfg4.N := by show (i 0).val / 10000 < 64; omega
  obtain ⟨e0, e1, e2, e3, e4, e5⟩ := msg_idx4 ⟨(i 0).val / 10000, ht⟩
  refine ⟨⟨(i 0).val / 10000, ht⟩, flush4_2 _, ?_⟩
  rw [msg_mem_blk4]
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, ht⟩ (1 : Fin 2) * 128 ≤ (i 1).val ∧ (i 1).val < win4_2.index ⟨(i 0).val / 10000, ht⟩ (1 : Fin 2) * 128 + 128
    rw [e5]; omega

/-- Layer 1's messages. -/
theorem region4_value (c : Dev nD) :
    (dat4 (F := Ideal) V c).arrAt 2 cfg4.N
      = fun i => Cert.Spec.msg (R := 640000) (V c main_v20) (V c main_v1) (i 0) (i 1) := by
  exact (dat4 (F := Ideal) V c).arrAt_eq_of_cover 2 _ (fun t _ => msg_flushed4 V c t) msg_cover4

/-! ## Layer 2 -/

/-- The three windows' block indices at point `t`: row block `t`, column block 0. -/
theorem msg_idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the messages over the whole arrays. -/
theorem msg_flushed6 (c : Dev nD) (t : Fin cfg6.N) :
    (dat6 (F := Ideal) V c).flushed 2 t
      = ((cfg6.win 2).blk t).view.read (Elt Ideal)
          (fun i => Cert.Spec.msg (R := 640000) (V c main_v34) (V c main_v1) (i 0) (i 1)) := by
  show (cfg6.win 2).cut (grid6.coords t) ((dat6 V c).after 2 t) = _
  rw [after6_2]
  unfold out6_2
  rw [View.canon_unit_zero msg_zero_offsets]
  simp only [View.ld_unit_zero (S := S10000x128) msg_zero_offsets]
  rw [msg_pay6]
  obtain ⟨e0, e1, e2, e3, e4, e5⟩ := msg_idx6 t
  funext j
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; rw [e0, e4]
    | ⟨1, _⟩ => show win6_0.index t (1 : Fin 2) * 128 + 1 * (j 1).val = win6_2.index t (1 : Fin 2) * 128 + 1 * (j 1).val; rw [e1, e5]
  have h1 : ((cfg6.win 1).blk t).view.emb j = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; rw [e2, e4]
    | ⟨1, _⟩ => show win6_1.index t (1 : Fin 2) * 128 + 1 * (j 1).val = win6_2.index t (1 : Fin 2) * 128 + 1 * (j 1).val; rw [e3, e5]
  refine msg_at (iblk6 V c 0 t) (iblk6 V c 1 t) (V c main_v34) (V c main_v1) j (((cfg6.win 2).blk t).view.emb j) ?_ ?_
  · exact congrArg (V c main_v34) h0
  · exact congrArg (V c main_v1) h1

/-- An index of the output array is in point `t`'s block iff each coordinate is in the block's range on its axis. -/
theorem msg_mem_blk6 (t : Fin cfg6.N) (i : S640000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v35).slice (win6_2.rect t)).set ↔ _
  rw [View.set_slice_whole, Rect.mem_set_unit]
  exact Iff.rfl

/-- Every index of the output array lies in the block of the point its row number divided by 10000 names, and every
    point writes its block back. -/
theorem msg_cover6 (i : S640000x128.Idx) :
    ∃ t : Fin cfg6.N, (cfg6.win 2).flush t = true ∧ i ∈ ((cfg6.win 2).blk t).view.set := by
  have hi0 : (i 0).val < 640000 := (i 0).isLt
  have hi1 : (i 1).val < 128 := (i 1).isLt
  have ht : (i 0).val / 10000 < cfg6.N := by show (i 0).val / 10000 < 64; omega
  obtain ⟨e0, e1, e2, e3, e4, e5⟩ := msg_idx6 ⟨(i 0).val / 10000, ht⟩
  refine ⟨⟨(i 0).val / 10000, ht⟩, flush6_2 _, ?_⟩
  rw [msg_mem_blk6]
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, ht⟩ (1 : Fin 2) * 128 ≤ (i 1).val ∧ (i 1).val < win6_2.index ⟨(i 0).val / 10000, ht⟩ (1 : Fin 2) * 128 + 128
    rw [e5]; omega

/-- Layer 2's messages. -/
theorem region6_value (c : Dev nD) :
    (dat6 (F := Ideal) V c).arrAt 2 cfg6.N
      = fun i => Cert.Spec.msg (R := 640000) (V c main_v34) (V c main_v1) (i 0) (i 1) := by
  exact (dat6 (F := Ideal) V c).arrAt_eq_of_cover 2 _ (fun t _ => msg_flushed6 V c t) msg_cover6

end Cert.KernelIdeal.Val

end
-- ==== Proof.KUpd.lean ====
/-
  The three update regions (one per layer): ten blocks of 10000 node rows; a node's features plus the sum of its incoming
  messages go through a 128×128 layer, a rectifier, a second 128×128 layer and a rectifier.
  After each region its output array holds that at every index.
-/
import proofs.«413676_j73890617360755_1_alg».proof.Proof.Gen.KernelIdeal.Frame
import proofs.«413676_j73890617360755_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx

-- The TensorCore's buffer contents when the region is entered: every statement here holds at any such contents.
variable (V : (c : Dev nD) → (b : Ref sig .tc) → Buf (Elt Ideal) ((c : Thread nD τ).loc b))

/-! ## The two products' operand indices: row of the left factor, column of the right, the summed axis between -/

theorem lhs_upd_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_upd_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_upd_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_upd_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block of rows times a 128×128 matrix, accumulated onto zero: entry (p, q) is row p against column q. -/
theorem matmul_upd_apply {φ₁ φ₂ : FTy} (a : FVec Ideal S10000x128 φ₁) (w : FVec Ideal S128x128 φ₂) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  show FloatOps.matmul dot_S10000x128_S128x128_S10000x128_1_0_0_1_n_n none a w (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_upd_0 _ _
    | ⟨1, _⟩ => exact (lhs_upd_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_upd_0 _ _).trans hk
    | ⟨1, _⟩ => exact rhs_upd_1 _ _)
  rw [el, er]

/-- A 128-vector of biases spread over the rows of a block: entry (p, q) is the bias at q. -/
theorem bias_upd_apply (b : Vec Ideal S128 .f32) (p : Fin 10000) (q : Fin 128) :
    broadcastTo S10000x128 (shapeCast S1x128 b shapeCasts_S128_S1x128) broadcasts_S1x128_S10000x128 (ix2 p q) = b (ix1 q) := by
  rw [broadcastTo_1b_ab_apply, shapeCast_a_1a_apply]

/-- The update's payload at row p, column q of a block: the specification's update of the block's row p. -/
theorem pay_upd_apply (x0 x1 : Vec Ideal S10000x128 .f32) (x2 : Vec Ideal S128x128 .f32) (x3 : Vec Ideal S128 .f32)
    (x4 : Vec Ideal S128x128 .f32) (x5 : Vec Ideal S128 .f32) (p : Fin 10000) (q : Fin 128) :
    k3_pay1 (F := Ideal) x0 x1 x2 x3 x4 x5 (ix2 p q) = Cert.Spec.upd (R := 10000) x0 x1 x2 x3 x4 x5 p q := by
  unfold k3_pay1
  simp only [shapeCast_self]
  have h0 : (FloatOps.ofBits (F := Ideal) .f32 0x00000000#32) = (0 : EReal) := Ideal.ofBits_zero_f32
  rw [maximumf_apply, addf_apply, matmul_upd_apply, bias_upd_apply, broadcast_apply, h0]
  unfold Cert.Spec.upd Cert.Spec.updRow Cert.Spec.updHidden Cert.Spec.relu
  refine congrArg (fun s => max (s + x5 (ix1 q)) 0) (Finset.sum_congr rfl fun j _ => ?_)
  rw [truncf_apply, truncf_apply, maximumf_apply, addf_apply, matmul_upd_apply, bias_upd_apply, broadcast_apply]
  refine congrArg (fun s => max (s + x3 (ix1 j)) 0 * x4 (ix2 j q)) (Finset.sum_congr rfl fun k _ => ?_)
  rw [truncf_apply, truncf_apply, addf_apply]

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The update of row p of a block is the update of row r of the array when the block's row p of the features and of
    the summed messages is the array's row r: the update reads nothing else of them. -/
theorem upd_row_congr (H A : (⟨2, ![100000, 128]⟩ : Shape).Idx → EReal) (x0 x1 : (⟨2, ![10000, 128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (r : Fin 100000) (p : Fin 10000) (q : Fin 128)
    (e0 : ∀ k, x0 (ix2 p k) = H (ix2 r k)) (e1 : ∀ k, x1 (ix2 p k) = A (ix2 r k)) :
    Cert.Spec.upd (R := 10000) x0 x1 w1 b1 w2 b2 p q = Cert.Spec.upd (R := 100000) H A w1 b1 w2 b2 r q := by
  unfold Cert.Spec.upd
  congr 1
  funext k
  rw [e0, e1]

/-- The payload at an index y of a block, when the block's row of y is the array's row of i and y, i have the same
    column: the update of the whole arrays at i. -/
theorem pay_upd_block (H A : S100000x128.Idx → EReal) (x0 x1 : Vec Ideal S10000x128 .f32) (x2 : Vec Ideal S128x128 .f32)
    (x3 : Vec Ideal S128 .f32) (x4 : Vec Ideal S128x128 .f32) (x5 : Vec Ideal S128 .f32) (y : S10000x128.Idx) (i : S100000x128.Idx)
    (e0 : ∀ k : Fin 128, x0 (ix2 (y 0) k) = H (ix2 (i 0) k))
    (e1 : ∀ k : Fin 128, x1 (ix2 (y 0) k) = A (ix2 (i 0) k))
    (hq : (y 1).val = (i 1).val) :
    k3_pay1 (F := Ideal) x0 x1 x2 x3 x4 x5 y = Cert.Spec.upd (R := 100000) H A x2 x3 x4 x5 (i 0) (i 1) := by
  obtain ⟨p, q, rfl⟩ : ∃ (p : Fin 10000) (q : Fin 128), y = ix2 p q := ⟨y 0, y 1, eq_ix2 y⟩
  have hq' : q = i 1 := Fin.ext hq
  rw [pay_upd_apply, upd_row_congr H A x0 x1 x2 x3 x4 x5 (i 0) p q e0 e1, hq']

/-! ## Layer 0 (region 3) -/

/-- The printed index maps over the grid: the row-block windows sit at block (t, 0), the weights at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- A row-block window's block at point t, read at y, is the array at row 10000 t + (row of y), same column. -/
theorem iblk3_0_apply (c : Dev nD) (t : Fin cfg3.N) (y : S10000x128.Idx) (i : S100000x128.Idx)
    (h0 : (i 0).val = t.val * 10000 + (y 0).val) (h1 : (i 1).val = (y 1).val) :
    (iblk3 (F := Ideal) V c 0 t : Vec Ideal S10000x128 .f32) y = (V c main_v0 : S100000x128.Idx → EReal) i := by
  obtain ⟨f0, f1, -⟩ := idx_facts3 t
  unfold iblk3
  rw [View.read_apply]
  show V c main_v0 _ = V c main_v0 _
  congr 1
  funext a
  apply Fin.ext
  match a with
  | ⟨0, _⟩ => show win3_0.index t 0 * 10000 + 1 * (y 0).val = (i 0).val; rw [f0, h0]; omega
  | ⟨1, _⟩ => show win3_0.index t 1 * 128 + 1 * (y 1).val = (i 1).val; rw [f1, h1]; omega

theorem iblk3_1_apply (c : Dev nD) (t : Fin cfg3.N) (y : S10000x128.Idx) (i : S100000x128.Idx)
    (h0 : (i 0).val = t.val * 10000 + (y 0).val) (h1 : (i 1).val = (y 1).val) :
    (iblk3 (F := Ideal) V c 1 t : Vec Ideal S10000x128 .f32) y = (V c main_v10 : S100000x128.Idx → EReal) i := by
  obtain ⟨-, -, f0, f1, -⟩ := idx_facts3 t
  unfold iblk3
  rw [View.read_apply]
  show V c main_v10 _ = V c main_v10 _
  congr 1
  funext a
  apply Fin.ext
  match a with
  | ⟨0, _⟩ => show win3_1.index t 0 * 10000 + 1 * (y 0).val = (i 0).val; rw [f0, h0]; omega
  | ⟨1, _⟩ => show win3_1.index t 1 * 128 + 1 * (y 1).val = (i 1).val; rw [f1, h1]; omega

/-- The weight windows' one block is the whole array. -/
theorem iblk3_2_eq (c : Dev nD) (t : Fin cfg3.N) :
    (iblk3 (F := Ideal) V c 2 t : Vec Ideal S128x128 .f32) = (V c main_v12 : S128x128.Idx → EReal) := by
  obtain ⟨-, -, -, -, f0, f1, -⟩ := idx_facts3 t
  funext y
  unfold iblk3
  rw [View.read_apply]
  show V c main_v12 _ = V c main_v12 _
  congr 1
  funext a
  apply Fin.ext
  match a with
  | ⟨0, _⟩ => show win3_2.index t 0 * 128 + 1 * (y 0).val = (y 0).val; rw [f0]; omega
  | ⟨1, _⟩ => show win3_2.index t 1 * 128 + 1 * (y 1).val = (y 1).val; rw [f1]; omega

theorem iblk3_3_eq (c : Dev nD) (t : Fin cfg3.N) :
    (iblk3 (F := Ideal) V c 3 t : Vec Ideal S128 .f32) = (V c main_v14 : S128.Idx → EReal) := by
  obtain ⟨-, -, -, -, -, -, f0, -⟩ := idx_facts3 t
  funext y
  unfold iblk3
  rw [View.read_apply]
  show V c main_v14 _ = V c main_v14 _
  congr 1
  funext a
  apply Fin.ext
  match a with
  | ⟨0, _⟩ => show win3_3.index t 0 * 128 + 1 * (y 0).val = (y 0).val; rw [f0]; omega

theorem iblk3_4_eq (c : Dev nD) (t : Fin cfg3.N) :
    (iblk3 (F := Ideal) V c 4 t : Vec Ideal S128x128 .f32) = (V c main_v16 : S128x128.Idx → EReal) := by
  obtain ⟨-, -, -, -, -, -, -, f0, f1, -⟩ := idx_facts3 t
  funext y
  unfold iblk3
  rw [View.read_apply]
  show V c main_v16 _ = V c main_v16 _
  congr 1
  funext a
  apply Fin.ext
  match a with
  | ⟨0, _⟩ => show win3_4.index t 0 * 128 + 1 * (y 0).val = (y 0).val; rw [f0]; omega
  | ⟨1, _⟩ => show win3_4.index t 1 * 128 + 1 * (y 1).val = (y 1).val; rw [f1]; omega

theorem iblk3_5_eq (c : Dev nD) (t : Fin cfg3.N) :
    (iblk3 (F := Ideal) V c 5 t : Vec Ideal S128 .f32) = (V c main_v18 : S128.Idx → EReal) := by
  obtain ⟨-, -, -, -, -, -, -, -, -, f0, -⟩ := idx_facts3 t
  funext y
  unfold iblk3
  rw [View.read_apply]
  show V c main_v18 _ = V c main_v18 _
  congr 1
  funext a
  apply Fin.ext
  match a with
  | ⟨0, _⟩ => show win3_5.index t 0 * 128 + 1 * (y 0).val = (y 0).val; rw [f0]; omega

/-- What point t writes back is block t of the update of the whole arrays. -/
theorem flushed3_eq (c : Dev nD) (t : Fin cfg3.N) :
    (dat3 (F := Ideal) V c).flushed 6 t = ((cfg3.win 6).blk t).view.read (Elt Ideal)
      (fun i => Cert.Spec.upd (R := 100000) (V c main_v0) (V c main_v10) (V c main_v12) (V c main_v14) (V c main_v16) (V c main_v18) (i 0) (i 1)) := by
  show (cfg3.win 6).cut (grid3.coords t) ((dat3 V c).after 6 t) = _
  rw [after3_6]
  unfold out3_6
  rw [View.canon_unit_zero hz2]
  simp only [View.ld_unit_zero (S := S10000x128) hz2, View.ld_unit_zero (S := S128x128) hz2, View.ld_unit_zero (S := S128) hz1]
  rw [iblk3_2_eq, iblk3_3_eq, iblk3_4_eq, iblk3_5_eq]
  obtain ⟨-, -, -, -, -, -, -, -, -, -, f0, f1⟩ := idx_facts3 t
  funext j
  rw [View.read_apply]
  have hi0 : ((((cfg3.win 6).blk t).view.emb j) 0).val = t.val * 10000 + (j 0).val := by
    show win3_6.index t 0 * 10000 + 1 * (j 0).val = _
    rw [f0]; omega
  have hi1 : ((((cfg3.win 6).blk t).view.emb j) 1).val = (j 1).val := by
    show win3_6.index t 1 * 128 + 1 * (j 1).val = _
    rw [f1]; omega
  exact pay_upd_block (V c main_v0) (V c main_v10) _ _ _ _ _ _ ((cfg3.win 6).xinj (grid3.coords t) j) (((cfg3.win 6).blk t).view.emb j)
    (fun k => iblk3_0_apply V c t _ _ hi0 rfl) (fun k => iblk3_1_apply V c t _ _ hi0 rfl) hi1.symm

/-- An index of the array is in point t's block iff each coordinate is in the block's range on its axis. -/
theorem mem_blk3 (t : Fin cfg3.N) (i : S100000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole main_v19).slice (win3_6.rect t)).set ↔ _
  rw [View.set_slice_whole, Rect.mem_set_unit]
  exact Iff.rfl

/-- Every index of the array lies in the block of the point its row falls in, and every point writes back. -/
theorem cover3 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  obtain ⟨-, -, -, -, -, -, -, -, -, -, f0, f1⟩ := idx_facts3 t
  have ht : t.val = (i 0).val / 10000 := rfl
  refine ⟨t, flush3_6 t, ?_⟩
  rw [mem_blk3]
  intro a
  match a with
  | ⟨0, _⟩ => show win3_6.index t (0 : Fin 2) * 10000 ≤ (i 0).val ∧ (i 0).val < win3_6.index t (0 : Fin 2) * 10000 + 10000; rw [f0, ht]; omega
  | ⟨1, _⟩ => show win3_6.index t (1 : Fin 2) * 128 ≤ (i 1).val ∧ (i 1).val < win3_6.index t (1 : Fin 2) * 128 + 128; rw [f1]; omega

/-- Layer 0's update. -/
theorem region3_value (c : Dev nD) :
    (dat3 (F := Ideal) V c).arrAt 6 cfg3.N
      = fun i => Cert.Spec.upd (R := 100000) (V c main_v0) (V c main_v10) (V c main_v12) (V c main_v14) (V c main_v16) (V c main_v18) (i 0) (i 1) :=
  (dat3 (F := Ideal) V c).arrAt_eq_of_cover 6 _ (fun t _ => flushed3_eq V c t) cover3

/-! ## Layer 1 (region 5) -/

/-- Region 5's payload is the same tree of operations. -/
theorem k5_pay1_eq : @k5_pay1 Ideal _ = @k3_pay1 Ideal _ := rfl

/-- The printed index maps over the grid: the row-block windows sit at block (t, 0), the weights at block 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- A row-block window's block at point t, read at y, is the array at row 10000 t + (row of y), same column. -/
theorem iblk5_0_apply (c : Dev nD) (t : Fin cfg5.N) (y : S10000x128.Idx) (i : S100000x128.Idx)
    (h0 : (i 0).val = t.val * 10000 + (y 0).val) (h1 : (i 1).val = (y 1).val) :
    (iblk5 (F := Ideal) V c 0 t : Vec Ideal S10000x128 .f32) y = (V c main_v19 : S100000x128.Idx → EReal) i := by
  obtain ⟨f0, f1, -⟩ := idx_facts5 t
  unfold iblk5
  rw [View.read_apply]
  show V c main_v19 _ = V c main_v19 _
  congr 1
  funext a
  apply Fin.ext
  match a with
  | ⟨0, _⟩ => show win5_0.index t 0 * 10000 + 1 * (y 0).val = (i 0).val; rw [f0, h0]; omega
  | ⟨1, _⟩ => show win5_0.index t 1 * 128 + 1 * (y 1).val = (i 1).val; rw [f1, h1]; omega

theorem iblk5_1_apply (c : Dev nD) (t : Fin cfg5.N) (y : S10000x128.Idx) (i : S100000x128.Idx)
    (h0 : (i 0).val = t.val * 10000 + (y 0).val) (h1 : (i 1).val = (y 1).val) :
    (iblk5 (F := Ideal) V c 1 t : Vec Ideal S10000x128 .f32) y = (V c main_v24 : S100000x128.Idx → EReal) i := by
  obtain ⟨-, -, f0, f1, -⟩ := idx_facts5 t
  unfold iblk5
  rw [View.read_apply]
  show V c main_v24 _ = V c main_v24 _
  congr 1
  funext a
  apply Fin.ext
  match a with
  | ⟨0, _⟩ => show win5_1.index t 0 * 10000 + 1 * (y 0).val = (i 0).val; rw [f0, h0]; omega
  | ⟨1, _⟩ => show win5_1.index t 1 * 128 + 1 * (y 1).val = (i 1).val; rw [f1, h1]; omega

/-- The weight windows' one block is the whole array. -/
theorem iblk5_2_eq (c : Dev nD) (t : Fin cfg5.N) :
    (iblk5 (F := Ideal) V c 2 t : Vec Ideal S128x128 .f32) = (V c main_v26 : S128x128.Idx → EReal) := by
  obtain ⟨-, -, -, -, f0, f1, -⟩ := idx_facts5 t
  funext y
  unfold iblk5
  rw [View.read_apply]
  show V c main_v26 _ = V c main_v26 _
  congr 1
  funext a
  apply Fin.ext
  match a with
  | ⟨0, _⟩ => show win5_2.index t 0 * 128 + 1 * (y 0).val = (y 0).val; rw [f0]; omega
  | ⟨1, _⟩ => show win5_2.index t 1 * 128 + 1 * (y 1).val = (y 1).val; rw [f1]; omega

theorem iblk5_3_eq (c : Dev nD) (t : Fin cfg5.N) :
    (iblk5 (F := Ideal) V c 3 t : Vec Ideal S128 .f32) = (V c main_v28 : S128.Idx → EReal) := by
  obtain ⟨-, -, -, -, -, -, f0, -⟩ := idx_facts5 t
  funext y
  unfold iblk5
  rw [View.read_apply]
  show V c main_v28 _ = V c main_v28 _
  congr 1
  funext a
  apply Fin.ext
  match a with
  | ⟨0, _⟩ => show win5_3.index t 0 * 128 + 1 * (y 0).val = (y 0).val; rw [f0]; omega

theorem iblk5_4_eq (c : Dev nD) (t : Fin cfg5.N) :
    (iblk5 (F := Ideal) V c 4 t : Vec Ideal S128x128 .f32) = (V c main_v30 : S128x128.Idx → EReal) := by
  obtain ⟨-, -, -, -, -, -, -, f0, f1, -⟩ := idx_facts5 t
  funext y
  unfold iblk5
  rw [View.read_apply]
  show V c main_v30 _ = V c main_v30 _
  congr 1
  funext a
  apply Fin.ext
  match a with
  | ⟨0, _⟩ => show win5_4.index t 0 * 128 + 1 * (y 0).val = (y 0).val; rw [f0]; omega
  | ⟨1, _⟩ => show win5_4.index t 1 * 128 + 1 * (y 1).val = (y 1).val; rw [f1]; omega

theorem iblk5_5_eq (c : Dev nD) (t : Fin cfg5.N) :
    (iblk5 (F := Ideal) V c 5 t : Vec Ideal S128 .f32) = (V c main_v32 : S128.Idx → EReal) := by
  obtain ⟨-, -, -, -, -, -, -, -, -, f0, -⟩ := idx_facts5 t
  funext y
  unfold iblk5
  rw [View.read_apply]
  show V c main_v32 _ = V c main_v32 _
  congr 1
  funext a
  apply Fin.ext
  match a with
  | ⟨0, _⟩ => show win5_5.index t 0 * 128 + 1 * (y 0).val = (y 0).val; rw [f0]; omega

/-- What point t writes back is block t of the update of the whole arrays. -/
theorem flushed5_eq (c : Dev nD) (t : Fin cfg5.N) :
    (dat5 (F := Ideal) V c).flushed 6 t = ((cfg5.win 6).blk t).view.read (Elt Ideal)
      (fun i => Cert.Spec.upd (R := 100000) (V c main_v19) (V c main_v24) (V c main_v26) (V c main_v28) (V c main_v30) (V c main_v32) (i 0) (i 1)) := by
  show (cfg5.win 6).cut (grid5.coords t) ((dat5 V c).after 6 t) = _
  rw [after5_6]
  unfold out5_6
  rw [k5_pay1_eq]
  rw [View.canon_unit_zero hz2]
  simp only [View.ld_unit_zero (S := S10000x128) hz2, View.ld_unit_zero (S := S128x128) hz2, View.ld_unit_zero (S := S128) hz1]
  rw [iblk5_2_eq, iblk5_3_eq, iblk5_4_eq, iblk5_5_eq]
  obtain ⟨-, -, -, -, -, -, -, -, -, -, f0, f1⟩ := idx_facts5 t
  funext j
  rw [View.read_apply]
  have hi0 : ((((cfg5.win 6).blk t).view.emb j) 0).val = t.val * 10000 + (j 0).val := by
    show win5_6.index t 0 * 10000 + 1 * (j 0).val = _
    rw [f0]; omega
  have hi1 : ((((cfg5.win 6).blk t).view.emb j) 1).val = (j 1).val := by
    show win5_6.index t 1 * 128 + 1 * (j 1).val = _
    rw [f1]; omega
  exact pay_upd_block (V c main_v19) (V c main_v24) _ _ _ _ _ _ ((cfg5.win 6).xinj (grid5.coords t) j) (((cfg5.win 6).blk t).view.emb j)
    (fun k => iblk5_0_apply V c t _ _ hi0 rfl) (fun k => iblk5_1_apply V c t _ _ hi0 rfl) hi1.symm

/-- An index of the array is in point t's block iff each coordinate is in the block's range on its axis. -/
theorem mem_blk5 (t : Fin cfg5.N) (i : S100000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole main_v33).slice (win5_6.rect t)).set ↔ _
  rw [View.set_slice_whole, Rect.mem_set_unit]
  exact Iff.rfl

/-- Every index of the array lies in the block of the point its row falls in, and every point writes back. -/
theorem cover5 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 10 := N_5
  let t : Fin cfg5.N := ⟨(i 0).val / 10000, by rw [hN]; omega⟩
  obtain ⟨-, -, -, -, -, -, -, -, -, -, f0, f1⟩ := idx_facts5 t
  have ht : t.val = (i 0).val / 10000 := rfl
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; rw [f0, ht]; omega
  | ⟨1, _⟩ => show win5_6.index t (1 : Fin 2) * 128 ≤ (i 1).val ∧ (i 1).val < win5_6.index t (1 : Fin 2) * 128 + 128; rw [f1]; omega

/-- Layer 1's update. -/
theorem region5_value (c : Dev nD) :
    (dat5 (F := Ideal) V c).arrAt 6 cfg5.N
      = fun i => Cert.Spec.upd (R := 100000) (V c main_v19) (V c main_v24) (V c main_v26) (V c main_v28) (V c main_v30) (V c main_v32) (i 0) (i 1) :=
  (dat5 (F := Ideal) V c).arrAt_eq_of_cover 6 _ (fun t _ => flushed5_eq V c t) cover5

/-! ## Layer 2 (region 7) -/

/-- Region 7's payload is the same tree of operations. -/
theorem k7_pay1_eq : @k7_pay1 Ideal _ = @k3_pay1 Ideal _ := rfl

/-- The printed index maps over the grid: the row-block windows sit at block (t, 0), the weights at block 0. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 1) = 0
    ∧ win7_4.index t (0 : Fin 2) = 0 ∧ win7_4.index t (1 : Fin 2) = 0
    ∧ win7_5.index t (0 : Fin 1) = 0
    ∧ win7_6.index t (0 : Fin 2) = t.val ∧ win7_6.index t (1 : Fin 2) = 0 :=
  (by decide +kernel : ∀ t : Fin grid7.N, _)

/-- A row-block window's block at point t, read at y, is the array at row 10000 t + (row of y), same column. -/
theorem iblk7_0_apply (c : Dev nD) (t : Fin cfg7.N) (y : S10000x128.Idx) (i : S100000x128.Idx)
    (h0 : (i 0).val = t.val * 10000 + (y 0).val) (h1 : (i 1).val = (y 1).val) :
    (iblk7 (F := Ideal) V c 0 t : Vec Ideal S10000x128 .f32) y = (V c main_v33 : S100000x128.Idx → EReal) i := by
  obtain ⟨f0, f1, -⟩ := idx_facts7 t
  unfold iblk7
  rw [View.read_apply]
  show V c main_v33 _ = V c main_v33 _
  congr 1
  funext a
  apply Fin.ext
  match a with
  | ⟨0, _⟩ => show win7_0.index t 0 * 10000 + 1 * (y 0).val = (i 0).val; rw [f0, h0]; omega
  | ⟨1, _⟩ => show win7_0.index t 1 * 128 + 1 * (y 1).val = (i 1).val; rw [f1, h1]; omega

theorem iblk7_1_apply (c : Dev nD) (t : Fin cfg7.N) (y : S10000x128.Idx) (i : S100000x128.Idx)
    (h0 : (i 0).val = t.val * 10000 + (y 0).val) (h1 : (i 1).val = (y 1).val) :
    (iblk7 (F := Ideal) V c 1 t : Vec Ideal S10000x128 .f32) y = (V c main_v38 : S100000x128.Idx → EReal) i := by
  obtain ⟨-, -, f0, f1, -⟩ := idx_facts7 t
  unfold iblk7
  rw [View.read_apply]
  show V c main_v38 _ = V c main_v38 _
  congr 1
  funext a
  apply Fin.ext
  match a with
  | ⟨0, _⟩ => show win7_1.index t 0 * 10000 + 1 * (y 0).val = (i 0).val; rw [f0, h0]; omega
  | ⟨1, _⟩ => show win7_1.index t 1 * 128 + 1 * (y 1).val = (i 1).val; rw [f1, h1]; omega

/-- The weight windows' one block is the whole array. -/
theorem iblk7_2_eq (c : Dev nD) (t : Fin cfg7.N) :
    (iblk7 (F := Ideal) V c 2 t : Vec Ideal S128x128 .f32) = (V c main_v40 : S128x128.Idx → EReal) := by
  obtain ⟨-, -, -, -, f0, f1, -⟩ := idx_facts7 t
  funext y
  unfold iblk7
  rw [View.read_apply]
  show V c main_v40 _ = V c main_v40 _
  congr 1
  funext a
  apply Fin.ext
  match a with
  | ⟨0, _⟩ => show win7_2.index t 0 * 128 + 1 * (y 0).val = (y 0).val; rw [f0]; omega
  | ⟨1, _⟩ => show win7_2.index t 1 * 128 + 1 * (y 1).val = (y 1).val; rw [f1]; omega

theorem iblk7_3_eq (c : Dev nD) (t : Fin cfg7.N) :
    (iblk7 (F := Ideal) V c 3 t : Vec Ideal S128 .f32) = (V c main_v42 : S128.Idx → EReal) := by
  obtain ⟨-, -, -, -, -, -, f0, -⟩ := idx_facts7 t
  funext y
  unfold iblk7
  rw [View.read_apply]
  show V c main_v42 _ = V c main_v42 _
  congr 1
  funext a
  apply Fin.ext
  match a with
  | ⟨0, _⟩ => show win7_3.index t 0 * 128 + 1 * (y 0).val = (y 0).val; rw [f0]; omega

theorem iblk7_4_eq (c : Dev nD) (t : Fin cfg7.N) :
    (iblk7 (F := Ideal) V c 4 t : Vec Ideal S128x128 .f32) = (V c main_v44 : S128x128.Idx → EReal) := by
  obtain ⟨-, -, -, -, -, -, -, f0, f1, -⟩ := idx_facts7 t
  funext y
  unfold iblk7
  rw [View.read_apply]
  show V c main_v44 _ = V c main_v44 _
  congr 1
  funext a
  apply Fin.ext
  match a with
  | ⟨0, _⟩ => show win7_4.index t 0 * 128 + 1 * (y 0).val = (y 0).val; rw [f0]; omega
  | ⟨1, _⟩ => show win7_4.index t 1 * 128 + 1 * (y 1).val = (y 1).val; rw [f1]; omega

theorem iblk7_5_eq (c : Dev nD) (t : Fin cfg7.N) :
    (iblk7 (F := Ideal) V c 5 t : Vec Ideal S128 .f32) = (V c main_v46 : S128.Idx → EReal) := by
  obtain ⟨-, -, -, -, -, -, -, -, -, f0, -⟩ := idx_facts7 t
  funext y
  unfold iblk7
  rw [View.read_apply]
  show V c main_v46 _ = V c main_v46 _
  congr 1
  funext a
  apply Fin.ext
  match a with
  | ⟨0, _⟩ => show win7_5.index t 0 * 128 + 1 * (y 0).val = (y 0).val; rw [f0]; omega

/-- What point t writes back is block t of the update of the whole arrays. -/
theorem flushed7_eq (c : Dev nD) (t : Fin cfg7.N) :
    (dat7 (F := Ideal) V c).flushed 6 t = ((cfg7.win 6).blk t).view.read (Elt Ideal)
      (fun i => Cert.Spec.upd (R := 100000) (V c main_v33) (V c main_v38) (V c main_v40) (V c main_v42) (V c main_v44) (V c main_v46) (i 0) (i 1)) := by
  show (cfg7.win 6).cut (grid7.coords t) ((dat7 V c).after 6 t) = _
  rw [after7_6]
  unfold out7_6
  rw [k7_pay1_eq]
  rw [View.canon_unit_zero hz2]
  simp only [View.ld_unit_zero (S := S10000x128) hz2, View.ld_unit_zero (S := S128x128) hz2, View.ld_unit_zero (S := S128) hz1]
  rw [iblk7_2_eq, iblk7_3_eq, iblk7_4_eq, iblk7_5_eq]
  obtain ⟨-, -, -, -, -, -, -, -, -, -, f0, f1⟩ := idx_facts7 t
  funext j
  rw [View.read_apply]
  have hi0 : ((((cfg7.win 6).blk t).view.emb j) 0).val = t.val * 10000 + (j 0).val := by
    show win7_6.index t 0 * 10000 + 1 * (j 0).val = _
    rw [f0]; omega
  have hi1 : ((((cfg7.win 6).blk t).view.emb j) 1).val = (j 1).val := by
    show win7_6.index t 1 * 128 + 1 * (j 1).val = _
    rw [f1]; omega
  exact pay_upd_block (V c main_v33) (V c main_v38) _ _ _ _ _ _ ((cfg7.win 6).xinj (grid7.coords t) j) (((cfg7.win 6).blk t).view.emb j)
    (fun k => iblk7_0_apply V c t _ _ hi0 rfl) (fun k => iblk7_1_apply V c t _ _ hi0 rfl) hi1.symm

/-- An index of the array is in point t's block iff each coordinate is in the block's range on its axis. -/
theorem mem_blk7 (t : Fin cfg7.N) (i : S100000x128.Idx) :
    i ∈ ((cfg7.win 6).blk t).view.set ↔ ∀ a : Fin 2, win7_6.index t a * S10000x128.size a ≤ (i a).val ∧ (i a).val < win7_6.index t a * S10000x128.size a + S10000x128.size a := by
  show i ∈ ((View.whole main_v47).slice (win7_6.rect t)).set ↔ _
  rw [View.set_slice_whole, Rect.mem_set_unit]
  exact Iff.rfl

/-- Every index of the array lies in the block of the point its row falls in, and every point writes back. -/
theorem cover7 (i : S100000x128.Idx) : ∃ t : Fin cfg7.N, (cfg7.win 6).flush t = true ∧ i ∈ ((cfg7.win 6).blk t).view.set := by
  have hi0 : (i 0).val < 100000 := (i 0).isLt
  have hi1 : (i 1).val < 128 := (i 1).isLt
  have hN : cfg7.N = 10 := N_7
  let t : Fin cfg7.N := ⟨(i 0).val / 10000, by rw [hN]; omega⟩
  obtain ⟨-, -, -, -, -, -, -, -, -, -, f0, f1⟩ := idx_facts7 t
  have ht : t.val = (i 0).val / 10000 := rfl
  refine ⟨t, flush7_6 t, ?_⟩
  rw [mem_blk7]
  intro a
  match a with
  | ⟨0, _⟩ => show win7_6.index t (0 : Fin 2) * 10000 ≤ (i 0).val ∧ (i 0).val < win7_6.index t (0 : Fin 2) * 10000 + 10000; rw [f0, ht]; omega
  | ⟨1, _⟩ => show win7_6.index t (1 : Fin 2) * 128 ≤ (i 1).val ∧ (i 1).val < win7_6.index t (1 : Fin 2) * 128 + 128; rw [f1]; omega

/-- Layer 2's update. -/
theorem region7_value (c : Dev nD) :
    (dat7 (F := Ideal) V c).arrAt 6 cfg7.N
      = fun i => Cert.Spec.upd (R := 100000) (V c main_v33) (V c main_v38) (V c main_v40) (V c main_v42) (V c main_v44) (V c main_v46) (i 0) (i 1) :=
  (dat7 (F := Ideal) V c).arrAt_eq_of_cover 6 _ (fun t _ => flushed7_eq V c t) cover7

end Cert.KernelIdeal.Val

end
-- ==== Proof.TakeEq.lean ====
/-
  Where every source index lies in [-100000, 100000), the kernel's `take` IS the plain gather: the wrapped index lies in
  [0, 99999], so the range test holds for every edge and the fill value is never chosen.
-/
import proofs.«413676_j73890617360755_1_alg».proof.Proof.HostDefs
import Idealize.ShloMosaic.PureOps.Ideal
import Idealize.ShloMosaic.Lib.ValueIdx
import Idealize.ShloMosaic.Lib.StableHlo.Predicate
import Idealize.ShloMosaic.Lib.ReduceAll

set_option maxRecDepth 16384

noncomputable section

namespace Cert.KernelIdeal.Val

open Cert.KernelIdeal Cert.KernelIdeal.Gen Idealize.ShloMosaic Idealize.ShloMosaic.TcCoe Idealize.ShloMosaic.ValueIdx

variable {F : FTy → Type} [FloatOps F]

namespace TakeEq

/-- A signed 32-bit word whose value lies in [0, 99999] passes both compares of the range test. -/
theorem inRange_of_toInt (v : BitVec 32) (h0 : 0 ≤ v.toInt) (h1 : v.toInt ≤ 99999) :
    IntOp.andi (IntOp.cmpi .sge v 0#32) (IntOp.cmpi .sle v 99999#32) = 1#1 := by
  have hz : (0#32 : BitVec 32).toInt = 0 := by decide
  have hm : (99999#32 : BitVec 32).toInt = 99999 := by decide
  rw [IntOp.andi_eq_one]
  constructor
  · show BitVec.ofBool ((0#32 : BitVec 32).sle v) = 1#1
    rw [StableHlo.Predicate.ofBool_eq_one_iff]; simp only [BitVec.sle, hz, decide_eq_true_eq]; exact h0
  · show BitVec.ofBool (v.sle 99999#32) = 1#1
    rw [StableHlo.Predicate.ofBool_eq_one_iff]; simp only [BitVec.sle, hm, decide_eq_true_eq]; exact h1

/-- A signed 32-bit word `w` with -100000 ≤ w < 100000, wrapped (100000 added where it is negative: the sum stays far
    inside the signed range, so it is the integer sum), has its value in [0, 99999]. -/
theorem wrap_toInt (w : BitVec 32) (h0 : (-100000 : Int) ≤ w.toInt) (h1 : w.toInt < 100000) :
    0 ≤ (Scalar.select (IntOp.cmpi .slt w 0#32) (IntOp.addi w 100000#32) w).toInt
      ∧ (Scalar.select (IntOp.cmpi .slt w 0#32) (IntOp.addi w 100000#32) w).toInt ≤ 99999 := by
  have hz : (0#32 : BitVec 32).toInt = 0 := by decide
  have hk : (100000#32 : BitVec 32).toInt = 100000 := by decide
  have hadd : (IntOp.addi w 100000#32).toInt = w.toInt + 100000 := by
    show (w + 100000#32).toInt = _
    rw [BitVec.toInt_add, hk]
    exact Int.bmod_eq_of_le (by omega) (by omega)
  have hc : IntOp.cmpi .slt w 0#32 = BitVec.ofBool (w.slt 0#32) := rfl
  have hiff : IntOp.cmpi .slt w 0#32 = 1 ↔ w.toInt < 0 := by
    rw [hc]
    show BitVec.ofBool (w.slt 0#32) = 1#1 ↔ _
    rw [StableHlo.Predicate.ofBool_eq_one_iff]; simp only [BitVec.slt, hz, decide_eq_true_eq]
  unfold Scalar.select
  by_cases hneg : w.toInt < 0
  · rw [if_pos (hiff.2 hneg), hadd]; omega
  · rw [if_neg (fun hh => hneg (hiff.1 hh))]; omega

/-- THE WORD FACT. For such a word the range test of the wrapped index is 1. -/
theorem wrap_word_inRange (w : BitVec 32) (h0 : (-100000 : Int) ≤ w.toInt) (h1 : w.toInt < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 :=
  inRange_of_toInt _ (wrap_toInt w h0 h1).1 (wrap_toInt w h0 h1).2

/-- A left fold by `and` from 1 over bits that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all_one f hf l

/-- An `and`-reduction from the initial bit 1 of a mask whose every bit is 1 is 1 at every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  exact foldl_andi_all_one (fun n => x (s.rowMajor.symm n)) (fun n => hx _) _

/-- With every index in [-100000, 100000) the range test is 1 at every edge. -/
theorem inRangeK_eq_one (s : IVec S640000 32)
    (hs : ∀ e : S640000.Idx, (-100000 : Int) ≤ (s e).toInt ∧ (s e).toInt < 100000) (e : S640000.Idx) :
    inRangeK s e = 1#1 := by
  unfold inRangeK
  apply reduce_andi_of_all_one
  · rfl
  · intro i
    simp only [andi, cmpi, colK, wrapK, select, addi, broadcastInDim, constantI]
    exact wrap_word_inRange _ (hs _).1 (hs _).2

end TakeEq

/-- With every index in [-100000, 100000) the range test passes everywhere, and `take` returns the gathered rows. -/
theorem takeK_eq_gatherK (h : FVec F S100000x128 .f32) (s : IVec S640000 32)
    (hs : ∀ e : S640000.Idx, (-100000 : Int) ≤ (s e).toInt ∧ (s e).toInt < 100000) :
    takeK h s = gatherK h s := by
  funext i
  unfold takeK
  simp only [select, broadcastInDim]
  unfold Scalar.select
  exact if_pos (TakeEq.inRangeK_eq_one s hs _)

end Cert.KernelIdeal.Val

end
-- ==== Proof.KChain.lean ====
/-
  The kernel's program computes the network: at the last boundary of @main the two result buffers hold the network's two
  readouts of the launch arrays.

  @main is twenty segments: eight pallas regions among stretches of host operations. Every buffer is written once. So
  the run is followed forwards, one fact per buffer a later segment reads: what the buffer holds, as a function of the
  launch arrays, at the boundary where it is read. A region contributes its output array (the region's value, read at the
  entry contents); a host stretch contributes its results (the stretch's function of what it reads); and between the
  segment that writes a buffer and the segment that reads it nothing touches it, which is the bulk of the text below.

  The one place the precondition enters is the gather: where every source index lies in [-100000, 100000) the kernel's
  masked `take` is the plain gather.
-/
import proofs.«413676_j73890617360755_1_alg».proof.Proof.KLinks
import proofs.«413676_j73890617360755_1_alg».proof.Proof.Net
import proofs.«413676_j73890617360755_1_alg».proof.Proof.KNodeEnc
import proofs.«413676_j73890617360755_1_alg».proof.Proof.KEdgeEnc
import proofs.«413676_j73890617360755_1_alg».proof.Proof.KMsg
import proofs.«413676_j73890617360755_1_alg».proof.Proof.KUpd
import proofs.«413676_j73890617360755_1_alg».proof.Proof.TakeEq

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-! ## What a segment leaves alone -/

/-- A host stretch keeps every buffer that none of its operations writes: `hostkeep ops b` is
    `after ops V b = V b`, the side condition decided over the stretch's results. -/
macro "hostkeep" ops:ident b:ident : term => `(StableHlo.after_of_forall_not_mem (b := Proc.devRef .tc $b) $ops _
  (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The same side condition as a proposition: no operation of the stretch writes the buffer. -/
macro "notwritten" ops:ident : term => `(List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable (m : (ℓ : Loc nD τ sig) → Buf (Elt Ideal) ℓ) (ρ : Dev nD → PrngReg)

/-- The launch contents of a buffer. -/
abbrev A (b : Ref sig .tc) (c : Dev nD) : Buf (Elt Ideal) ((c.tc : Thread nD τ).loc b) := m ((c.tc : Thread nD τ).loc b)

/-! A region writes its output array and nothing else: a buffer that is none of its windows is untouched, and an input
    window's array ends as it was entered. One lemma per region, for any buffer other than the region's output. -/

theorem W1k (c : Dev nD) (b : Ref sig .tc) (hb : b ≠ main_v0) :
    W1 m ρ c (Proc.devRef .tc b) = W0 m ρ c (Proc.devRef .tc b) := by
  by_cases h : ∀ w, Pipeline.arrRef spec0 w ≠ b
  · exact W1_of_ne m ρ c b h
  · push Not at h
    obtain ⟨w, rfl⟩ := h
    fin_cases w <;> first
      | exact absurd rfl hb
      | exact (W1_arr m ρ c _).trans (((dat0 (V0 m ρ) c).arrAt_in _ rfl _).trans (A_eq0 (V0 m ρ) c _))

theorem W2k (c : Dev nD) (b : Ref sig .tc) (hb : b ≠ main_v1) :
    W2 m ρ c (Proc.devRef .tc b) = W1 m ρ c (Proc.devRef .tc b) := by
  by_cases h : ∀ w, Pipeline.arrRef spec1 w ≠ b
  · exact W2_of_ne m ρ c b h
  · push Not at h
    obtain ⟨w, rfl⟩ := h
    fin_cases w <;> first
      | exact absurd rfl hb
      | exact (W2_arr m ρ c _).trans (((dat1 (V1 m ρ) c).arrAt_in _ rfl _).trans (A_eq1 (V1 m ρ) c _))

theorem W5k (c : Dev nD) (b : Ref sig .tc) (hb : b ≠ main_v7) :
    W5 m ρ c (Proc.devRef .tc b) = W4 m ρ c (Proc.devRef .tc b) := by
  by_cases h : ∀ w, Pipeline.arrRef spec2 w ≠ b
  · exact W5_of_ne m ρ c b h
  · push Not at h
    obtain ⟨w, rfl⟩ := h
    fin_cases w <;> first
      | exact absurd rfl hb
      | exact (W5_arr m ρ c _).trans (((dat2 (V4 m ρ) c).arrAt_in _ rfl _).trans (A_eq2 (V4 m ρ) c _))

theorem W7k (c : Dev nD) (b : Ref sig .tc) (hb : b ≠ main_v19) :
    W7 m ρ c (Proc.devRef .tc b) = W6 m ρ c (Proc.devRef .tc b) := by
  by_cases h : ∀ w, Pipeline.arrRef spec3 w ≠ b
  · exact W7_of_ne m ρ c b h
  · push Not at h
    obtain ⟨w, rfl⟩ := h
    fin_cases w <;> first
      | exact absurd rfl hb
      | exact (W7_arr m ρ c _).trans (((dat3 (V6 m ρ) c).arrAt_in _ rfl _).trans (A_eq3 (V6 m ρ) c _))

theorem W9k (c : Dev nD) (b : Ref sig .tc) (hb : b ≠ main_v21) :
    W9 m ρ c (Proc.devRef .tc b) = W8 m ρ c (Proc.devRef .tc b) := by
  by_cases h : ∀ w, Pipeline.arrRef spec4 w ≠ b
  · exact W9_of_ne m ρ c b h
  · push Not at h
    obtain ⟨w, rfl⟩ := h
    fin_cases w <;> first
      | exact absurd rfl hb
      | exact (W9_arr m ρ c _).trans (((dat4 (V8 m ρ) c).arrAt_in _ rfl _).trans (A_eq4 (V8 m ρ) c _))

theorem W11k (c : Dev nD) (b : Ref sig .tc) (hb : b ≠ main_v33) :
    W11 m ρ c (Proc.devRef .tc b) = W10 m ρ c (Proc.devRef .tc b) := by
  by_cases h : ∀ w, Pipeline.arrRef spec5 w ≠ b
  · exact W11_of_ne m ρ c b h
  · push Not at h
    obtain ⟨w, rfl⟩ := h
    fin_cases w <;> first
      | exact absurd rfl hb
      | exact (W11_arr m ρ c _).trans (((dat5 (V10 m ρ) c).arrAt_in _ rfl _).trans (A_eq5 (V10 m ρ) c _))

theorem W13k (c : Dev nD) (b : Ref sig .tc) (hb : b ≠ main_v35) :
    W13 m ρ c (Proc.devRef .tc b) = W12 m ρ c (Proc.devRef .tc b) := by
  by_cases h : ∀ w, Pipeline.arrRef spec6 w ≠ b
  · exact W13_of_ne m ρ c b h
  · push Not at h
    obtain ⟨w, rfl⟩ := h
    fin_cases w <;> first
      | exact absurd rfl hb
      | exact (W13_arr m ρ c _).trans (((dat6 (V12 m ρ) c).arrAt_in _ rfl _).trans (A_eq6 (V12 m ρ) c _))

theorem W15k (c : Dev nD) (b : Ref sig .tc) (hb : b ≠ main_v47) :
    W15 m ρ c (Proc.devRef .tc b) = W14 m ρ c (Proc.devRef .tc b) := by
  by_cases h : ∀ w, Pipeline.arrRef spec7 w ≠ b
  · exact W15_of_ne m ρ c b h
  · push Not at h
    obtain ⟨w, rfl⟩ := h
    fin_cases w <;> first
      | exact absurd rfl hb
      | exact (W15_arr m ρ c _).trans (((dat7 (V14 m ρ) c).arrAt_in _ rfl _).trans (A_eq7 (V14 m ρ) c _))

/-! ## The walk through @main -/

/-- The encoded node features, the edge features, the two rows of the edge list, and the node features after each
    layer, of the launch arrays on core `c`. -/
abbrev kH0 (c : Dev nD) := netH0 (A m main_arg0 c) (A m main_arg2 c) (A m main_arg3 c)
abbrev kE (c : Dev nD) := netE (A m main_arg1 c) (A m main_arg4 c) (A m main_arg5 c) (A m main_arg6 c) (A m main_arg7 c)
abbrev kS (c : Dev nD) := srcK (A m main_arg20 c)
abbrev kD (c : Dev nD) := dstK (A m main_arg20 c)
abbrev kH1 (c : Dev nD) := netH1 (A m main_arg0 c) (A m main_arg1 c) (A m main_arg2 c) (A m main_arg3 c) (A m main_arg4 c) (A m main_arg5 c) (A m main_arg6 c) (A m main_arg7 c) (A m main_arg8 c) (A m main_arg9 c) (A m main_arg10 c) (A m main_arg11 c) (A m main_arg20 c)
abbrev kH2 (c : Dev nD) := netH2 (A m main_arg0 c) (A m main_arg1 c) (A m main_arg2 c) (A m main_arg3 c) (A m main_arg4 c) (A m main_arg5 c) (A m main_arg6 c) (A m main_arg7 c) (A m main_arg8 c) (A m main_arg9 c) (A m main_arg10 c) (A m main_arg11 c) (A m main_arg20 c)
abbrev kH3 (c : Dev nD) := netH3 (A m main_arg0 c) (A m main_arg1 c) (A m main_arg2 c) (A m main_arg3 c) (A m main_arg4 c) (A m main_arg5 c) (A m main_arg6 c) (A m main_arg7 c) (A m main_arg8 c) (A m main_arg9 c) (A m main_arg10 c) (A m main_arg11 c) (A m main_arg20 c)

/-- What is assumed of the edge list: every source index in [-100000, 100000). -/
abbrev SrcOk (c : Dev nD) : Prop := ∀ e : S640000.Idx, (-100000 : Int) ≤ (kS m c e).toInt ∧ (kS m c e).toInt < 100000

theorem W1_v0 (c : Dev nD) : W1 m ρ c (Proc.devRef .tc main_v0) = kH0 m c :=
  (W1_arr m ρ c 3).trans (region0_value (V0 m ρ) c)

/-- A buffer no segment up to region 1 writes holds its launch contents. -/
theorem W2_arg (c : Dev nD) (b : Ref sig .tc) (h1 : b ≠ main_v1) (h0 : b ≠ main_v0) : W2 m ρ c (Proc.devRef .tc b) = A m b c :=
  (W2k m ρ c b h1).trans (W1k m ρ c b h0)

theorem W2_v1 (c : Dev nD) : W2 m ρ c (Proc.devRef .tc main_v1) = kE m c := by
  refine (W2_arr m ρ c 5).trans ((region1_value (V1 m ρ) c).trans ?_)
  show netE (V1 m ρ c main_arg1) (V1 m ρ c main_arg4) (V1 m ρ c main_arg5) (V1 m ρ c main_arg6) (V1 m ρ c main_arg7) = _
  rw [show V1 m ρ c main_arg1 = A m main_arg1 c from W1k m ρ c main_arg1 (by decide),
    show V1 m ρ c main_arg4 = A m main_arg4 c from W1k m ρ c main_arg4 (by decide),
    show V1 m ρ c main_arg5 = A m main_arg5 c from W1k m ρ c main_arg5 (by decide),
    show V1 m ρ c main_arg6 = A m main_arg6 c from W1k m ρ c main_arg6 (by decide),
    show V1 m ρ c main_arg7 = A m main_arg7 c from W1k m ρ c main_arg7 (by decide)]

theorem W2_v0 (c : Dev nD) : W2 m ρ c (Proc.devRef .tc main_v0) = kH0 m c :=
  (W2k m ρ c main_v0 (by decide)).trans (W1_v0 m ρ c)

/-! ### Layer 0 -/

theorem W3_v3 (c : Dev nD) : W3 m ρ c (Proc.devRef .tc main_v3) = kS m c := by
  refine (src_link (W2 m ρ c)).trans ?_
  rw [W2_arg m ρ c main_arg20 (by decide) (by decide)]
theorem W3_v5 (c : Dev nD) : W3 m ρ c (Proc.devRef .tc main_v5) = kD m c := by
  refine (dst_link (W2 m ρ c)).trans ?_
  rw [W2_arg m ρ c main_arg20 (by decide) (by decide)]
theorem W3_v0 (c : Dev nD) : W3 m ρ c (Proc.devRef .tc main_v0) = kH0 m c :=
  (hostkeep hostOps2 main_v0).trans (W2_v0 m ρ c)
theorem W3_v1 (c : Dev nD) : W3 m ρ c (Proc.devRef .tc main_v1) = kE m c :=
  (hostkeep hostOps2 main_v1).trans (W2_v1 m ρ c)

theorem W4_v6 (c : Dev nD) (hs : SrcOk m c) : W4 m ρ c (Proc.devRef .tc main_v6) = gatherK (kH0 m c) (kS m c) := by
  refine (take0_link (W3 m ρ c)).trans ?_
  rw [W3_v0 m ρ c, W3_v3 m ρ c]
  exact takeK_eq_gatherK _ _ hs
theorem W4_v1 (c : Dev nD) : W4 m ρ c (Proc.devRef .tc main_v1) = kE m c :=
  (hostkeep hostOps2_1 main_v1).trans (W3_v1 m ρ c)
theorem W4_v0 (c : Dev nD) : W4 m ρ c (Proc.devRef .tc main_v0) = kH0 m c :=
  (hostkeep hostOps2_1 main_v0).trans (W3_v0 m ρ c)
theorem W4_v3 (c : Dev nD) : W4 m ρ c (Proc.devRef .tc main_v3) = kS m c :=
  (hostkeep hostOps2_1 main_v3).trans (W3_v3 m ρ c)
theorem W4_v5 (c : Dev nD) : W4 m ρ c (Proc.devRef .tc main_v5) = kD m c :=
  (hostkeep hostOps2_1 main_v5).trans (W3_v5 m ρ c)

theorem W5_v7 (c : Dev nD) (hs : SrcOk m c) : W5 m ρ c (Proc.devRef .tc main_v7) = netMsg (gatherK (kH0 m c) (kS m c)) (kE m c) := by
  refine (W5_arr m ρ c 2).trans ((region2_value (V4 m ρ) c).trans ?_)
  show netMsg (V4 m ρ c main_v6) (V4 m ρ c main_v1) = _
  rw [show V4 m ρ c main_v6 = _ from W4_v6 m ρ c hs, show V4 m ρ c main_v1 = _ from W4_v1 m ρ c]

theorem W6_v10 (c : Dev nD) (hs : SrcOk m c) :
    W6 m ρ c (Proc.devRef .tc main_v10) = aggK (kD m c) (netMsg (gatherK (kH0 m c) (kS m c)) (kE m c)) := by
  refine (agg0_link (W5 m ρ c)).trans ?_
  rw [(W5k m ρ c main_v5 (by decide)).trans (W4_v5 m ρ c), W5_v7 m ρ c hs]

/-- A launch array that nothing up to region 2 writes still holds its launch contents when the stretch after it reads it. -/
theorem W5_arg (c : Dev nD) (b : Ref sig .tc) (h5 : b ≠ main_v7) (h4 : ∀ op ∈ (hostOps2_1 : List (HloOp τ sig (Elt Ideal))), Proc.devRef .tc b ∉ op.writes)
    (h3 : ∀ op ∈ (hostOps2 : List (HloOp τ sig (Elt Ideal))), Proc.devRef .tc b ∉ op.writes) (h1 : b ≠ main_v1) (h0 : b ≠ main_v0) :
    W5 m ρ c (Proc.devRef .tc b) = A m b c :=
  (W5k m ρ c b h5).trans <| (StableHlo.after_of_forall_not_mem hostOps2_1 _ h4).trans <|
    (StableHlo.after_of_forall_not_mem hostOps2 _ h3).trans <| W2_arg m ρ c b h1 h0
/-- A launch array no segment ever writes: not a region's output, not a host operation's result. -/
structure NeverWritten (b : Ref sig .tc) : Prop where
  r0 : b ≠ main_v0
  r1 : b ≠ main_v1
  r2 : b ≠ main_v7
  r3 : b ≠ main_v19
  r4 : b ≠ main_v21
  r5 : b ≠ main_v33
  r6 : b ≠ main_v35
  r7 : b ≠ main_v47
  h2 : ∀ op ∈ (hostOps2 : List (HloOp τ sig (Elt Ideal))), Proc.devRef .tc b ∉ op.writes
  h2_1 : ∀ op ∈ (hostOps2_1 : List (HloOp τ sig (Elt Ideal))), Proc.devRef .tc b ∉ op.writes
  h3 : ∀ op ∈ (hostOps3 : List (HloOp τ sig (Elt Ideal))), Proc.devRef .tc b ∉ op.writes
  h4 : ∀ op ∈ (hostOps4 : List (HloOp τ sig (Elt Ideal))), Proc.devRef .tc b ∉ op.writes
  h5 : ∀ op ∈ (hostOps5 : List (HloOp τ sig (Elt Ideal))), Proc.devRef .tc b ∉ op.writes
  h6 : ∀ op ∈ (hostOps6 : List (HloOp τ sig (Elt Ideal))), Proc.devRef .tc b ∉ op.writes
  h7 : ∀ op ∈ (hostOps7 : List (HloOp τ sig (Elt Ideal))), Proc.devRef .tc b ∉ op.writes

macro "never_written" : term => `(⟨by decide, by decide, by decide, by decide, by decide, by decide, by decide, by decide,
  notwritten hostOps2, notwritten hostOps2_1, notwritten hostOps3, notwritten hostOps4, notwritten hostOps5,
  notwritten hostOps6, notwritten hostOps7⟩)

theorem nw8 : NeverWritten main_arg8 := never_written
theorem nw9 : NeverWritten main_arg9 := never_written
theorem nw10 : NeverWritten main_arg10 := never_written
theorem nw11 : NeverWritten main_arg11 := never_written
theorem nw12 : NeverWritten main_arg12 := never_written
theorem nw13 : NeverWritten main_arg13 := never_written
theorem nw14 : NeverWritten main_arg14 := never_written
theorem nw15 : NeverWritten main_arg15 := never_written
theorem nw16 : NeverWritten main_arg16 := never_written
theorem nw17 : NeverWritten main_arg17 := never_written
theorem nw18 : NeverWritten main_arg18 := never_written
theorem nw19 : NeverWritten main_arg19 := never_written
theorem nw21 : NeverWritten main_arg21 := never_written

section Untouched
variable {b : Ref sig .tc} (h : NeverWritten b)
include h
theorem W5_nw (c : Dev nD) : W5 m ρ c (Proc.devRef .tc b) = A m b c :=
  (W5k m ρ c b h.r2).trans <| (StableHlo.after_of_forall_not_mem hostOps2_1 _ h.h2_1).trans <|
    (StableHlo.after_of_forall_not_mem hostOps2 _ h.h2).trans <| W2_arg m ρ c b h.r1 h.r0
theorem W9_nw (c : Dev nD) : W9 m ρ c (Proc.devRef .tc b) = A m b c :=
  (W9k m ρ c b h.r4).trans <| (StableHlo.after_of_forall_not_mem hostOps4 _ h.h4).trans <| (W7k m ρ c b h.r3).trans <|
    (StableHlo.after_of_forall_not_mem hostOps3 _ h.h3).trans <| W5_nw m ρ h c
theorem W13_nw (c : Dev nD) : W13 m ρ c (Proc.devRef .tc b) = A m b c :=
  (W13k m ρ c b h.r6).trans <| (StableHlo.after_of_forall_not_mem hostOps6 _ h.h6).trans <| (W11k m ρ c b h.r5).trans <|
    (StableHlo.after_of_forall_not_mem hostOps5 _ h.h5).trans <| W9_nw m ρ h c
theorem W15_nw (c : Dev nD) : W15 m ρ c (Proc.devRef .tc b) = A m b c :=
  (W15k m ρ c b h.r7).trans <| (StableHlo.after_of_forall_not_mem hostOps7 _ h.h7).trans <| W13_nw m ρ h c
end Untouched

/-! ### Layer 0, continued: the weights, and the update -/

theorem W5_v0 (c : Dev nD) : W5 m ρ c (Proc.devRef .tc main_v0) = kH0 m c := (W5k m ρ c main_v0 (by decide)).trans (W4_v0 m ρ c)
theorem W5_v1 (c : Dev nD) : W5 m ρ c (Proc.devRef .tc main_v1) = kE m c := (W5k m ρ c main_v1 (by decide)).trans (W4_v1 m ρ c)
theorem W5_v3 (c : Dev nD) : W5 m ρ c (Proc.devRef .tc main_v3) = kS m c := (W5k m ρ c main_v3 (by decide)).trans (W4_v3 m ρ c)
theorem W5_v5 (c : Dev nD) : W5 m ρ c (Proc.devRef .tc main_v5) = kD m c := (W5k m ρ c main_v5 (by decide)).trans (W4_v5 m ρ c)
theorem W6_v0 (c : Dev nD) : W6 m ρ c (Proc.devRef .tc main_v0) = kH0 m c := (hostkeep hostOps3 main_v0).trans (W5_v0 m ρ c)
theorem W6_v1 (c : Dev nD) : W6 m ρ c (Proc.devRef .tc main_v1) = kE m c := (hostkeep hostOps3 main_v1).trans (W5_v1 m ρ c)
theorem W6_v3 (c : Dev nD) : W6 m ρ c (Proc.devRef .tc main_v3) = kS m c := (hostkeep hostOps3 main_v3).trans (W5_v3 m ρ c)
theorem W6_v5 (c : Dev nD) : W6 m ρ c (Proc.devRef .tc main_v5) = kD m c := (hostkeep hostOps3 main_v5).trans (W5_v5 m ρ c)
theorem W6_v12 (c : Dev nD) : W6 m ρ c (Proc.devRef .tc main_v12) = mat0K (F := Ideal) (A m main_arg8 c) := by
  refine (w1_0_link (W5 m ρ c)).trans ?_; rw [W5_nw m ρ nw8 c]
theorem W6_v14 (c : Dev nD) : W6 m ρ c (Proc.devRef .tc main_v14) = vec0K (F := Ideal) (A m main_arg9 c) := by
  refine (b1_0_link (W5 m ρ c)).trans ?_; rw [W5_nw m ρ nw9 c]
theorem W6_v16 (c : Dev nD) : W6 m ρ c (Proc.devRef .tc main_v16) = mat0K (F := Ideal) (A m main_arg10 c) := by
  refine (w2_0_link (W5 m ρ c)).trans ?_; rw [W5_nw m ρ nw10 c]
theorem W6_v18 (c : Dev nD) : W6 m ρ c (Proc.devRef .tc main_v18) = vec0K (F := Ideal) (A m main_arg11 c) := by
  refine (b2_0_link (W5 m ρ c)).trans ?_; rw [W5_nw m ρ nw11 c]

/-- Layer 0's update: the region's value at its entry contents, each operand at what the walk has shown it holds there:
    the encoded node features, the summed messages, and the layer's two weight matrices and two bias rows. -/
theorem W7_v19 (c : Dev nD) (hs : SrcOk m c) : W7 m ρ c (Proc.devRef .tc main_v19) = kH1 m c := by
  refine (W7_arr m ρ c 6).trans ((region3_value (V6 m ρ) c).trans ?_)
  show netUpd (V6 m ρ c main_v0) (V6 m ρ c main_v10) (V6 m ρ c main_v12) (V6 m ρ c main_v14) (V6 m ρ c main_v16) (V6 m ρ c main_v18) = _
  rw [show V6 m ρ c main_v0 = _ from W6_v0 m ρ c, show V6 m ρ c main_v10 = _ from W6_v10 m ρ c hs,
    show V6 m ρ c main_v12 = _ from W6_v12 m ρ c, show V6 m ρ c main_v14 = _ from W6_v14 m ρ c,
    show V6 m ρ c main_v16 = _ from W6_v16 m ρ c, show V6 m ρ c main_v18 = _ from W6_v18 m ρ c]
  rfl

/-! ### Layer 1 -/

theorem W7_v1 (c : Dev nD) : W7 m ρ c (Proc.devRef .tc main_v1) = kE m c := (W7k m ρ c main_v1 (by decide)).trans (W6_v1 m ρ c)
theorem W7_v3 (c : Dev nD) : W7 m ρ c (Proc.devRef .tc main_v3) = kS m c := (W7k m ρ c main_v3 (by decide)).trans (W6_v3 m ρ c)
theorem W7_v5 (c : Dev nD) : W7 m ρ c (Proc.devRef .tc main_v5) = kD m c := (W7k m ρ c main_v5 (by decide)).trans (W6_v5 m ρ c)
theorem W8_v20 (c : Dev nD) (hs : SrcOk m c) : W8 m ρ c (Proc.devRef .tc main_v20) = gatherK (kH1 m c) (kS m c) := by
  refine (take1_link (W7 m ρ c)).trans ?_
  rw [W7_v19 m ρ c hs, W7_v3 m ρ c]
  exact takeK_eq_gatherK _ _ hs
theorem W8_v1 (c : Dev nD) : W8 m ρ c (Proc.devRef .tc main_v1) = kE m c := (hostkeep hostOps4 main_v1).trans (W7_v1 m ρ c)
theorem W8_v5 (c : Dev nD) : W8 m ρ c (Proc.devRef .tc main_v5) = kD m c := (hostkeep hostOps4 main_v5).trans (W7_v5 m ρ c)
theorem W8_v3 (c : Dev nD) : W8 m ρ c (Proc.devRef .tc main_v3) = kS m c := (hostkeep hostOps4 main_v3).trans (W7_v3 m ρ c)
theorem W8_v19 (c : Dev nD) (hs : SrcOk m c) : W8 m ρ c (Proc.devRef .tc main_v19) = kH1 m c := (hostkeep hostOps4 main_v19).trans (W7_v19 m ρ c hs)
theorem W9_v21 (c : Dev nD) (hs : SrcOk m c) : W9 m ρ c (Proc.devRef .tc main_v21) = netMsg (gatherK (kH1 m c) (kS m c)) (kE m c) := by
  refine (W9_arr m ρ c 2).trans ((region4_value (V8 m ρ) c).trans ?_)
  show netMsg (V8 m ρ c main_v20) (V8 m ρ c main_v1) = _
  rw [show V8 m ρ c main_v20 = _ from W8_v20 m ρ c hs, show V8 m ρ c main_v1 = _ from W8_v1 m ρ c]
theorem W9_v1 (c : Dev nD) : W9 m ρ c (Proc.devRef .tc main_v1) = kE m c := (W9k m ρ c main_v1 (by decide)).trans (W8_v1 m ρ c)
theorem W9_v3 (c : Dev nD) : W9 m ρ c (Proc.devRef .tc main_v3) = kS m c := (W9k m ρ c main_v3 (by decide)).trans (W8_v3 m ρ c)
theorem W9_v5 (c : Dev nD) : W9 m ρ c (Proc.devRef .tc main_v5) = kD m c := (W9k m ρ c main_v5 (by decide)).trans (W8_v5 m ρ c)
theorem W9_v19 (c : Dev nD) (hs : SrcOk m c) : W9 m ρ c (Proc.devRef .tc main_v19) = kH1 m c := (W9k m ρ c main_v19 (by decide)).trans (W8_v19 m ρ c hs)
theorem W10_v24 (c : Dev nD) (hs : SrcOk m c) :
    W10 m ρ c (Proc.devRef .tc main_v24) = aggK (kD m c) (netMsg (gatherK (kH1 m c) (kS m c)) (kE m c)) := by
  refine (agg1_link (W9 m ρ c)).trans ?_
  rw [W9_v5 m ρ c, W9_v21 m ρ c hs]
theorem W10_v19 (c : Dev nD) (hs : SrcOk m c) : W10 m ρ c (Proc.devRef .tc main_v19) = kH1 m c := (hostkeep hostOps5 main_v19).trans (W9_v19 m ρ c hs)
theorem W10_v1 (c : Dev nD) : W10 m ρ c (Proc.devRef .tc main_v1) = kE m c := (hostkeep hostOps5 main_v1).trans (W9_v1 m ρ c)
theorem W10_v3 (c : Dev nD) : W10 m ρ c (Proc.devRef .tc main_v3) = kS m c := (hostkeep hostOps5 main_v3).trans (W9_v3 m ρ c)
theorem W10_v5 (c : Dev nD) : W10 m ρ c (Proc.devRef .tc main_v5) = kD m c := (hostkeep hostOps5 main_v5).trans (W9_v5 m ρ c)
theorem W10_v26 (c : Dev nD) : W10 m ρ c (Proc.devRef .tc main_v26) = mat1K (F := Ideal) (A m main_arg8 c) := by
  refine (w1_1_link (W9 m ρ c)).trans ?_; rw [W9_nw m ρ nw8 c]
theorem W10_v28 (c : Dev nD) : W10 m ρ c (Proc.devRef .tc main_v28) = vec1K (F := Ideal) (A m main_arg9 c) := by
  refine (b1_1_link (W9 m ρ c)).trans ?_; rw [W9_nw m ρ nw9 c]
theorem W10_v30 (c : Dev nD) : W10 m ρ c (Proc.devRef .tc main_v30) = mat1K (F := Ideal) (A m main_arg10 c) := by
  refine (w2_1_link (W9 m ρ c)).trans ?_; rw [W9_nw m ρ nw10 c]
theorem W10_v32 (c : Dev nD) : W10 m ρ c (Proc.devRef .tc main_v32) = vec1K (F := Ideal) (A m main_arg11 c) := by
  refine (b2_1_link (W9 m ρ c)).trans ?_; rw [W9_nw m ρ nw11 c]

/-- Layer 1's update, from the node features layer 0 left. -/
theorem W11_v33 (c : Dev nD) (hs : SrcOk m c) : W11 m ρ c (Proc.devRef .tc main_v33) = kH2 m c := by
  refine (W11_arr m ρ c 6).trans ((region5_value (V10 m ρ) c).trans ?_)
  show netUpd (V10 m ρ c main_v19) (V10 m ρ c main_v24) (V10 m ρ c main_v26) (V10 m ρ c main_v28) (V10 m ρ c main_v30) (V10 m ρ c main_v32) = _
  rw [show V10 m ρ c main_v19 = _ from W10_v19 m ρ c hs, show V10 m ρ c main_v24 = _ from W10_v24 m ρ c hs,
    show V10 m ρ c main_v26 = _ from W10_v26 m ρ c, show V10 m ρ c main_v28 = _ from W10_v28 m ρ c,
    show V10 m ρ c main_v30 = _ from W10_v30 m ρ c, show V10 m ρ c main_v32 = _ from W10_v32 m ρ c]
  rfl

/-! ### Layer 2 -/

theorem W11_v1 (c : Dev nD) : W11 m ρ c (Proc.devRef .tc main_v1) = kE m c := (W11k m ρ c main_v1 (by decide)).trans (W10_v1 m ρ c)
theorem W11_v3 (c : Dev nD) : W11 m ρ c (Proc.devRef .tc main_v3) = kS m c := (W11k m ρ c main_v3 (by decide)).trans (W10_v3 m ρ c)
theorem W11_v5 (c : Dev nD) : W11 m ρ c (Proc.devRef .tc main_v5) = kD m c := (W11k m ρ c main_v5 (by decide)).trans (W10_v5 m ρ c)
theorem W12_v34 (c : Dev nD) (hs : SrcOk m c) : W12 m ρ c (Proc.devRef .tc main_v34) = gatherK (kH2 m c) (kS m c) := by
  refine (take2_link (W11 m ρ c)).trans ?_
  rw [W11_v33 m ρ c hs, W11_v3 m ρ c]
  exact takeK_eq_gatherK _ _ hs
theorem W12_v1 (c : Dev nD) : W12 m ρ c (Proc.devRef .tc main_v1) = kE m c := (hostkeep hostOps6 main_v1).trans (W11_v1 m ρ c)
theorem W12_v5 (c : Dev nD) : W12 m ρ c (Proc.devRef .tc main_v5) = kD m c := (hostkeep hostOps6 main_v5).trans (W11_v5 m ρ c)
theorem W12_v33 (c : Dev nD) (hs : SrcOk m c) : W12 m ρ c (Proc.devRef .tc main_v33) = kH2 m c := (hostkeep hostOps6 main_v33).trans (W11_v33 m ρ c hs)
theorem W13_v35 (c : Dev nD) (hs : SrcOk m c) : W13 m ρ c (Proc.devRef .tc main_v35) = netMsg (gatherK (kH2 m c) (kS m c)) (kE m c) := by
  refine (W13_arr m ρ c 2).trans ((region6_value (V12 m ρ) c).trans ?_)
  show netMsg (V12 m ρ c main_v34) (V12 m ρ c main_v1) = _
  rw [show V12 m ρ c main_v34 = _ from W12_v34 m ρ c hs, show V12 m ρ c main_v1 = _ from W12_v1 m ρ c]
theorem W13_v5 (c : Dev nD) : W13 m ρ c (Proc.devRef .tc main_v5) = kD m c := (W13k m ρ c main_v5 (by decide)).trans (W12_v5 m ρ c)
theorem W13_v33 (c : Dev nD) (hs : SrcOk m c) : W13 m ρ c (Proc.devRef .tc main_v33) = kH2 m c := (W13k m ρ c main_v33 (by decide)).trans (W12_v33 m ρ c hs)
theorem W14_v38 (c : Dev nD) (hs : SrcOk m c) :
    W14 m ρ c (Proc.devRef .tc main_v38) = aggK (kD m c) (netMsg (gatherK (kH2 m c) (kS m c)) (kE m c)) := by
  refine (agg2_link (W13 m ρ c)).trans ?_
  rw [W13_v5 m ρ c, W13_v35 m ρ c hs]
theorem W14_v33 (c : Dev nD) (hs : SrcOk m c) : W14 m ρ c (Proc.devRef .tc main_v33) = kH2 m c := (hostkeep hostOps7 main_v33).trans (W13_v33 m ρ c hs)
theorem W14_v40 (c : Dev nD) : W14 m ρ c (Proc.devRef .tc main_v40) = mat2K (F := Ideal) (A m main_arg8 c) := by
  refine (w1_2_link (W13 m ρ c)).trans ?_; rw [W13_nw m ρ nw8 c]
theorem W14_v42 (c : Dev nD) : W14 m ρ c (Proc.devRef .tc main_v42) = vec2K (F := Ideal) (A m main_arg9 c) := by
  refine (b1_2_link (W13 m ρ c)).trans ?_; rw [W13_nw m ρ nw9 c]
theorem W14_v44 (c : Dev nD) : W14 m ρ c (Proc.devRef .tc main_v44) = mat2K (F := Ideal) (A m main_arg10 c) := by
  refine (w2_2_link (W13 m ρ c)).trans ?_; rw [W13_nw m ρ nw10 c]
theorem W14_v46 (c : Dev nD) : W14 m ρ c (Proc.devRef .tc main_v46) = vec2K (F := Ideal) (A m main_arg11 c) := by
  refine (b2_2_link (W13 m ρ c)).trans ?_; rw [W13_nw m ρ nw11 c]

/-- Layer 2's update, from the node features layer 1 left. -/
theorem W15_v47 (c : Dev nD) (hs : SrcOk m c) : W15 m ρ c (Proc.devRef .tc main_v47) = kH3 m c := by
  refine (W15_arr m ρ c 6).trans ((region7_value (V14 m ρ) c).trans ?_)
  show netUpd (V14 m ρ c main_v33) (V14 m ρ c main_v38) (V14 m ρ c main_v40) (V14 m ρ c main_v42) (V14 m ρ c main_v44) (V14 m ρ c main_v46) = _
  rw [show V14 m ρ c main_v33 = _ from W14_v33 m ρ c hs, show V14 m ρ c main_v38 = _ from W14_v38 m ρ c hs,
    show V14 m ρ c main_v40 = _ from W14_v40 m ρ c, show V14 m ρ c main_v42 = _ from W14_v42 m ρ c,
    show V14 m ρ c main_v44 = _ from W14_v44 m ρ c, show V14 m ρ c main_v46 = _ from W14_v46 m ρ c]
  rfl

/-! ### The two results -/

/-- The first result is the network's first readout of the launch arrays. -/
theorem W20_v69 (c : Dev nD) (hs : SrcOk m c) :
    W20 m ρ c (Proc.devRef .tc main_v69) = netOut (A m main_arg0 c) (A m main_arg1 c) (A m main_arg2 c) (A m main_arg3 c) (A m main_arg4 c) (A m main_arg5 c) (A m main_arg6 c) (A m main_arg7 c) (A m main_arg8 c) (A m main_arg9 c) (A m main_arg10 c) (A m main_arg11 c) (A m main_arg20 c) (A m main_arg21 c) (A m main_arg12 c) (A m main_arg13 c) (A m main_arg14 c) (A m main_arg15 c) := by
  refine (out1_link (W15 m ρ c)).trans ?_
  rw [W15_v47 m ρ c hs, W15_nw m ρ nw21 c, W15_nw m ρ nw12 c, W15_nw m ρ nw13 c, W15_nw m ρ nw14 c, W15_nw m ρ nw15 c]
  rfl

/-- The second result is the network's second readout of the launch arrays. -/
theorem W20_v79 (c : Dev nD) (hs : SrcOk m c) :
    W20 m ρ c (Proc.devRef .tc main_v79) = netOut (A m main_arg0 c) (A m main_arg1 c) (A m main_arg2 c) (A m main_arg3 c) (A m main_arg4 c) (A m main_arg5 c) (A m main_arg6 c) (A m main_arg7 c) (A m main_arg8 c) (A m main_arg9 c) (A m main_arg10 c) (A m main_arg11 c) (A m main_arg20 c) (A m main_arg21 c) (A m main_arg16 c) (A m main_arg17 c) (A m main_arg18 c) (A m main_arg19 c) := by
  refine (out2_link (W15 m ρ c)).trans ?_
  rw [W15_v47 m ρ c hs, W15_nw m ρ nw21 c, W15_nw m ρ nw16 c, W15_nw m ρ nw17 c, W15_nw m ρ nw18 c, W15_nw m ρ nw19 c]
  rfl

end Cert.KernelIdeal.Val

end
-- ==== Proof.PreDecode.lean ====
/-
  What the precondition says about the edge list: every entry of its source row lies in [-100000, 100000).
  The precondition is a conjunction of twenty finiteness tests and this range test; only the last conjunct is read here.
-/
import proofs.«413676_j73890617360755_1_alg».proof.Defs
import proofs.«413676_j73890617360755_1_alg».proof.Proof.HostDefs
import proofs.«413676_j73890617360755_1_alg».proof.Proof.Gen.Pre_finite_inputs
import Idealize.ShloMosaic.PureOps.Ideal
import Idealize.ShloMosaic.Lib.ValueIdx
import Idealize.ShloMosaic.Lib.StableHlo.Predicate
import Idealize.ShloMosaic.Lib.ReduceAll

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx

/-- The tail of the precondition, read back. Its last part is the bit
      v98 ∧ all_e (v102 e ∧ src e < 100000),
    where `src` is row 0 of the edge list laid out flat. If that bit is 1, the conjunction's right side is 1;
    a conjunction over all lanes that is 1 is 1 at every lane; and the lane's bit splits into its two tests. -/
theorem tail_decode (a20 : IVec S2x640000 32) (v98 : IVec S_ 1) (v102 : IVec S640000 1) (j : S_.Idx)
    (h : Cert.Pre_finite_inputs.fn_part6 (F := Ideal) a20 v98 v102 j = 1#1) (e : S640000.Idx) :
    v102 e = 1#1 ∧ IntOp.cmpi .slt (srcK a20 e) 100000#32 = 1#1 := by
  unfold Cert.Pre_finite_inputs.fn_part6 at h
  dsimp only at h
  have hall := (IntOp.andi_eq_one.1 h).2
  -- an array of rank 0 has exactly one index
  haveI : Subsingleton S_.Idx := ⟨fun a b => funext fun d => d.elim0⟩
  exact IntOp.andi_eq_one.1 (Host.reduce_andi_all _ _ _ _ j hall e)

/-- Under the precondition every source index lies in [-100000, 100000). -/
theorem src_range (m : (ℓ : Loc nD τ sig) → Buf (Elt Ideal) ℓ) (hpre : Cert.Pre_KernelIdeal m) (c : Dev nD) (e : S640000.Idx) :
    (-100000 : Int) ≤ (srcK (m ((c.tc : Thread nD τ).loc main_arg20)) e).toInt
      ∧ (srcK (m ((c.tc : Thread nD τ).loc main_arg20)) e).toInt < 100000 := by
  -- the precondition on device c, at the one index of its rank-0 result
  have h := congrFun (hpre c) ValueIdx.ix0
  -- the predicate is a chain of six parts, each ending in the next: unfold down to the last part, whose second
  -- argument (the conjunction of the twenty finiteness tests) is never opened
  unfold Cert.Pre_finite_inputs.fn at h
  unfold Cert.Pre_finite_inputs.fn_part1 at h
  unfold Cert.Pre_finite_inputs.fn_part2 at h
  unfold Cert.Pre_finite_inputs.fn_part3 at h
  unfold Cert.Pre_finite_inputs.fn_part4 at h
  unfold Cert.Pre_finite_inputs.fn_part5 at h
  dsimp only at h
  obtain ⟨hge, hlt⟩ := tail_decode _ _ _ _ h e
  -- lane e of the first test: -100000 ≤ src e, signed (the word 4294867296 reads -100000)
  have hge' : IntOp.cmpi .sge (srcK (m ((c.tc : Thread nD τ).loc main_arg20)) e) 4294867296#32 = 1#1 := hge
  rw [IntOp.cmpi_sge] at hge'
  rw [IntOp.cmpi_slt] at hlt
  have e1 : (4294867296#32 : BitVec 32).toInt = -100000 := by decide
  have e2 : (100000#32 : BitVec 32).toInt = 100000 := by decide
  rw [e1] at hge'
  rw [e2] at hlt
  exact ⟨hge', hlt⟩

end Cert.KernelIdeal.Val

end
-- ==== Proof.RefStages.lean ====
/-
  The reference's stages, read entry by entry: its node encoder, its edge encoder, and each layer's messages and
  update are the row-wise functions of the specification, applied to the stage before.
  A matrix product of the reference is the plain sum over the contracted axis; a bias is broadcast along the rows;
  the rectifier is the maximum with a zero array. Nothing else is used.
-/
import proofs.«413676_j73890617360755_1_alg».proof.Proof.Gen.ReferenceIdeal.Read
import proofs.«413676_j73890617360755_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.RefVal

open Cert.ReferenceIdeal Cert.ReferenceIdeal.Read
open Idealize.ShloMosaic Idealize.ShloMosaic.TcCoe Idealize.ShloMosaic.ValueIdx

/-! ## Where a product and a bias read their operands

  At the entry (r, q) of its result, a matrix product reads row r of its left operand and column q of its right operand,
  term k of the sum at (r, k) and (k, q). A bias broadcast along the rows is read at q alone. -/

private theorem lidx_v0 (r : Fin 100000) (q : Fin 128) (k : Fin 7) : lidx_main_v0 (ix2 r q) k = ix2 r k :=
  funext fun a => Fin.ext (by match a with | ⟨0, _⟩ => rfl | ⟨1, _⟩ => rfl)
private theorem ridx_v0 (r : Fin 100000) (q : Fin 128) (k : Fin 7) : ridx_main_v0 (ix2 r q) k = ix2 k q :=
  funext fun a => Fin.ext (by match a with | ⟨0, _⟩ => rfl | ⟨1, _⟩ => rfl)

private theorem bias_v2 (r : Fin 100000) (q : Fin 128) : idx_main_v1 (idx_main_v2 (ix2 r q)) = ix1 q :=
  funext fun a => Fin.ext (by match a with | ⟨0, _⟩ => rfl)

private theorem lidx_v4 (r : Fin 640000) (q : Fin 128) (k : Fin 3) : lidx_main_v4 (ix2 r q) k = ix2 r k :=
  funext fun a => Fin.ext (by match a with | ⟨0, _⟩ => rfl | ⟨1, _⟩ => rfl)
private theorem ridx_v4 (r : Fin 640000) (q : Fin 128) (k : Fin 3) : ridx_main_v4 (ix2 r q) k = ix2 k q :=
  funext fun a => Fin.ext (by match a with | ⟨0, _⟩ => rfl | ⟨1, _⟩ => rfl)

private theorem bias_v6 (r : Fin 640000) (q : Fin 128) : idx_main_v5 (idx_main_v6 (ix2 r q)) = ix1 q :=
  funext fun a => Fin.ext (by match a with | ⟨0, _⟩ => rfl)

private theorem lidx_v9 (r : Fin 640000) (q : Fin 128) (k : Fin 128) : lidx_main_v9 (ix2 r q) k = ix2 r k :=
  funext fun a => Fin.ext (by match a with | ⟨0, _⟩ => rfl | ⟨1, _⟩ => rfl)
private theorem ridx_v9 (r : Fin 640000) (q : Fin 128) (k : Fin 128) : ridx_main_v9 (ix2 r q) k = ix2 k q :=
  funext fun a => Fin.ext (by match a with | ⟨0, _⟩ => rfl | ⟨1, _⟩ => rfl)

private theorem bias_v11 (r : Fin 640000) (q : Fin 128) : idx_main_v10 (idx_main_v11 (ix2 r q)) = ix1 q :=
  funext fun a => Fin.ext (by match a with | ⟨0, _⟩ => rfl)

private theorem lidx_v32 (r : Fin 100000) (q : Fin 128) (k : Fin 128) : lidx_main_v32 (ix2 r q) k = ix2 r k :=
  funext fun a => Fin.ext (by match a with | ⟨0, _⟩ => rfl | ⟨1, _⟩ => rfl)
private theorem ridx_v32 (r : Fin 100000) (q : Fin 128) (k : Fin 128) : ridx_main_v32 (ix2 r q) k = ix2 k q :=
  funext fun a => Fin.ext (by match a with | ⟨0, _⟩ => rfl | ⟨1, _⟩ => rfl)
private theorem bias_v36 (r : Fin 100000) (q : Fin 128) : idx_main_v35 (idx_main_v36 (ix2 r q)) = ix1 q :=
  funext fun a => Fin.ext (by match a with | ⟨0, _⟩ => rfl)
private theorem lidx_v41 (r : Fin 100000) (q : Fin 128) (k : Fin 128) : lidx_main_v41 (ix2 r q) k = ix2 r k :=
  funext fun a => Fin.ext (by match a with | ⟨0, _⟩ => rfl | ⟨1, _⟩ => rfl)
private theorem ridx_v41 (r : Fin 100000) (q : Fin 128) (k : Fin 128) : ridx_main_v41 (ix2 r q) k = ix2 k q :=
  funext fun a => Fin.ext (by match a with | ⟨0, _⟩ => rfl | ⟨1, _⟩ => rfl)
private theorem bias_v45 (r : Fin 100000) (q : Fin 128) : idx_main_v44 (idx_main_v45 (ix2 r q)) = ix1 q :=
  funext fun a => Fin.ext (by match a with | ⟨0, _⟩ => rfl)

private theorem lidx_v63 (r : Fin 100000) (q : Fin 128) (k : Fin 128) : lidx_main_v63 (ix2 r q) k = ix2 r k :=
  funext fun a => Fin.ext (by match a with | ⟨0, _⟩ => rfl | ⟨1, _⟩ => rfl)
private theorem ridx_v63 (r : Fin 100000) (q : Fin 128) (k : Fin 128) : ridx_main_v63 (ix2 r q) k = ix2 k q :=
  funext fun a => Fin.ext (by match a with | ⟨0, _⟩ => rfl | ⟨1, _⟩ => rfl)
private theorem bias_v67 (r : Fin 100000) (q : Fin 128) : idx_main_v66 (idx_main_v67 (ix2 r q)) = ix1 q :=
  funext fun a => Fin.ext (by match a with | ⟨0, _⟩ => rfl)
private theorem lidx_v72 (r : Fin 100000) (q : Fin 128) (k : Fin 128) : lidx_main_v72 (ix2 r q) k = ix2 r k :=
  funext fun a => Fin.ext (by match a with | ⟨0, _⟩ => rfl | ⟨1, _⟩ => rfl)
private theorem ridx_v72 (r : Fin 100000) (q : Fin 128) (k : Fin 128) : ridx_main_v72 (ix2 r q) k = ix2 k q :=
  funext fun a => Fin.ext (by match a with | ⟨0, _⟩ => rfl | ⟨1, _⟩ => rfl)
private theorem bias_v76 (r : Fin 100000) (q : Fin 128) : idx_main_v75 (idx_main_v76 (ix2 r q)) = ix1 q :=
  funext fun a => Fin.ext (by match a with | ⟨0, _⟩ => rfl)

private theorem lidx_v94 (r : Fin 100000) (q : Fin 128) (k : Fin 128) : lidx_main_v94 (ix2 r q) k = ix2 r k :=
  funext fun a => Fin.ext (by match a with | ⟨0, _⟩ => rfl | ⟨1, _⟩ => rfl)
private theorem ridx_v94 (r : Fin 100000) (q : Fin 128) (k : Fin 128) : ridx_main_v94 (ix2 r q) k = ix2 k q :=
  funext fun a => Fin.ext (by match a with | ⟨0, _⟩ => rfl | ⟨1, _⟩ => rfl)
private theorem bias_v98 (r : Fin 100000) (q : Fin 128) : idx_main_v97 (idx_main_v98 (ix2 r q)) = ix1 q :=
  funext fun a => Fin.ext (by match a with | ⟨0, _⟩ => rfl)
private theorem lidx_v103 (r : Fin 100000) (q : Fin 128) (k : Fin 128) : lidx_main_v103 (ix2 r q) k = ix2 r k :=
  funext fun a => Fin.ext (by match a with | ⟨0, _⟩ => rfl | ⟨1, _⟩ => rfl)
private theorem ridx_v103 (r : Fin 100000) (q : Fin 128) (k : Fin 128) : ridx_main_v103 (ix2 r q) k = ix2 k q :=
  funext fun a => Fin.ext (by match a with | ⟨0, _⟩ => rfl | ⟨1, _⟩ => rfl)
private theorem bias_v107 (r : Fin 100000) (q : Fin 128) : idx_main_v106 (idx_main_v107 (ix2 r q)) = ix1 q :=
  funext fun a => Fin.ext (by match a with | ⟨0, _⟩ => rfl)

variable (x0 : (⟨S100000x7, .f32⟩ : BufTy).Contents (Elt Ideal)) (x1 : (⟨S640000x3, .f32⟩ : BufTy).Contents (Elt Ideal))
  (x2 : (⟨S7x128, .f32⟩ : BufTy).Contents (Elt Ideal)) (x3 : (⟨S128, .f32⟩ : BufTy).Contents (Elt Ideal))
  (x4 : (⟨S3x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S3x128x128, .f32⟩ : BufTy).Contents (Elt Ideal)) (x9 : (⟨S3x128, .f32⟩ : BufTy).Contents (Elt Ideal))
  (x10 : (⟨S3x128x128, .f32⟩ : BufTy).Contents (Elt Ideal)) (x11 : (⟨S3x128, .f32⟩ : BufTy).Contents (Elt Ideal))
  (x20 : (⟨S2x640000, .i32⟩ : BufTy).Contents (Elt Ideal))

/-- The reference's node features are the node encoder of the inputs. -/
theorem v3_eq : val_main_v3 (F := Ideal) x0 x2 x3 = fun i => Cert.Spec.nodeEnc (R := 100000) x0 x2 x3 (i 0) (i 1) := by
  funext i
  obtain ⟨r, q, rfl⟩ : ∃ (r : Fin 100000) (q : Fin 128), i = ix2 r q := ⟨i 0, i 1, eq_ix2 i⟩
  simp only [val_main_v3_apply, val_main_v0_apply, val_main_v2_apply, val_main_v1_apply,
    lidx_v0, ridx_v0, bias_v2, Ideal.addf_def]
  rfl

/-- The reference's edge features are the edge encoder of the inputs. -/
theorem v12_eq : val_main_v12 (F := Ideal) x1 x4 x5 x6 x7 = fun i => Cert.Spec.edgeEnc (R := 640000) x1 x4 x5 x6 x7 (i 0) (i 1) := by
  funext i
  obtain ⟨r, q, rfl⟩ : ∃ (r : Fin 640000) (q : Fin 128), i = ix2 r q := ⟨i 0, i 1, eq_ix2 i⟩
  simp only [val_main_v12_apply, val_main_v9_apply, val_main_v8_apply, val_main_v7_apply, val_main_v4_apply,
    val_main_v6_apply, val_main_v5_apply, val_main_v11_apply, val_main_v10_apply,
    val_main_call0_v0_apply, val_main_call0_cst_apply,
    lidx_v9, ridx_v9, lidx_v4, ridx_v4, bias_v6, bias_v11,
    Ideal.addf_def, Ideal.maximumf_def, Ideal.ofBits_def, Ideal.ofBits_zero_f32]
  rfl

/-- Layer 0's messages: the gathered node features plus the edge features, rectified. -/
theorem v25_eq : val_main_v25 (F := Ideal) x0 x1 x2 x3 x4 x5 x6 x7 x20
    = fun i => Cert.Spec.msg (R := 640000) (val_main_v23 (F := Ideal) x0 x2 x3 x20) (val_main_v12 (F := Ideal) x1 x4 x5 x6 x7) (i 0) (i 1) := by
  funext i
  obtain ⟨r, q, rfl⟩ : ∃ (r : Fin 640000) (q : Fin 128), i = ix2 r q := ⟨i 0, i 1, eq_ix2 i⟩
  rw [val_main_v25_apply, val_main_v24_apply, val_main_call1_v0_apply, val_main_call1_cst_apply]
  simp only [Ideal.addf_def, Ideal.maximumf_def, Ideal.ofBits_def, Ideal.ofBits_zero_f32]
  rfl

/-- Layer 0's update of the node features by the summed messages. -/
theorem v47_eq : val_main_v47 (F := Ideal) x0 x1 x2 x3 x4 x5 x6 x7 x8 x9 x10 x11 x20
    = fun i => Cert.Spec.upd (R := 100000) (val_main_v3 (F := Ideal) x0 x2 x3) (val_main_v28 (F := Ideal) x0 x1 x2 x3 x4 x5 x6 x7 x20)
        (val_main_v31 (F := Ideal) x8) (val_main_v34 (F := Ideal) x9) (val_main_v40 (F := Ideal) x10) (val_main_v43 (F := Ideal) x11) (i 0) (i 1) := by
  funext i
  obtain ⟨r, q, rfl⟩ : ∃ (r : Fin 100000) (q : Fin 128), i = ix2 r q := ⟨i 0, i 1, eq_ix2 i⟩
  simp only [val_main_v47_apply, val_main_v46_apply, val_main_v41_apply, val_main_v38_apply, val_main_v37_apply,
    val_main_v32_apply, val_main_v29_apply, val_main_v36_apply, val_main_v35_apply, val_main_v45_apply, val_main_v44_apply,
    val_main_call2_v0_apply, val_main_call2_cst_apply, val_main_call3_v0_apply, val_main_call3_cst_apply,
    lidx_v41, ridx_v41, lidx_v32, ridx_v32, bias_v36, bias_v45,
    Ideal.addf_def, Ideal.maximumf_def, Ideal.ofBits_def, Ideal.ofBits_zero_f32]
  rfl

/-- Layer 1's messages. -/
theorem v56_eq : val_main_v56 (F := Ideal) x0 x1 x2 x3 x4 x5 x6 x7 x8 x9 x10 x11 x20
    = fun i => Cert.Spec.msg (R := 640000) (val_main_v54 (F := Ideal) x0 x1 x2 x3 x4 x5 x6 x7 x8 x9 x10 x11 x20) (val_main_v12 (F := Ideal) x1 x4 x5 x6 x7) (i 0) (i 1) := by
  funext i
  obtain ⟨r, q, rfl⟩ : ∃ (r : Fin 640000) (q : Fin 128), i = ix2 r q := ⟨i 0, i 1, eq_ix2 i⟩
  rw [val_main_v56_apply, val_main_v55_apply, val_main_call4_v0_apply, val_main_call4_cst_apply]
  simp only [Ideal.addf_def, Ideal.maximumf_def, Ideal.ofBits_def, Ideal.ofBits_zero_f32]
  rfl

/-- Layer 1's update. -/
theorem v78_eq : val_main_v78 (F := Ideal) x0 x1 x2 x3 x4 x5 x6 x7 x8 x9 x10 x11 x20
    = fun i => Cert.Spec.upd (R := 100000) (val_main_v47 (F := Ideal) x0 x1 x2 x3 x4 x5 x6 x7 x8 x9 x10 x11 x20) (val_main_v59 (F := Ideal) x0 x1 x2 x3 x4 x5 x6 x7 x8 x9 x10 x11 x20)
        (val_main_v62 (F := Ideal) x8) (val_main_v65 (F := Ideal) x9) (val_main_v71 (F := Ideal) x10) (val_main_v74 (F := Ideal) x11) (i 0) (i 1) := by
  funext i
  obtain ⟨r, q, rfl⟩ : ∃ (r : Fin 100000) (q : Fin 128), i = ix2 r q := ⟨i 0, i 1, eq_ix2 i⟩
  simp only [val_main_v78_apply, val_main_v77_apply, val_main_v72_apply, val_main_v69_apply, val_main_v68_apply,
    val_main_v63_apply, val_main_v60_apply, val_main_v67_apply, val_main_v66_apply, val_main_v76_apply, val_main_v75_apply,
    val_main_call5_v0_apply, val_main_call5_cst_apply, val_main_call6_v0_apply, val_main_call6_cst_apply,
    lidx_v72, ridx_v72, lidx_v63, ridx_v63, bias_v67, bias_v76,
    Ideal.addf_def, Ideal.maximumf_def, Ideal.ofBits_def, Ideal.ofBits_zero_f32]
  rfl

/-- Layer 2's messages. -/
theorem v87_eq : val_main_v87 (F := Ideal) x0 x1 x2 x3 x4 x5 x6 x7 x8 x9 x10 x11 x20
    = fun i => Cert.Spec.msg (R := 640000) (val_main_v85 (F := Ideal) x0 x1 x2 x3 x4 x5 x6 x7 x8 x9 x10 x11 x20) (val_main_v12 (F := Ideal) x1 x4 x5 x6 x7) (i 0) (i 1) := by
  funext i
  obtain ⟨r, q, rfl⟩ : ∃ (r : Fin 640000) (q : Fin 128), i = ix2 r q := ⟨i 0, i 1, eq_ix2 i⟩
  rw [val_main_v87_apply, val_main_v86_apply, val_main_call7_v0_apply, val_main_call7_cst_apply]
  simp only [Ideal.addf_def, Ideal.maximumf_def, Ideal.ofBits_def, Ideal.ofBits_zero_f32]
  rfl

/-- Layer 2's update. -/
theorem v109_eq : val_main_v109 (F := Ideal) x0 x1 x2 x3 x4 x5 x6 x7 x8 x9 x10 x11 x20
    = fun i => Cert.Spec.upd (R := 100000) (val_main_v78 (F := Ideal) x0 x1 x2 x3 x4 x5 x6 x7 x8 x9 x10 x11 x20) (val_main_v90 (F := Ideal) x0 x1 x2 x3 x4 x5 x6 x7 x8 x9 x10 x11 x20)
        (val_main_v93 (F := Ideal) x8) (val_main_v96 (F := Ideal) x9) (val_main_v102 (F := Ideal) x10) (val_main_v105 (F := Ideal) x11) (i 0) (i 1) := by
  funext i
  obtain ⟨r, q, rfl⟩ : ∃ (r : Fin 100000) (q : Fin 128), i = ix2 r q := ⟨i 0, i 1, eq_ix2 i⟩
  simp only [val_main_v109_apply, val_main_v108_apply, val_main_v103_apply, val_main_v100_apply, val_main_v99_apply,
    val_main_v94_apply, val_main_v91_apply, val_main_v98_apply, val_main_v97_apply, val_main_v107_apply, val_main_v106_apply,
    val_main_call8_v0_apply, val_main_call8_cst_apply, val_main_call9_v0_apply, val_main_call9_cst_apply,
    lidx_v103, ridx_v103, lidx_v94, ridx_v94, bias_v98, bias_v107,
    Ideal.addf_def, Ideal.maximumf_def, Ideal.ofBits_def, Ideal.ofBits_zero_f32]
  rfl

end Cert.ReferenceIdeal.RefVal

end
-- ==== Proof.RChain.lean ====
/-
  The reference computes the network: its two results are the network's two readouts of the arguments.

  Stage by stage the reference is the composition this unit's network function names: the encoders and each layer's
  messages and update are the specification's row functions (read off the reference's stages elsewhere); its gather,
  scatter-add, slices, pooling and readout heads are the very host operations the network function is written with.
-/
import proofs.«413676_j73890617360755_1_alg».proof.Proof.RefStages
import proofs.«413676_j73890617360755_1_alg».proof.Proof.Net

set_option maxRecDepth 16384

noncomputable section

namespace Cert.ReferenceIdeal.RefVal

open Cert.ReferenceIdeal Cert.ReferenceIdeal.Read
open Idealize.ShloMosaic Idealize.ShloMosaic.TcCoe Idealize.ShloMosaic.ValueIdx

variable (x0 : (⟨S100000x7, .f32⟩ : BufTy).Contents (Elt Ideal)) (x1 : (⟨S640000x3, .f32⟩ : BufTy).Contents (Elt Ideal))
  (x2 : (⟨S7x128, .f32⟩ : BufTy).Contents (Elt Ideal)) (x3 : (⟨S128, .f32⟩ : BufTy).Contents (Elt Ideal))
  (x4 : (⟨S3x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S3x128x128, .f32⟩ : BufTy).Contents (Elt Ideal)) (x9 : (⟨S3x128, .f32⟩ : BufTy).Contents (Elt Ideal))
  (x10 : (⟨S3x128x128, .f32⟩ : BufTy).Contents (Elt Ideal)) (x11 : (⟨S3x128, .f32⟩ : BufTy).Contents (Elt Ideal))
  (x12 : (⟨S128x64, .f32⟩ : BufTy).Contents (Elt Ideal)) (x13 : (⟨S64, .f32⟩ : BufTy).Contents (Elt Ideal))
  (x14 : (⟨S64x1, .f32⟩ : BufTy).Contents (Elt Ideal)) (x15 : (⟨S1, .f32⟩ : BufTy).Contents (Elt Ideal))
  (x16 : (⟨S128x64, .f32⟩ : BufTy).Contents (Elt Ideal)) (x17 : (⟨S64, .f32⟩ : BufTy).Contents (Elt Ideal))
  (x18 : (⟨S64x1, .f32⟩ : BufTy).Contents (Elt Ideal)) (x19 : (⟨S1, .f32⟩ : BufTy).Contents (Elt Ideal))
  (x20 : (⟨S2x640000, .i32⟩ : BufTy).Contents (Elt Ideal)) (x21 : (⟨S100000, .i32⟩ : BufTy).Contents (Elt Ideal))

/-! ## The host operations of the reference are the named host stretches

  Each is the same operation on the same operands; the stage it is applied to is carried as it stands. -/

/-- The source row of the edge list. -/
theorem v14_src : val_main_v14 (F := Ideal) x20 = Cert.KernelIdeal.Val.srcK x20 := by
  unfold val_main_v14 val_main_v13; rfl

/-- The destination row of the edge list. -/
theorem v16_dst : val_main_v16 (F := Ideal) x20 = Cert.KernelIdeal.Val.dstK x20 := by
  unfold val_main_v16 val_main_v15; rfl

/-- Layer 0's gathered features: the same gather, along the same wrapped source indices. -/
theorem v23_gather : val_main_v23 (F := Ideal) x0 x2 x3 x20
    = Cert.KernelIdeal.Val.gatherK (F := Ideal) (val_main_v3 (F := Ideal) x0 x2 x3) (Cert.KernelIdeal.Val.srcK x20) := by
  unfold val_main_v23 val_main_v22 val_main_v21 val_main_v20 val_main_v19 val_main_v18 val_main_v17 val_main_c val_main_c_0
  rw [v14_src]
  generalize val_main_v3 (F := Ideal) x0 x2 x3 = h
  rfl

/-- Layer 0's summed messages: the same scatter-add from zero, onto the same destination indices. -/
theorem v28_agg : val_main_v28 (F := Ideal) x0 x1 x2 x3 x4 x5 x6 x7 x20
    = Cert.KernelIdeal.Val.aggK (F := Ideal) (Cert.KernelIdeal.Val.dstK x20) (val_main_v25 (F := Ideal) x0 x1 x2 x3 x4 x5 x6 x7 x20) := by
  unfold val_main_v28 val_main_v27 val_main_v26 val_main_cst
  rw [v16_dst]
  generalize val_main_v25 (F := Ideal) x0 x1 x2 x3 x4 x5 x6 x7 x20 = mm
  rfl

/-- Layer 0's weights and biases: the same slices of the stacked arrays. -/
theorem v31_mat : val_main_v31 (F := Ideal) x8 = Cert.KernelIdeal.Val.mat0K (F := Ideal) x8 := by
  unfold val_main_v31 val_main_v30; rfl
theorem v34_vec : val_main_v34 (F := Ideal) x9 = Cert.KernelIdeal.Val.vec0K (F := Ideal) x9 := by
  unfold val_main_v34 val_main_v33; rfl
theorem v40_mat : val_main_v40 (F := Ideal) x10 = Cert.KernelIdeal.Val.mat0K (F := Ideal) x10 := by
  unfold val_main_v40 val_main_v39; rfl
theorem v43_vec : val_main_v43 (F := Ideal) x11 = Cert.KernelIdeal.Val.vec0K (F := Ideal) x11 := by
  unfold val_main_v43 val_main_v42; rfl

/-- Layer 1's gathered features: the same gather, along the same wrapped source indices. -/
theorem v54_gather : val_main_v54 (F := Ideal) x0 x1 x2 x3 x4 x5 x6 x7 x8 x9 x10 x11 x20
    = Cert.KernelIdeal.Val.gatherK (F := Ideal) (val_main_v47 (F := Ideal) x0 x1 x2 x3 x4 x5 x6 x7 x8 x9 x10 x11 x20) (Cert.KernelIdeal.Val.srcK x20) := by
  unfold val_main_v54 val_main_v53 val_main_v52 val_main_v51 val_main_v50 val_main_v49 val_main_v48 val_main_c_1 val_main_c_2
  rw [v14_src]
  generalize val_main_v47 (F := Ideal) x0 x1 x2 x3 x4 x5 x6 x7 x8 x9 x10 x11 x20 = h
  rfl

/-- Layer 1's summed messages: the same scatter-add from zero, onto the same destination indices. -/
theorem v59_agg : val_main_v59 (F := Ideal) x0 x1 x2 x3 x4 x5 x6 x7 x8 x9 x10 x11 x20
    = Cert.KernelIdeal.Val.aggK (F := Ideal) (Cert.KernelIdeal.Val.dstK x20) (val_main_v56 (F := Ideal) x0 x1 x2 x3 x4 x5 x6 x7 x8 x9 x10 x11 x20) := by
  unfold val_main_v59 val_main_v58 val_main_v57 val_main_cst_3
  rw [v16_dst]
  generalize val_main_v56 (F := Ideal) x0 x1 x2 x3 x4 x5 x6 x7 x8 x9 x10 x11 x20 = mm
  rfl

/-- Layer 1's weights and biases: the same slices of the stacked arrays. -/
theorem v62_mat : val_main_v62 (F := Ideal) x8 = Cert.KernelIdeal.Val.mat1K (F := Ideal) x8 := by
  unfold val_main_v62 val_main_v61; rfl
theorem v65_vec : val_main_v65 (F := Ideal) x9 = Cert.KernelIdeal.Val.vec1K (F := Ideal) x9 := by
  unfold val_main_v65 val_main_v64; rfl
theorem v71_mat : val_main_v71 (F := Ideal) x10 = Cert.KernelIdeal.Val.mat1K (F := Ideal) x10 := by
  unfold val_main_v71 val_main_v70; rfl
theorem v74_vec : val_main_v74 (F := Ideal) x11 = Cert.KernelIdeal.Val.vec1K (F := Ideal) x11 := by
  unfold val_main_v74 val_main_v73; rfl

/-- Layer 2's gathered features: the same gather, along the same wrapped source indices. -/
theorem v85_gather : val_main_v85 (F := Ideal) x0 x1 x2 x3 x4 x5 x6 x7 x8 x9 x10 x11 x20
    = Cert.KernelIdeal.Val.gatherK (F := Ideal) (val_main_v78 (F := Ideal) x0 x1 x2 x3 x4 x5 x6 x7 x8 x9 x10 x11 x20) (Cert.KernelIdeal.Val.srcK x20) := by
  unfold val_main_v85 val_main_v84 val_main_v83 val_main_v82 val_main_v81 val_main_v80 val_main_v79 val_main_c_4 val_main_c_5
  rw [v14_src]
  generalize val_main_v78 (F := Ideal) x0 x1 x2 x3 x4 x5 x6 x7 x8 x9 x10 x11 x20 = h
  rfl

/-- Layer 2's summed messages: the same scatter-add from zero, onto the same destination indices. -/
theorem v90_agg : val_main_v90 (F := Ideal) x0 x1 x2 x3 x4 x5 x6 x7 x8 x9 x10 x11 x20
    = Cert.KernelIdeal.Val.aggK (F := Ideal) (Cert.KernelIdeal.Val.dstK x20) (val_main_v87 (F := Ideal) x0 x1 x2 x3 x4 x5 x6 x7 x8 x9 x10 x11 x20) := by
  unfold val_main_v90 val_main_v89 val_main_v88 val_main_cst_6
  rw [v16_dst]
  generalize val_main_v87 (F := Ideal) x0 x1 x2 x3 x4 x5 x6 x7 x8 x9 x10 x11 x20 = mm
  rfl

/-- Layer 2's weights and biases: the same slices of the stacked arrays. -/
theorem v93_mat : val_main_v93 (F := Ideal) x8 = Cert.KernelIdeal.Val.mat2K (F := Ideal) x8 := by
  unfold val_main_v93 val_main_v92; rfl
theorem v96_vec : val_main_v96 (F := Ideal) x9 = Cert.KernelIdeal.Val.vec2K (F := Ideal) x9 := by
  unfold val_main_v96 val_main_v95; rfl
theorem v102_mat : val_main_v102 (F := Ideal) x10 = Cert.KernelIdeal.Val.mat2K (F := Ideal) x10 := by
  unfold val_main_v102 val_main_v101; rfl
theorem v105_vec : val_main_v105 (F := Ideal) x11 = Cert.KernelIdeal.Val.vec2K (F := Ideal) x11 := by
  unfold val_main_v105 val_main_v104; rfl

/-- The first result: the same pooling over each graph and the same readout head, applied to the final node features. -/
theorem v131_tail : val_main_v131 (F := Ideal) x0 x1 x2 x3 x4 x5 x6 x7 x8 x9 x10 x11 x12 x13 x14 x15 x20 x21
    = Cert.KernelIdeal.Val.headK (F := Ideal) (Cert.KernelIdeal.Val.poolK (F := Ideal) (val_main_v109 (F := Ideal) x0 x1 x2 x3 x4 x5 x6 x7 x8 x9 x10 x11 x20) x21) x12 x13 x14 x15 := by
  unfold val_main_v131 val_main_v130 val_main_v129 val_main_v128 val_main_v127 val_main_v126 val_main_call10_v0 val_main_call10_cst val_main_v125 val_main_v124 val_main_v123 val_main_v122 val_main_v121 val_main_v120 val_main_v119 val_main_v118 val_main_v117 val_main_cst_10 val_main_v116 val_main_v115 val_main_v114 val_main_cst_9 val_main_v113 val_main_v112 val_main_v111 val_main_cst_8 val_main_v110 val_main_cst_7
  generalize val_main_v109 (F := Ideal) x0 x1 x2 x3 x4 x5 x6 x7 x8 x9 x10 x11 x20 = h
  rfl

/-- The second result: the same pooling over each graph and the same readout head, applied to the final node features. -/
theorem v141_tail : val_main_v141 (F := Ideal) x0 x1 x2 x3 x4 x5 x6 x7 x8 x9 x10 x11 x16 x17 x18 x19 x20 x21
    = Cert.KernelIdeal.Val.headK (F := Ideal) (Cert.KernelIdeal.Val.poolK (F := Ideal) (val_main_v109 (F := Ideal) x0 x1 x2 x3 x4 x5 x6 x7 x8 x9 x10 x11 x20) x21) x16 x17 x18 x19 := by
  unfold val_main_v141 val_main_v140 val_main_v139 val_main_v138 val_main_v137 val_main_v136 val_main_call11_v0 val_main_call11_cst val_main_v135 val_main_v134 val_main_v133 val_main_v132 val_main_v121 val_main_v120 val_main_v119 val_main_v118 val_main_v117 val_main_cst_10 val_main_v116 val_main_v115 val_main_v114 val_main_cst_9 val_main_v113 val_main_v112 val_main_v111 val_main_cst_8 val_main_v110 val_main_cst_7
  generalize val_main_v109 (F := Ideal) x0 x1 x2 x3 x4 x5 x6 x7 x8 x9 x10 x11 x20 = h
  rfl

/-! ## The stages compose as the network does -/

/-- The reference's node features after layer 0 are the network's. -/
theorem v47_net : val_main_v47 (F := Ideal) x0 x1 x2 x3 x4 x5 x6 x7 x8 x9 x10 x11 x20 = Cert.KernelIdeal.Val.netH1 x0 x1 x2 x3 x4 x5 x6 x7 x8 x9 x10 x11 x20 := by
  rw [v47_eq, v28_agg, v31_mat, v34_vec, v40_mat, v43_vec, v25_eq, v23_gather, v12_eq, v3_eq]
  rfl

/-- The reference's node features after layer 1 are the network's. -/
theorem v78_net : val_main_v78 (F := Ideal) x0 x1 x2 x3 x4 x5 x6 x7 x8 x9 x10 x11 x20 = Cert.KernelIdeal.Val.netH2 x0 x1 x2 x3 x4 x5 x6 x7 x8 x9 x10 x11 x20 := by
  rw [v78_eq, v59_agg, v62_mat, v65_vec, v71_mat, v74_vec, v56_eq, v54_gather, v12_eq, v47_net]
  rfl

/-- The reference's node features after its third layer are the network's. -/
theorem v109_net : val_main_v109 (F := Ideal) x0 x1 x2 x3 x4 x5 x6 x7 x8 x9 x10 x11 x20 = Cert.KernelIdeal.Val.netH3 x0 x1 x2 x3 x4 x5 x6 x7 x8 x9 x10 x11 x20 := by
  rw [v109_eq, v90_agg, v93_mat, v96_vec, v102_mat, v105_vec, v87_eq, v85_gather, v12_eq, v78_net]
  rfl

/-- The reference's first result is the network's first readout. -/
theorem out1_eq : val_main_v131 (F := Ideal) x0 x1 x2 x3 x4 x5 x6 x7 x8 x9 x10 x11 x12 x13 x14 x15 x20 x21
    = Cert.KernelIdeal.Val.netOut x0 x1 x2 x3 x4 x5 x6 x7 x8 x9 x10 x11 x20 x21 x12 x13 x14 x15 := by
  rw [v131_tail, v109_net]
  rfl

/-- The reference's second result is the network's second readout. -/
theorem out2_eq : val_main_v141 (F := Ideal) x0 x1 x2 x3 x4 x5 x6 x7 x8 x9 x10 x11 x16 x17 x18 x19 x20 x21
    = Cert.KernelIdeal.Val.netOut x0 x1 x2 x3 x4 x5 x6 x7 x8 x9 x10 x11 x20 x21 x16 x17 x18 x19 := by
  rw [v141_tail, v109_net]
  rfl

end Cert.ReferenceIdeal.RefVal

end
-- ==== Proof.lean ====
/-
  A message-passing network on a graph of 100000 nodes and 640000 edges, in a program of eight pallas regions, against the
  same network written with plain array operations.

  Both programs encode the node and edge features by linear layers, then three times gather each edge's source node
  features, add the edge features and rectify, sum the messages onto their destination nodes, and update every node by
  two linear layers with rectifiers; the final node features are averaged per graph and read out by two small heads.
  The kernel does the dense, row-wise stages in its regions, a block of 10000 rows at a point, and leaves the gather,
  the scatter-add and the readout to host operations, which are the reference's own. Over the extended reals a change
  of float format is the identity and a matrix product is the plain sum over the contracted axis, so region by region
  the kernel's entries are the reference's: the same sums, of the same row, in the same order.

  The one difference between the programs is what the gather does with a source index outside the node range: the
  kernel's gather fills such a row with a fill value, the reference's clamps the index. The precondition keeps every
  source index inside [-100000, 100000) (a negative index counting from the end, as both programs read it), where the two
  gathers agree; nothing is assumed of the destination indices or of the graph assignment, which both programs treat
  alike. The finiteness of the float inputs is not used.

  The claims: each program runs to the end without a fault and leaves its arguments as launched (the kernel's two
  frames are generated whole; the reference's is its generated run with the results dropped); the idealized kernel is
  the kernel's own text read over the extended reals (nothing was rewritten); and the two idealized programs end with
  equal results, both being the network's two readouts of the launch arrays.
-/
import proofs.«413676_j73890617360755_1_alg».proof.Defs
import proofs.«413676_j73890617360755_1_alg».proof.Proof.Gen.Kernel
import proofs.«413676_j73890617360755_1_alg».proof.Proof.Gen.Kernel.Frame
import proofs.«413676_j73890617360755_1_alg».proof.Proof.Gen.KernelIdeal
import proofs.«413676_j73890617360755_1_alg».proof.Proof.Gen.KernelIdeal.Frame
import proofs.«413676_j73890617360755_1_alg».proof.Proof.Gen.ReferenceIdeal
import proofs.«413676_j73890617360755_1_alg».proof.Proof.Gen.Pre_finite_inputs
import proofs.«413676_j73890617360755_1_alg».proof.Proof.Gen.ReferenceIdeal.Run
import proofs.«413676_j73890617360755_1_alg».proof.Proof.Gen.ReferenceIdeal.Read
import proofs.«413676_j73890617360755_1_alg».proof.Proof.RunNamed
import proofs.«413676_j73890617360755_1_alg».proof.Proof.KChain
import proofs.«413676_j73890617360755_1_alg».proof.Proof.PreDecode
import proofs.«413676_j73890617360755_1_alg».proof.Proof.RChain
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, faults nowhere, and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments the two idealized programs end with the same two results: the network's
    two readouts of the launch arrays. The kernel's run ends with them by the walk through its twenty segments, given
    the source indices in range; the reference's run ends with its own composed term, which is the same network of
    its own arguments, and those are the kernel's. -/
theorem algebraic : Cert.algebraic_KernelIdeal_ReferenceIdeal := by
  intro m ρ m' ρ' hpre hagree
  refine ⟨fun c => Cert.KernelIdeal.Val.netOut
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
      fun c => Cert.KernelIdeal.Val.netOut
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg20))
          (m ((c.tc : Thread Cert.KernelIdeal.nD Cert.KernelIdeal.τ).loc Cert.KernelIdeal.main_arg21)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ?_) (Cert.KernelIdeal.Named.run_named (F := Ideal) m ρ)
    have hs : Cert.KernelIdeal.Val.SrcOk m c := fun e => Cert.KernelIdeal.Val.src_range m hpre c e
    obtain ⟨h69, h79, hargs⟩ := h c
    exact ⟨h69.trans (Cert.KernelIdeal.Val.W20_v69 m ρ c hs), h79.trans (Cert.KernelIdeal.Val.W20_v79 m ρ c hs), hargs⟩
  · refine (θ_run Cert.ReferenceIdeal.defs _ _).mono (fun r h c => ?_) (Cert.ReferenceIdeal.Value.run (F := Ideal) m' ρ')
    obtain ⟨h131, h141, hargs⟩ := h c
    obtain ⟨e0, e1, e2, e3, e4, e5, e6, e7, e8, e9, e10, e11, e12, e13, e14, e15, e16, e17, e18, e19, e20, e21⟩ := hagree c
    refine ⟨h131.trans ?_, h141.trans ?_, hargs⟩
    · rw [Cert.ReferenceIdeal.Read.val_main_v131_eq, Cert.ReferenceIdeal.RefVal.out1_eq,
        e0, e1, e2, e3, e4, e5, e6, e7, e8, e9, e10, e11, e12, e13, e14, e15, e20, e21]
    · rw [Cert.ReferenceIdeal.Read.val_main_v141_eq, Cert.ReferenceIdeal.RefVal.out2_eq,
        e0, e1, e2, e3, e4, e5, e6, e7, e8, e9, e10, e11, e16, e17, e18, e19, e20, e21]

/-- Everything the certificate claims. The ideal pass rewrote nothing, so its claim is the trivial one. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
